-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x100000 : Shape := ⟨2, ![256, 100000]⟩
abbrev S256 : Shape := ⟨1, ![256]⟩
abbrev S_ : Shape := ⟨0, ![]⟩

class Facts : Prop where
  bcast_S_S256x100000 : S_.BroadcastsInDim S256x100000 (![] : Fin 0 → Fin S256x100000.rank)
  reducesTo_S256x100000_S_d0_1 : S256x100000.ReducesTo [0, 1] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg3 : IVec S256 32) (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  let main_c_6 : IVec S_ 32 := constantI S_ 32 100000#32
  let main_v18 : IVec S256 32 := broadcastInDim S256 ![] bcast_S_S256 main_c_6
  let main_v19 : IVec S256 1 := cmpi .slt main_arg3 main_v18
  let main_c_7 : IVec S_ 1 := constantI S_ 1 1#1
  let main_v20 : IVec S_ 1 := (fun x v => Host.reduce IntOp.andi x v reducesTo_S256_S_d0 h_S_) main_v19 main_c_7
  let main_v21 : IVec S_ 1 := andi main_v17 main_v20
  main_v21

def fn {F : FTy → Type} [FloatOps F] (main_arg0 : FVec F S256x100000 .f32) (main_arg1 : FVec F S256x100000 .f32) (main_arg2 : FVec F S256 .f32) (main_arg3 : IVec S256 32) : IVec S_ 1 :=
  let main_v0 : FVec F S256x100000 .f32 := Host.absf main_arg0
  let main_cst : FVec F S_ .f32 := constant S_ .f32 0x7F800000#32
  let main_v1 : FVec F S256x100000 .f32 := broadcastInDim S256x100000 ![] bcast_S_S256x100000 main_cst
  let main_v2 : IVec S256x100000 1 := cmpf .olt main_v0 main_v1
  let main_c : IVec S_ 1 := constantI S_ 1 1#1
  let main_v3 : IVec S_ 1 := (fun x v => Host.reduce IntOp.andi x v reducesTo_S256x100000_S_d0_1 h_S_) main_v2 main_c
  let main_v4 : FVec F S256x100000 .f32 := Host.absf main_arg1
  let main_cst_0 : FVec F S_ .f32 := constant S_ .f32 0x7F800000#32
  let main_v5 : FVec F S256x100000 .f32 := broadcastInDim S256x100000 ![] bcast_S_S256x100000 main_cst_0
  let main_v6 : IVec S256x100000 1 := cmpf .olt main_v4 main_v5
  let main_c_1 : IVec S_ 1 := constantI S_ 1 1#1
  let main_v7 : IVec S_ 1 := (fun x v => Host.reduce IntOp.andi x v reducesTo_S256x100000_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg3 main_v14
  let main_c_5 : IVec S_ 1 := constantI S_ 1 1#1
  fn_part1 (F := F) main_arg3 main_v13 main_v15 main_c_5
-- ==== Kernel.lean ====
abbrev S256x100000 : Shape := ⟨2, ![256, 100000]⟩
abbrev S256 : Shape := ⟨1, ![256]⟩
abbrev S256x1 : Shape := ⟨2, ![256, 1]⟩
abbrev S_ : Shape := ⟨0, ![]⟩
abbrev S256x1x1 : Shape := ⟨3, ![256, 1, 1]⟩
abbrev S1 : Shape := ⟨1, ![1]⟩
abbrev S1x1x1 : Shape := ⟨3, ![1, 1, 1]⟩
abbrev S128x8192 : Shape := ⟨2, ![128, 8192]⟩
abbrev S128x1 : Shape := ⟨2, ![128, 1]⟩
abbrev S128 : Shape := ⟨1, ![128]⟩

abbrev nBuf : Space → Nat
  | .hbm => 45
  | .vmem => 12
  | .smem => 0
  | _ => 0

abbrev bufTy : (tb : Table) → Fin (tcTables nBuf tb) → BufTy
  | .hbm, ⟨0, _⟩ => ⟨S256x100000, .f32⟩
  | .hbm, ⟨1, _⟩ => ⟨S256x100000, .f32⟩
  | .hbm, ⟨2, _⟩ => ⟨S256, .f32⟩
  | .hbm, ⟨3, _⟩ => ⟨S256, .i32⟩
  | .hbm, ⟨4, _⟩ => ⟨S256x1, .i32⟩
  | .hbm, ⟨5, _⟩ => ⟨S_, .i32⟩
  | .hbm, ⟨6, _⟩ => ⟨S256x1, .i32⟩
  | .hbm, ⟨7, _⟩ => ⟨S256x1, .i1⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S256x1x1, .i32⟩
  | .hbm, ⟨13, _⟩ => ⟨S1, .i32⟩
  | .hbm, ⟨14, _⟩ => ⟨S_, .i32⟩
  | .hbm, ⟨15, _⟩ => ⟨S256x1x1, .i32⟩
  | .hbm, ⟨16, _⟩ => ⟨S256x1x1, .i1⟩
  | .hbm, ⟨17, _⟩ => ⟨S1x1x1, .i32⟩
  | .hbm, ⟨18, _⟩ => ⟨S256x1x1, .i32⟩
  | .hbm, ⟨19, _⟩ => ⟨S256x1x1, .i1⟩
  | .hbm, ⟨20, _⟩ => ⟨S256x1x1, .i1⟩
  | .hbm, ⟨21, _⟩ => ⟨S_, .i1⟩
  | .hbm, ⟨22, _⟩ => ⟨S256x1, .i1⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x100000, .f32⟩
  | .hbm, ⟨28, _⟩ => ⟨S256x1, .f32⟩
  | .hbm, ⟨29, _⟩ => ⟨S256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x1, .f32⟩
  | .local _ .vmem, ⟨3, _⟩ => ⟨S128x1, .f32⟩
  | .local _ .vmem, ⟨4, _⟩ => ⟨S128x1, .i32⟩
  | .local _ .vmem, ⟨5, _⟩ => ⟨S128x1, .i32⟩
  | .local _ .vmem, ⟨6, _⟩ => ⟨S128x8192, .f32⟩
  | .local _ .vmem, ⟨7, _⟩ => ⟨S128x8192, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2_0 : Ref sig .tc := ⟨.hbm, 27, rfl⟩
abbrev main_v2_1 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_cst_1 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_3 : Ref sig .tc := ⟨.hbm, 41, rfl⟩
abbrev main_v11 : Ref sig .tc := ⟨.hbm, 42, rfl⟩
abbrev main_cst_4 : Ref sig .tc := ⟨.hbm, 43, rfl⟩
abbrev main_v12 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 13], ![false, false]⟩

def k0_cond2 (i : grid0.Coords) : BitVec 1 :=
  let arg1 : BitVec 32 := BitVec.ofNat 32 (i 1).val
  let c12_i32 : BitVec 32 := 12#32
  let v14 : BitVec 1 := Scalar.cmpi .slt arg1 c12_i32
  let v15 : BitVec 32 := Scalar.extui v14
  let c0_i32_6 : BitVec 32 := 0#32
  let v16 : BitVec 1 := Scalar.cmpi .ne v15 c0_i32_6
  v16

def k0_cond3 (i : grid0.Coords) : BitVec 1 :=
  let arg1 : BitVec 32 := BitVec.ofNat 32 (i 1).val
  let c12_i32_7 : BitVec 32 := 12#32
  let v17 : BitVec 1 := Scalar.cmpi .eq arg1 c12_i32_7
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S256_S256x1 : S256.ShapeCasts S256x1
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  h_S_ : 0 < S_.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x8192_S128x8192_0_0 : ∀ a, (![0, 0] : Fin 2 → Nat) a + S128x8192.size a ≤ S128x8192.size a
  h_S128x8192 : 0 < S128x8192.numel
  iota_S128x8192_d1_w32 : S128x8192.Iotas .tc 32 [1]
  broadcasts_S128x1_S128x8192 : S128x1.Broadcasts S128x8192
  reduces_S128x8192_S128 : S128x8192.Reduces [1] S128
  shapeCasts_S128_S128x1 : S128.ShapeCasts S128x1
  natLt_1_32 : 1 < 32
  shapeCasts_S256x1_S256 : S256x1.ShapeCasts S256
  reducesTo_S256_S_d0 : S256.ReducesTo [0] S_
  bcast_S_S256 : S_.BroadcastsInDim S256 (![] : Fin 0 → Fin S256.rank)
  gather_S256x100000_S256x1x1_S256x1_n_1_0_0_1_2_11_wf : GatherDims.WF S256x100000 S256x1x1 S256x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x8192.size a < S256x100000.size a
  hwx0_0 : ∀ i : grid0.Coords, EltTy.bits .f32 = 32 ∨ (Rect.unit (s := S256x100000) (fun a => cc0_transform_0 i a * S128x8192.size a) (fun a => (Pipeline.Clip.of (cc0_transform_0 i a) (S128x8192.size a) (S256x100000.size a)).extent (S128x8192.size a)) fun a => Pipeline.Clip.inb (Pipeline.Clip.ok_of (hstart0_0 i a))).WholeWords (EltTy.packing .f32)
  hwxs0_0 : ∀ i : grid0.Coords, EltTy.bits .f32 = 32 ∨ (Rect.unit (s := S128x8192) (fun _ => 0) (fun a => (Pipeline.Clip.of (cc0_transform_0 i a) (S128x8192.size a) (S256x100000.size a)).extent (S128x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S256x1.size a
  hwx0_1 : ∀ i : grid0.Coords, EltTy.bits .f32 = 32 ∨ (Rect.block (s := S256x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .i32 = 32 ∨ (Rect.block (s := S256x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S128x8192.size a < S256x100000.size a
  hwx0_3 : ∀ i : grid0.Coords, EltTy.bits .f32 = 32 ∨ (Rect.unit (s := S256x100000) (fun a => cc0_transform_3 i a * S128x8192.size a) (fun a => (Pipeline.Clip.of (cc0_transform_3 i a) (S128x8192.size a) (S256x100000.size a)).extent (S128x8192.size a)) fun a => Pipeline.Clip.inb (Pipeline.Clip.ok_of (hstart0_3 i a))).WholeWords (EltTy.packing .f32)
  hwxs0_3 : ∀ i : grid0.Coords, EltTy.bits .f32 = 32 ∨ (Rect.unit (s := S128x8192) (fun _ => 0) (fun a => (Pipeline.Clip.of (cc0_transform_3 i a) (S128x8192.size a) (S256x100000.size a)).extent (S128x8192.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S256x1.size a
  hwx0_4 : ∀ i : grid0.Coords, EltTy.bits .f32 = 32 ∨ (Rect.block (s := S256x1) S128x1.size (cc0_transform_4 i) (hinb0_4 i)).WholeWords (EltTy.packing .f32)

variable [Facts₀]

def gather_S256x100000_S256x1x1_S256x1_n_1_0_0_1_2_11 : GatherDims S256x100000 S256x1x1 S256x1 where
  offsetDims := []
  collapsedSliceDims := [1]
  operandBatchingDims := [0]
  startIndicesBatchingDims := [0]
  startIndexMap := [1]
  indexVectorDim := 2
  sliceSizes := ![1, 1]
  wf := gather_S256x100000_S256x1x1_S256x1_n_1_0_0_1_2_11_wf

abbrev win0_0 : Pipeline.Window sig grid0 :=
  Pipeline.Window.ofSpecClip (Memref.whole main_arg0) S128x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v2_0) S128x8192.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v2_1) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) && !(k0_cond3 i == 1#1) | 4 => fun i => !(k0_cond3 i == 1#1) | ⟨_ + 5, h⟩ => absurd h (Nat.not_lt.2 (Nat.le_add_left _ _))

class Facts : Prop extends Facts₀ where

variable [Facts]
-- ==== ReferenceIdeal.lean ====
abbrev S256x100000 : Shape := ⟨2, ![256, 100000]⟩
abbrev S256 : Shape := ⟨1, ![256]⟩
abbrev S256x1 : Shape := ⟨2, ![256, 1]⟩
abbrev S1x100000 : Shape := ⟨2, ![1, 100000]⟩
abbrev S_ : Shape := ⟨0, ![]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S256x100000, .f32⟩
  | .hbm, ⟨2, _⟩ => ⟨S256, .f32⟩
  | .hbm, ⟨3, _⟩ => ⟨S256, .i32⟩
  | .hbm, ⟨4, _⟩ => ⟨S256x1, .i32⟩
  | .hbm, ⟨5, _⟩ => ⟨S1x100000, .i32⟩
  | .hbm, ⟨6, _⟩ => ⟨S256x100000, .i32⟩
  | .hbm, ⟨7, _⟩ => ⟨S256x100000, .i32⟩
  | .hbm, ⟨8, _⟩ => ⟨S256x100000, .i1⟩
  | .hbm, ⟨9, _⟩ => ⟨S256x100000, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256x100000, .f32⟩
  | .hbm, ⟨22, _⟩ => ⟨S_, .f32⟩
  | .hbm, ⟨23, _⟩ => ⟨S256x100000, .f32⟩
  | .hbm, ⟨24, _⟩ => ⟨S256x100000, .f32⟩
  | .hbm, ⟨25, _⟩ => ⟨S256x100000, .f32⟩
  | .hbm, ⟨26, _⟩ => ⟨S256x100000, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256x1, .f32⟩
  | .hbm, ⟨33, _⟩ => ⟨S256x100000, .f32⟩
  | .hbm, ⟨34, _⟩ => ⟨S256x100000, .f32⟩
  | .hbm, ⟨35, _⟩ => ⟨S256x100000, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S256x1, .f32⟩
  | .hbm, ⟨40, _⟩ => ⟨S256x100000, .f32⟩
  | .hbm, ⟨41, _⟩ => ⟨S256x100000, .f32⟩
  | .hbm, ⟨42, _⟩ => ⟨S256x1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S_, .i32⟩
  | .hbm, ⟨47, _⟩ => ⟨S256x1, .i32⟩
  | .hbm, ⟨48, _⟩ => ⟨S256x1, .i32⟩
  | .hbm, ⟨49, _⟩ => ⟨S256x1, .i32⟩
  | .hbm, ⟨50, _⟩ => ⟨S256x1x1, .i32⟩
  | .hbm, ⟨51, _⟩ => ⟨S1, .i32⟩
  | .hbm, ⟨52, _⟩ => ⟨S_, .i32⟩
  | .hbm, ⟨53, _⟩ => ⟨S256x1x1, .i32⟩
  | .hbm, ⟨54, _⟩ => ⟨S256x1x1, .i1⟩
  | .hbm, ⟨55, _⟩ => ⟨S1x1x1, .i32⟩
  | .hbm, ⟨56, _⟩ => ⟨S256x1x1, .i32⟩
  | .hbm, ⟨57, _⟩ => ⟨S256x1x1, .i1⟩
  | .hbm, ⟨58, _⟩ => ⟨S256x1x1, .i1⟩
  | .hbm, ⟨59, _⟩ => ⟨S_, .i1⟩
  | .hbm, ⟨60, _⟩ => ⟨S256x1, .i1⟩
  | .hbm, ⟨61, _⟩ => ⟨S256x1, .f32⟩
  | .hbm, ⟨62, _⟩ => ⟨S_, .f32⟩
  | .hbm, ⟨63, _⟩ => ⟨S256x1, .f32⟩
  | .hbm, ⟨64, _⟩ => ⟨S256x1, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_call1_cst_0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_cst_1 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_v13 : Ref sig .tc := ⟨.hbm, 41, rfl⟩
abbrev main_v14 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst_4 : Ref sig .tc := ⟨.hbm, 67, rfl⟩
abbrev main_v18 : Ref sig .tc := ⟨.hbm, 68, rfl⟩
abbrev main_cst_5 : Ref sig .tc := ⟨.hbm, 69, rfl⟩
abbrev main_v19 : Ref sig .tc := ⟨.hbm, 70, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S256x1_S256x100000_0_1 : S256x1.BroadcastsInDim S256x100000 (![0, 1] : Fin 2 → Fin S256x100000.rank)
  bcast_S1x100000_S256x100000_0_1 : S1x100000.BroadcastsInDim S256x100000 (![0, 1] : Fin 2 → Fin S256x100000.rank)
  bcast_S_S256 : S_.BroadcastsInDim S256 (![] : Fin 0 → Fin S256.rank)
  reducesTo_S256_S_d0 : S256.ReducesTo [0] S_
  h_S_ : 0 < S_.numel
  bcast_S_S256x100000 : S_.BroadcastsInDim S256x100000 (![] : Fin 0 → Fin S256x100000.rank)
  reducesTo_S256x100000_S256_d1 : S256x100000.ReducesTo [1] S256
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  gather_S256x100000_S256x1x1_S256x1_n_1_0_0_1_2_11_wf : GatherDims.WF S256x100000 S256x1x1 S256x1 [] [1] [0] [1] [0] 2 ![1, 1]

variable [Facts₀]

def gather_S256x100000_S256x1x1_S256x1_n_1_0_0_1_2_11 : GatherDims S256x100000 S256x1x1 S256x1 where
  offsetDims := []
  collapsedSliceDims := [1]
  operandBatchingDims := [0]
  startIndicesBatchingDims := [0]
  startIndexMap := [1]
  indexVectorDim := 2
  sliceSizes := ![1, 1]
  wf := gather_S256x100000_S256x1x1_S256x1_n_1_0_0_1_2_11_wf

class Facts : Prop extends Facts₀ where

variable [Facts]
-- ==== Proof.BState.lean ====
/-
  The kernel's state from point to point, as pure values.

  The grid has 2 x 13 points, point t = 13 * b + c (b the row tile of 128 rows, c the column tile of 8192 columns).
  Each point sees the block of cos_theta at (b, c) — at c = 12 only its first 1696 columns lie inside the array —,
  the 128 gathered margin logits and the 128 targets of row tile b. Two scratch columns are carried along a row
  tile: the running maximum and the running sum of exponentials. At c = 0 they are reset (to the sentinel and to
  zero) before use; at c < 12 the update reads the block unmasked; at c = 12 it masks the columns past the array's
  end and the loss column is written.
-/
import proofs.«409744_j20718922236693_3_alg».proof.Proof.Gen.Kernel.Frame
import proofs.«409744_j20718922236693_3_alg».proof.Proof.Gen.Kernel.Skeleton

noncomputable section

namespace Cert.Kernel.KS

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The block of cos_theta at point t as the body reads it: the part inside the array, and the zero word on the
    columns past the array's end (only the last column tile has any; nothing computed depends on them). -/
def xfull (c : Dev nD) (t : Fin cfg0.N) : Vec F S128x8192 .f32 :=
  win0_0.fill (grid0.coords t) (fun _ => Scalar.ofBits .f32 0#32) (iblk m c 0 t)

/-- The gathered margin logits of the point's row tile, a column of 128. -/
def cmblk (c : Dev nD) (t : Fin cfg0.N) : Vec F S128x1 .f32 := iblk m c 1 t

/-- The targets of the point's row tile, a column of 128. -/
def tblk (c : Dev nD) (t : Fin cfg0.N) : Vec F S128x1 .i32 := iblk m c 2 t

/-- The running maximum after an unmasked update (column tiles 0 to 11), from the maximum found. -/
def fastM (i : grid0.Coords) (x : Vec F S128x8192 .f32) (tg : Vec F S128x1 .i32) (cm : Vec F S128x1 .f32)
    (mo : Vec F S128x1 .f32) : Vec F S128x1 .f32 := k0_pay9 i x tg cm mo

/-- The running sum after an unmasked update, from the maximum and the sum found. -/
def fastL (i : grid0.Coords) (x : Vec F S128x8192 .f32) (tg : Vec F S128x1 .i32) (cm : Vec F S128x1 .f32)
    (mo lo : Vec F S128x1 .f32) : Vec F S128x1 .f32 := k0_pay8 i x tg cm mo mo lo

/-- The running maximum after the masked update of the last column tile. -/
def tailM (i : grid0.Coords) (x : Vec F S128x8192 .f32) (tg : Vec F S128x1 .i32) (cm : Vec F S128x1 .f32)
    (mo : Vec F S128x1 .f32) : Vec F S128x1 .f32 := k0_pay16 x (k0_pay3 cm) (k0_pay4 i) (k0_pay5 i tg) mo

/-- The running sum after the masked update of the last column tile. -/
def tailL (i : grid0.Coords) (x : Vec F S128x8192 .f32) (tg : Vec F S128x1 .i32) (cm : Vec F S128x1 .f32)
    (mo lo : Vec F S128x1 .f32) : Vec F S128x1 .f32 := k0_pay15 x (k0_pay3 cm) (k0_pay4 i) (k0_pay5 i tg) mo mo lo

/-- The two scratch columns (running maximum, running sum) after the body at point n: at the first column tile of
    a row tile from the reset values, else from what the point before left; masked at the last column tile. -/
def scAt (c : Dev nD) : (n : ℕ) → n < cfg0.N → Vec F S128x1 .f32 × Vec F S128x1 .f32
  | 0, hn =>
    (fastM (grid0.coords ⟨0, hn⟩) (xfull m c ⟨0, hn⟩) (tblk m c ⟨0, hn⟩) (cmblk m c ⟨0, hn⟩) (k0_pay1 (F := F)),
     fastL (grid0.coords ⟨0, hn⟩) (xfull m c ⟨0, hn⟩) (tblk m c ⟨0, hn⟩) (cmblk m c ⟨0, hn⟩) (k0_pay1 (F := F)) (k0_pay2 (F := F)))
  | n + 1, hn =>
    if (n + 1) % 13 = 0 then
      (fastM (grid0.coords ⟨n + 1, hn⟩) (xfull m c ⟨n + 1, hn⟩) (tblk m c ⟨n + 1, hn⟩) (cmblk m c ⟨n + 1, hn⟩) (k0_pay1 (F := F)),
       fastL (grid0.coords ⟨n + 1, hn⟩) (xfull m c ⟨n + 1, hn⟩) (tblk m c ⟨n + 1, hn⟩) (cmblk m c ⟨n + 1, hn⟩) (k0_pay1 (F := F)) (k0_pay2 (F := F)))
    else if (n + 1) % 13 = 12 then
      (tailM (grid0.coords ⟨n + 1, hn⟩) (xfull m c ⟨n + 1, hn⟩) (tblk m c ⟨n + 1, hn⟩) (cmblk m c ⟨n + 1, hn⟩) (scAt c n (Nat.lt_of_succ_lt hn)).1,
       tailL (grid0.coords ⟨n + 1, hn⟩) (xfull m c ⟨n + 1, hn⟩) (tblk m c ⟨n + 1, hn⟩) (cmblk m c ⟨n + 1, hn⟩) (scAt c n (Nat.lt_of_succ_lt hn)).1 (scAt c n (Nat.lt_of_succ_lt hn)).2)
    else
      (fastM (grid0.coords ⟨n + 1, hn⟩) (xfull m c ⟨n + 1, hn⟩) (tblk m c ⟨n + 1, hn⟩) (cmblk m c ⟨n + 1, hn⟩) (scAt c n (Nat.lt_of_succ_lt hn)).1,
       fastL (grid0.coords ⟨n + 1, hn⟩) (xfull m c ⟨n + 1, hn⟩) (tblk m c ⟨n + 1, hn⟩) (cmblk m c ⟨n + 1, hn⟩) (scAt c n (Nat.lt_of_succ_lt hn)).1 (scAt c n (Nat.lt_of_succ_lt hn)).2)

/-- The block of the one-hot result the body stores at point t (every point stores it): 1 where the global column
    equals the row's target, else 0. -/
def oneHotBlk (c : Dev nD) (t : Fin cfg0.N) : Vec F S128x8192 .f32 := k0_pay10 (grid0.coords t) (tblk m c t)

/-- The loss column the body stores at a last column tile: maximum + log(sum) - margin logit, of that point's scratch. -/
def lossBlk (c : Dev nD) (t : Fin cfg0.N) : Vec F S128x1 .f32 :=
  k0_pay11 (scAt m c t.val t.isLt).1 (k0_pay18 (scAt m c t.val t.isLt).2) (cmblk m c t)

/-- scAt at the first column tile of a row tile. -/
theorem scAt_first (c : Dev nD) (t : Fin cfg0.N) (h : t.val % 13 = 0) :
    scAt m c t.val t.isLt =
      (fastM (grid0.coords t) (xfull m c t) (tblk m c t) (cmblk m c t) (k0_pay1 (F := F)),
       fastL (grid0.coords t) (xfull m c t) (tblk m c t) (cmblk m c t) (k0_pay1 (F := F)) (k0_pay2 (F := F))) := by
  obtain ⟨n, hn⟩ := t
  cases n with
  | zero => rfl
  | succ n => exact (if_pos h).trans rfl

/-- scAt at a middle column tile. -/
theorem scAt_mid (c : Dev nD) (t : Fin cfg0.N) (h0 : ¬t.val % 13 = 0) (h12 : ¬t.val % 13 = 12) :
    scAt m c t.val t.isLt =
      (fastM (grid0.coords t) (xfull m c t) (tblk m c t) (cmblk m c t) (scAt m c (t.val - 1) (Nat.lt_of_le_of_lt (Nat.sub_le _ _) t.isLt)).1,
       fastL (grid0.coords t) (xfull m c t) (tblk m c t) (cmblk m c t) (scAt m c (t.val - 1) (Nat.lt_of_le_of_lt (Nat.sub_le _ _) t.isLt)).1
         (scAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h12).trans rfl)

/-- scAt at the last column tile. -/
theorem scAt_last (c : Dev nD) (t : Fin cfg0.N) (h0 : ¬t.val % 13 = 0) (h12 : t.val % 13 = 12) :
    scAt m c t.val t.isLt =
      (tailM (grid0.coords t) (xfull m c t) (tblk m c t) (cmblk m c t) (scAt m c (t.val - 1) (Nat.lt_of_le_of_lt (Nat.sub_le _ _) t.isLt)).1,
       tailL (grid0.coords t) (xfull m c t) (tblk m c t) (cmblk m c t) (scAt m c (t.val - 1) (Nat.lt_of_le_of_lt (Nat.sub_le _ _) t.isLt)).1
         (scAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_pos h12).trans rfl)

end Cert.Kernel.KS

end
-- ==== Proof.BDats.lean ====
/-
  The proof data of the kernel's pipeline: what every window's staging buffer holds after the body at each point,
  and the invariant that carries the two scratch columns from point to point.

  After the body at point t: the three inputs' buffers hold their blocks (the logits' block filled out with the zero
  word past the array's end); the one-hot result's buffer holds the point's one-hot block; the loss result's buffer
  holds, at a last column tile, the loss column (at the other points the body leaves it alone, and nothing is stated).
  Before the first point the scratch columns hold anything; before point n + 1 they hold the running maximum and the
  running sum that point n left.
-/
import proofs.«409744_j20718922236693_3_alg».proof.Proof.BState
import Idealize.ShloMosaic.Lib.Pipeline.FrameBody
import Idealize.ShloMosaic.Lib.Pipeline.FrameSuffix
import Idealize.ShloMosaic.Lib.Tactic

noncomputable section

namespace Cert.Kernel.KS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch operands: the running maximum's buffer and the running sum's. -/
abbrev scM0 : Memref sig .tc .vmem S128x1 .f32 := Memref.whole cc0_scratch0
abbrev scM1 : Memref sig .tc .vmem S128x1 .f32 := Memref.whole cc0_scratch1

/-- What the launch hands the region, with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position n: before the first point the scratch columns at anything; afterwards at what the
    point before left (scAt). The generator register at some state throughout. -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2)) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => oneHotBlk m c t
    | ⟨4, _⟩ => lossBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xfull m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = oneHotBlk m c t := by dsimp only [dats]
theorem after4 (c : Dev nD) (t : Fin cfg0.N) : (dats m 0 c).after 4 t = lossBlk m c t := by dsimp only [dats]

end Cert.Kernel.KS

end
-- ==== Proof.BCases.lean ====
/-
  The body's three branches over the grid, decided once.

  Point t = 13 b + c. The reset branch is taken at c = 0, the unmasked update at c < 12, the masked update with the
  loss store at c = 12: so a point is in one of three cases — first (reset, unmasked update), middle (unmasked
  update), last (masked update, loss store). The loss window is idle, and not written back, except at the last
  column tile; the logits' window is cut only there.
-/
import proofs.«409744_j20718922236693_3_alg».proof.Proof.BDats

set_option maxRecDepth 16384

noncomputable section

namespace Cert.Kernel.KS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The reset branch's condition (column tile 0), as the body computes it. -/
abbrev cond0 (i : grid0.Coords) : Prop := (Scalar.cmpi .ne (Scalar.extui (Scalar.cmpi .eq (BitVec.ofNat 32 (i 1).val) 0#32)) 0#32) = 1#1
/-- The unmasked update's condition (column tile below 12). -/
abbrev cond1 (i : grid0.Coords) : Prop := k0_cond2 i = 1#1
/-- The masked update's condition (column tile 12). -/
abbrev cond2 (i : grid0.Coords) : Prop := k0_cond3 i = 1#1

theorem hcond0 : ∀ t : Fin cfg0.N, cond0 (grid0.coords t) ↔ t.val % 13 = 0 :=
  (by decide +kernel : ∀ t : Fin grid0.N, cond0 (grid0.coords t) ↔ t.val % 13 = 0)
theorem hcond1 : ∀ t : Fin cfg0.N, cond1 (grid0.coords t) ↔ ¬t.val % 13 = 12 :=
  (by decide +kernel : ∀ t : Fin grid0.N, cond1 (grid0.coords t) ↔ ¬t.val % 13 = 12)
theorem hcond2 : ∀ t : Fin cfg0.N, cond2 (grid0.coords t) ↔ t.val % 13 = 12 :=
  (by decide +kernel : ∀ t : Fin grid0.N, cond2 (grid0.coords t) ↔ t.val % 13 = 12)

/-- The inputs and the one-hot result are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The loss window is idle and not written back before the last column tile, live at it. -/
theorem idle4 : ∀ t : Fin cfg0.N, ¬t.val % 13 = 12 → cfg0.idle 4 (grid0.coords t) = true := by decide +kernel
theorem noFlush4 : ∀ t : Fin cfg0.N, ¬t.val % 13 = 12 → (cfg0.win 4).flush t = false := by decide +kernel
theorem live4 : ∀ t : Fin cfg0.N, t.val % 13 = 12 → cfg0.idle 4 (grid0.coords t) = false := by decide +kernel
/-- Before the last column tile the logits' block lies inside the array: nothing is cut. -/
theorem noClip0 : ∀ t : Fin cfg0.N, ¬t.val % 13 = 12 → ∀ a, (cfg0.win 0).clip (grid0.coords t) a = none := by decide +kernel

/-- Each window's current staging memref at point t, as the pipeline passes it, and its wholeness. -/
abbrev ms0 (t : Fin cfg0.N) : Memref sig .tc .vmem S128x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)

/-- Views through which the outputs' and the scratch columns' contents are stated. -/
abbrev VO3 : View sig .tc .vmem S128x8192 .f32 := (Memref.whole cc0_stg3_0 : Memref sig .tc .vmem S128x8192 .f32).view
abbrev VO4 : View sig .tc .vmem S128x1 .f32 := (Memref.whole cc0_stg4_0 : Memref sig .tc .vmem S128x1 .f32).view
abbrev VS0 : View sig .tc .vmem S128x1 .f32 := (scM0 : Memref sig .tc .vmem S128x1 .f32).view
abbrev VS1 : View sig .tc .vmem S128x1 .f32 := (scM1 : Memref sig .tc .vmem S128x1 .f32).view

end Cert.Kernel.KS

end
-- ==== Proof.BRunB.lean ====
/-
  The body at a middle column tile (0 < c < 12): no reset, the unmasked update, no loss store. On whole staging
  memrefs holding the three input blocks, with the scratch columns at what the point before left, the body runs and
  leaves the inputs as they were, the loss buffer untouched, and the one-hot buffer and the two scratch columns with
  its stores written; the stores are the witness the run finds.
-/
import proofs.«409744_j20718922236693_3_alg».proof.Proof.BCases

set_option maxRecDepth 16384

noncomputable section

namespace Cert.Kernel.KS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    Σ' (L3 : List (View.Piece (Elt F) S128x8192 .f32)) (LS0 : List (View.Piece (Elt F) S128x1 .f32)), { LS1 : List (View.Piece (Elt F) S128x1 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hf4; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.Kernel.KS

end
-- ==== Proof.BRunA.lean ====
/-
  The body at the first column tile of a row tile (c = 0): the scratch columns, whatever they hold, are reset (to the
  sentinel and to zero), then the unmasked update runs on the reset values; no loss store. The stores into the
  one-hot buffer and the two scratch columns are the witness the run finds.
-/
import proofs.«409744_j20718922236693_3_alg».proof.Proof.BRunB

set_option maxRecDepth 16384

noncomputable section

namespace Cert.Kernel.KS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    Σ' (L3 : List (View.Piece (Elt F) S128x8192 .f32)) (LS0 : List (View.Piece (Elt F) S128x1 .f32)), { LS1 : List (View.Piece (Elt F) S128x1 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.Kernel.KS

end
-- ==== Proof.BRunC.lean ====
/-
  The body at the last column tile (c = 12): no reset, no unmasked update; the masked update on what the point before
  left in the scratch columns, then the loss column is stored. The stores into the one-hot buffer, the loss buffer
  and the two scratch columns are the witness the run finds.
-/
import proofs.«409744_j20718922236693_3_alg».proof.Proof.BRunA

set_option maxRecDepth 16384

noncomputable section

namespace Cert.Kernel.KS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    Σ' (L3 : List (View.Piece (Elt F) S128x8192 .f32)) (L4 : List (View.Piece (Elt F) S128x1 .f32)) (LS0 : List (View.Piece (Elt F) S128x1 .f32)), { LS1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.KS

end
-- ==== Proof.BPieces.lean ====
/-
  What the body's stores leave, case by case, as pure values: each buffer the body stores into is covered by its
  stores, and read back it holds the generated payload of the last store — the one-hot block, the new running maximum,
  the new running sum, and at the last column tile the loss column — as a function of the three input blocks and of the
  scratch columns found.
-/
import proofs.«409744_j20718922236693_3_alg».proof.Proof.BRunC
import Idealize.ShloMosaic.Lib.Pipeline.Value

set_option maxRecDepth 16384

noncomputable section

namespace Cert.Kernel.KS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## A middle column tile -/

theorem coverB3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) (y : S128x8192.Idx) :
    ∃ pc ∈ (kernelRunB c i arg2 harg2 arg3 harg3 arg4 harg4 arg5 harg5 arg6 harg6 arg7 harg7 arg8 harg8 hc0 hc1 hc2 x0 x1 x2 xs0 xs1).1, y ∈ pc.1.set :=
  View.cover_of_tiledL (kernelRunB c i arg2 harg2 arg3 harg3 arg4 harg4 arg5 harg5 arg6 harg6 arg7 harg7 arg8 harg8 hc0 hc1 hc2 x0 x1 x2 xs0 xs1).1 S128x8192.size (by sl_kernel_rfl) y

theorem coverBS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) (y : S128x1.Idx) :
    ∃ pc ∈ (kernelRunB c i arg2 harg2 arg3 harg3 arg4 harg4 arg5 harg5 arg6 harg6 arg7 harg7 arg8 harg8 hc0 hc1 hc2 x0 x1 x2 xs0 xs1).2.1, y ∈ pc.1.set :=
  View.cover_of_tiledL (kernelRunB c i arg2 harg2 arg3 harg3 arg4 harg4 arg5 harg5 arg6 harg6 arg7 harg7 arg8 harg8 hc0 hc1 hc2 x0 x1 x2 xs0 xs1).2.1 S128x1.size (by sl_kernel_rfl) y

theorem coverBS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) (y : S128x1.Idx) :
    ∃ pc ∈ (kernelRunB c i arg2 harg2 arg3 harg3 arg4 harg4 arg5 harg5 arg6 harg6 arg7 harg7 arg8 harg8 hc0 hc1 hc2 x0 x1 x2 xs0 xs1).2.2.1, y ∈ pc.1.set :=
  View.cover_of_tiledL (kernelRunB c i arg2 harg2 arg3 harg3 arg4 harg4 arg5 harg5 arg6 harg6 arg7 harg7 arg8 harg8 hc0 hc1 hc2 x0 x1 x2 xs0 xs1).2.2.1 S128x1.size (by sl_kernel_rfl) y

/-- The one-hot buffer holds the point's one-hot block. -/
theorem canonB3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    View.canon (kernelRunB c i arg2 harg2 arg3 harg3 arg4 harg4 arg5 harg5 arg6 harg6 arg7 harg7 arg8 harg8 hc0 hc1 hc2 x0 x1 x2 xs0 xs1).1 = k0_pay10 i x2 := by
  unfold kernelRunB; dsimp only; sl_unfold_words
  rw [View.canon_unit_zero hz2]
  simp only [View.readAt_eq_ld, harg2.read_unread, harg3.read_unread, harg4.read_unread, harg7.read_unread, harg8.read_unread, View.ld_unit_zero (S := S128x8192) hz2, View.ld_unit_zero (S := S128x1) hz2]

/-- The first scratch column holds the new running maximum. -/
theorem canonBS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    View.canon (kernelRunB c i arg2 harg2 arg3 harg3 arg4 harg4 arg5 harg5 arg6 harg6 arg7 harg7 arg8 harg8 hc0 hc1 hc2 x0 x1 x2 xs0 xs1).2.1 = fastM i x0 x2 x1 xs0 := by
  unfold kernelRunB; dsimp only; sl_unfold_words
  rw [View.canon_unit_zero hz2]
  simp only [View.readAt_eq_ld, harg2.read_unread, harg3.read_unread, harg4.read_unread, harg7.read_unread, harg8.read_unread, View.ld_unit_zero (S := S128x8192) hz2, View.ld_unit_zero (S := S128x1) hz2]
  rfl

/-- The second scratch column holds the new running sum. -/
theorem canonBS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    View.canon (kernelRunB c i arg2 harg2 arg3 harg3 arg4 harg4 arg5 harg5 arg6 harg6 arg7 harg7 arg8 harg8 hc0 hc1 hc2 x0 x1 x2 xs0 xs1).2.2.1 = fastL i x0 x2 x1 xs0 xs1 := by
  unfold kernelRunB; dsimp only; sl_unfold_words
  rw [View.canon_unit_zero hz2]
  simp only [View.readAt_eq_ld, harg2.read_unread, harg3.read_unread, harg4.read_unread, harg7.read_unread, harg8.read_unread, View.ld_unit_zero (S := S128x8192) hz2, View.ld_unit_zero (S := S128x1) hz2]
  rfl

/-! ## The first column tile of a row tile -/

theorem coverA3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) (y : S128x8192.Idx) :
    ∃ pc ∈ (kernelRunA c i arg2 harg2 arg3 harg3 arg4 harg4 arg5 harg5 arg6 harg6 arg7 harg7 arg8 harg8 hc0 hc1 hc2 x0 x1 x2).1, y ∈ pc.1.set :=
  View.cover_of_tiledL (kernelRunA c i arg2 harg2 arg3 harg3 arg4 harg4 arg5 harg5 arg6 harg6 arg7 harg7 arg8 harg8 hc0 hc1 hc2 x0 x1 x2).1 S128x8192.size (by sl_kernel_rfl) y

theorem coverAS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) (y : S128x1.Idx) :
    ∃ pc ∈ (kernelRunA c i arg2 harg2 arg3 harg3 arg4 harg4 arg5 harg5 arg6 harg6 arg7 harg7 arg8 harg8 hc0 hc1 hc2 x0 x1 x2).2.1, y ∈ pc.1.set :=
  View.cover_of_tiledL (kernelRunA c i arg2 harg2 arg3 harg3 arg4 harg4 arg5 harg5 arg6 harg6 arg7 harg7 arg8 harg8 hc0 hc1 hc2 x0 x1 x2).2.1 S128x1.size (by sl_kernel_rfl) y

theorem coverAS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) (y : S128x1.Idx) :
    ∃ pc ∈ (kernelRunA c i arg2 harg2 arg3 harg3 arg4 harg4 arg5 harg5 arg6 harg6 arg7 harg7 arg8 harg8 hc0 hc1 hc2 x0 x1 x2).2.2.1, y ∈ pc.1.set :=
  View.cover_of_tiledL (kernelRunA c i arg2 harg2 arg3 harg3 arg4 harg4 arg5 harg5 arg6 harg6 arg7 harg7 arg8 harg8 hc0 hc1 hc2 x0 x1 x2).2.2.1 S128x1.size (by sl_kernel_rfl) y

/-- The one-hot buffer holds the point's one-hot block. -/
theorem canonA3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    View.canon (kernelRunA c i arg2 harg2 arg3 harg3 arg4 harg4 arg5 harg5 arg6 harg6 arg7 harg7 arg8 harg8 hc0 hc1 hc2 x0 x1 x2).1 = k0_pay10 i x2 := by
  unfold kernelRunA; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The first scratch column holds the running maximum from the reset value. -/
theorem canonAS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    View.canon (kernelRunA c i arg2 harg2 arg3 harg3 arg4 harg4 arg5 harg5 arg6 harg6 arg7 harg7 arg8 harg8 hc0 hc1 hc2 x0 x1 x2).2.1 = fastM i x0 x2 x1 (k0_pay1 (F := F)) := by
  unfold kernelRunA; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The second scratch column holds the running sum from the reset values. -/
theorem canonAS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    View.canon (kernelRunA c i arg2 harg2 arg3 harg3 arg4 harg4 arg5 harg5 arg6 harg6 arg7 harg7 arg8 harg8 hc0 hc1 hc2 x0 x1 x2).2.2.1 = fastL i x0 x2 x1 (k0_pay1 (F := F)) (k0_pay2 (F := F)) := by
  unfold kernelRunA; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-! ## The last column tile -/

theorem coverC3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x8192.Idx) :
    ∃ pc ∈ (kernelRunC c i arg2 harg2 arg3 harg3 arg4 harg4 arg5 harg5 arg6 harg6 arg7 harg7 arg8 harg8 hc0 hc1 hc2 x0 x1 x2 xs0 xs1).1, y ∈ pc.1.set :=
  View.cover_of_tiledL (kernelRunC c i arg2 harg2 arg3 harg3 arg4 harg4 arg5 harg5 arg6 harg6 arg7 harg7 arg8 harg8 hc0 hc1 hc2 x0 x1 x2 xs0 xs1).1 S128x8192.size (by sl_kernel_rfl) y

theorem coverC4 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x1.Idx) :
    ∃ pc ∈ (kernelRunC c i arg2 harg2 arg3 harg3 arg4 harg4 arg5 harg5 arg6 harg6 arg7 harg7 arg8 harg8 hc0 hc1 hc2 x0 x1 x2 xs0 xs1).2.1, y ∈ pc.1.set :=
  View.cover_of_tiledL (kernelRunC c i arg2 harg2 arg3 harg3 arg4 harg4 arg5 harg5 arg6 harg6 arg7 harg7 arg8 harg8 hc0 hc1 hc2 x0 x1 x2 xs0 xs1).2.1 S128x1.size (by sl_kernel_rfl) y

theorem coverCS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x1.Idx) :
    ∃ pc ∈ (kernelRunC c i arg2 harg2 arg3 harg3 arg4 harg4 arg5 harg5 arg6 harg6 arg7 harg7 arg8 harg8 hc0 hc1 hc2 x0 x1 x2 xs0 xs1).2.2.1, y ∈ pc.1.set :=
  View.cover_of_tiledL (kernelRunC c i arg2 harg2 arg3 harg3 arg4 harg4 arg5 harg5 arg6 harg6 arg7 harg7 arg8 harg8 hc0 hc1 hc2 x0 x1 x2 xs0 xs1).2.2.1 S128x1.size (by sl_kernel_rfl) y

theorem coverCS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x1.Idx) :
    ∃ pc ∈ (kernelRunC c i arg2 harg2 arg3 harg3 arg4 harg4 arg5 harg5 arg6 harg6 arg7 harg7 arg8 harg8 hc0 hc1 hc2 x0 x1 x2 xs0 xs1).2.2.2.1, y ∈ pc.1.set :=
  View.cover_of_tiledL (kernelRunC c i arg2 harg2 arg3 harg3 arg4 harg4 arg5 harg5 arg6 harg6 arg7 harg7 arg8 harg8 hc0 hc1 hc2 x0 x1 x2 xs0 xs1).2.2.2.1 S128x1.size (by sl_kernel_rfl) y

/-- The one-hot buffer holds the point's one-hot block. -/
theorem canonC3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).1 = k0_pay10 i x2 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The loss buffer holds the new maximum plus the log of the new sum, minus the margin logits. -/
theorem canonC4 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).2.1 = k0_pay11 (tailM i x0 x2 x1 xs0) (k0_pay18 (tailL i x0 x2 x1 xs0 xs1)) x1 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The first scratch column holds the new running maximum of the masked update. -/
theorem canonCS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).2.2.1 = tailM i x0 x2 x1 xs0 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The second scratch column holds the new running sum of the masked update. -/
theorem canonCS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).2.2.2.1 = tailL i x0 x2 x1 xs0 xs1 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

end Cert.Kernel.KS

end
-- ==== Proof.BTailIndep.lean ====
/-
  At the last column tile the block of logits overhangs the array: only its first 1696 columns are the array's, and
  the staging buffer holds arbitrary words on the others. The masked update never uses them: a column is kept only
  where its global index 98304 + q is below 100000, that is q < 1696, and replaced by the sentinel elsewhere. So the
  running maximum and the running sum after the masked update are the same for any two fillings of the overhang.
-/
import proofs.«409744_j20718922236693_3_alg».proof.Proof.BState
import Idealize.ShloMosaic.Lib.Pipeline.Value
import Idealize.ShloMosaic.Lib.StableHlo.Predicate

noncomputable section

namespace Cert.Kernel.KS

open Cert.Kernel Cert.Kernel.Gen
open Idealize.ShloMosaic Idealize.ShloMosaic.TcCoe
open Idealize.SL Idealize.SL.Sem

variable {F : FTy → Type} [FloatOps F]

/-- The global column index of the last column tile at a block index: 98304 + the block's column. -/
theorem pay4_last_apply (i : grid0.Coords) (h12 : (i 1).val = 12) (j : S128x8192.Idx) :
    k0_pay4 i j = BitVec.ofNat 32 (98304 + (j 1).val) := by
  unfold k0_pay4
  show IntOp.addi (iota .tc S128x8192 32 [1] iota_S128x8192_d1_w32 j) (Scalar.muli (BitVec.ofNat 32 (i 1).val) 8192#32) = _
  rw [iota_single_apply, h12]
  -- 12 * 8192 = 98304, and adding words below 2^32 is adding numbers
  show BitVec.ofNat 32 (j 1).val + BitVec.ofNat 32 98304 = _
  rw [← BitVec.ofNat_add, Nat.add_comm]

/-- The mask of the last column tile is set exactly on the block's columns below 1696. -/
theorem mask_last_iff (i : grid0.Coords) (h12 : (i 1).val = 12) (j : S128x8192.Idx) :
    k0_pay12 (k0_pay4 i) j = 1#1 ↔ (j 1).val < 1696 := by
  have hq : (j 1).val < 8192 := (j 1).isLt
  show IntOp.cmpi .slt (k0_pay4 i j) 100000#32 = 1#1 ↔ _
  rw [pay4_last_apply i h12 j]
  have ht : (BitVec.ofNat 32 (98304 + (j 1).val)).toNat = 98304 + (j 1).val := by
    rw [BitVec.toNat_ofNat]; omega
  have hc : (100000#32 : BitVec 32).toNat = 100000 := rfl
  have h1 : (BitVec.ofNat 32 (98304 + (j 1).val)).toNat < 2 ^ 31 := by rw [ht]; omega
  have h2 : (100000#32 : BitVec 32).toNat < 2 ^ 31 := by decide
  rw [StableHlo.Predicate.slt_iff_toNat h1 h2, ht, hc]
  omega

/-- Axis 0 of the block of logits is never cut. -/
theorem xsize_last_0 (i : grid0.Coords) : win0_0.xsize i 0 = 128 := by
  have hi : (i 0).val < 2 := (i 0).isLt
  have hix : cc0_transform_0 i 0 = (i 0).val := by
    show (BitVec.ofNat 32 (i 0).val).toNat = (i 0).val
    rw [BitVec.toNat_ofNat]; omega
  show (Pipeline.Clip.of (cc0_transform_0 i 0) 128 256).extent 128 = 128
  rw [hix]
  unfold Pipeline.Clip.of
  rw [if_pos (by omega)]

/-- At the last column tile axis 1 is cut to the array's last 1696 columns. -/
theorem xsize_last_1 (i : grid0.Coords) (h12 : (i 1).val = 12) : win0_0.xsize i 1 = 1696 := by
  have hix : cc0_transform_0 i 1 = 12 := by
    show (BitVec.ofNat 32 (i 1).val).toNat = 12
    rw [h12]; rfl
  show (Pipeline.Clip.of (cc0_transform_0 i 1) 8192 100000).extent 8192 = 1696
  rw [hix]
  rfl

/-- At the last column tile an index of the block is moved exactly when its column is below 1696. -/
theorem moved_last_iff (i : grid0.Coords) (h12 : (i 1).val = 12) (j : S128x8192.Idx) :
    win0_0.moved i j = true ↔ (j 1).val < 1696 := by
  rw [Pipeline.Window.moved_iff]
  constructor
  · intro h
    have h1 := h 1
    rw [xsize_last_1 i h12] at h1
    exact h1
  · intro h a
    match a with
    | ⟨0, _⟩ =>
      show (j 0).val < win0_0.xsize i 0
      rw [xsize_last_0 i]
      exact (j 0).isLt
    | ⟨1, _⟩ =>
      show (j 1).val < win0_0.xsize i 1
      rw [xsize_last_1 i h12]
      exact h

/-- The masked logits at an index: the sentinel where the mask is clear, else the margin logit at the target column
    and the block's logit elsewhere. -/
theorem pay13_apply (x : Vec F S128x8192 .f32) (v7 : FVec F S128x1 .f32) (v11 : IVec S128x8192 32) (v13 : IVec S128x8192 1)
    (j : S128x8192.Idx) :
    k0_pay13 x v7 v11 v13 j
      = Scalar.select (k0_pay12 v11 j)
          (Scalar.select (v13 j)
            (broadcastTo S128x8192 (shapeCast S128x1 v7 shapeCasts_S128x1_S128x1) broadcasts_S128x1_S128x8192 j) (x j))
          (Scalar.ofBits .f32 0xF149F2CA#32) := rfl

/-- The masked logits of the last column tile do not depend on the filling of the overhang. -/
theorem pay13_fill_indep (i : grid0.Coords) (h12 : (i 1).val = 12)
    (d d' : S128x8192.Idx → Elt F .f32) (g : (win0_0.xblock i).Idx → Elt F .f32)
    (v7 : FVec F S128x1 .f32) (v13 : IVec S128x8192 1) :
    k0_pay13 (win0_0.fill i d g : Vec F S128x8192 .f32) v7 (k0_pay4 i) v13
      = k0_pay13 (win0_0.fill i d' g : Vec F S128x8192 .f32) v7 (k0_pay4 i) v13 := by
  funext j
  rw [pay13_apply, pay13_apply]
  by_cases hm : win0_0.moved i j = true
  · -- a moved index reads the fetched block under both fillings
    have hx : win0_0.fill i d g j = win0_0.fill i d' g j := by
      unfold Pipeline.Window.fill
      rw [dif_pos hm, dif_pos hm]
    rw [hx]
  · -- an index of the overhang has its mask bit clear: both sides are the sentinel
    have hb : ¬k0_pay12 (k0_pay4 i) j = 1 := fun hb =>
      hm ((moved_last_iff i h12 j).2 ((mask_last_iff i h12 j).1 hb))
    unfold Scalar.select
    rw [if_neg hb, if_neg hb]

/-- Nor does the running maximum after the masked update. -/
theorem tailM_fill_indep (i : grid0.Coords) (h12 : (i 1).val = 12)
    (d d' : S128x8192.Idx → Elt F .f32) (g : (win0_0.xblock i).Idx → Elt F .f32)
    (tg : Vec F S128x1 .i32) (cm mo : Vec F S128x1 .f32) :
    tailM i (win0_0.fill i d g : Vec F S128x8192 .f32) tg cm mo = tailM i (win0_0.fill i d' g : Vec F S128x8192 .f32) tg cm mo := by
  unfold tailM k0_pay16 k0_pay14
  rw [pay13_fill_indep i h12 d d' g]

/-- Nor the running sum. -/
theorem tailL_fill_indep (i : grid0.Coords) (h12 : (i 1).val = 12)
    (d d' : S128x8192.Idx → Elt F .f32) (g : (win0_0.xblock i).Idx → Elt F .f32)
    (tg : Vec F S128x1 .i32) (cm mo lo : Vec F S128x1 .f32) :
    tailL i (win0_0.fill i d g : Vec F S128x8192 .f32) tg cm mo lo = tailL i (win0_0.fill i d' g : Vec F S128x8192 .f32) tg cm mo lo := by
  unfold tailL k0_pay15 k0_pay14
  rw [pay13_fill_indep i h12 d d' g]

end Cert.Kernel.KS

end
-- ==== Proof.BFrame.lean ====
/-
  The kernel's region runs: the body obligation at every grid point, from the three cases' runs, and the launch.

  At a point the body is handed the three input blocks (the logits' block filled out past the array's end by whatever
  its buffer held), the one-hot buffer at anything, the loss buffer as the pipeline left it, and the scratch columns at
  what the point before left (anything at the first point). It hands back the inputs unchanged, the one-hot block,
  the loss buffer untouched — or, at the last column tile, the loss column — and the scratch columns at the next
  running maximum and sum. At the last column tile these do not depend on the filling of the overhang.
-/
import proofs.«409744_j20718922236693_3_alg».proof.Proof.BPieces
import proofs.«409744_j20718922236693_3_alg».proof.Proof.BTailIndep

set_option maxRecDepth 16384

noncomputable section

namespace Cert.Kernel.KS

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows' buffers hold before the body -/

/-- The zero word everywhere: the filling of the overhang the proof data names. -/
abbrev zfill : S128x8192.Idx → Elt F .f32 := fun _ => Scalar.ofBits .f32 0#32

/-- The logits' buffer, fetched at every point: its block, filled out by what the buffer held. -/
theorem before0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]

/-- Before the last column tile nothing is cut, so that is the block the proof data names. -/
theorem before0_noclip (c : Dev nD) (t : Fin cfg0.N) (h : ¬t.val % 13 = 12) (d) :
    (dats m 0 c).before 0 t d = xfull m c t := by
  rw [before0]; unfold xfull
  exact Pipeline.fill_of_clip_none (cfg := cfg0) 0 (grid0.coords t) (noClip0 t h) d zfill (iblk m c 0 t)

theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the last column tile the second grid coordinate is 12. -/
theorem coord12 : ∀ t : Fin cfg0.N, t.val % 13 = 12 → ((grid0.coords t) 1).val = 12 := by decide +kernel

/-! ## What the body hands back, window by window -/

theorem leaves0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0 t]; dsimp only
  rw [after0]
  exact congrArg (fun f : (S128x8192.Idx → Elt F .f32) → (S128x8192.Idx → Elt F .f32) =>
      (iprop(∃ d, owns (c : Thread nD τ) (ms0 t) fullShare (f d)) : sProp 𝕄))
    (funext fun d => congrArg (win0_0.fill (grid0.coords t) d) (win0_0.cut_fill (grid0.coords t) zfill (iblk m c 0 t)))
theorem leaves1 (c : Dev nD) (t : Fin cfg0.N) :
    (dats m 0 c).leaves 1 t = owns (c : Thread nD τ) (ms1 t) fullShare (iblk m c 1 t) := by
  unfold Dat.leaves; rw [live1 t]; dsimp only; rw [after1]
theorem leaves2 (c : Dev nD) (t : Fin cfg0.N) :
    (dats m 0 c).leaves 2 t = owns (c : Thread nD τ) (ms2 t) fullShare (iblk m c 2 t) := by
  unfold Dat.leaves; rw [live2 t]; dsimp only; rw [after2]
theorem leaves3 (c : Dev nD) (t : Fin cfg0.N) :
    (dats m 0 c).leaves 3 t = iprop(∃ d, owns (c : Thread nD τ) (ms3 t) fullShare (win0_3.fill (grid0.coords t) d (win0_3.cut (grid0.coords t) (oneHotBlk m c t)))) := by
  unfold Dat.leaves; rw [live3 t]; dsimp only; rw [after3]
  first | rfl | skip
theorem leaves4_idle (c : Dev nD) (t : Fin cfg0.N) (h : ¬t.val % 13 = 12) :
    (dats m 0 c).leaves 4 t = iprop(∃ d, owns (c : Thread nD τ) (ms4 t) fullShare ((dats m 0 c).before 4 t d)) :=
  Dat.leaves_idle (dats m 0 c) 4 t (idle4 t h) (noFlush4 t h)
theorem leaves4_live (c : Dev nD) (t : Fin cfg0.N) (h : t.val % 13 = 12) :
    (dats m 0 c).leaves 4 t = owns (c : Thread nD τ) (ms4 t) fullShare (lossBlk m c t) := by
  unfold Dat.leaves; rw [live4 t h]; dsimp only; rw [after4]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t)

/-- The one-hot block handed back, as the loose window's post states it. -/
theorem oneHot_fill_cut (c : Dev nD) (t : Fin cfg0.N) :
    win0_3.fill (grid0.coords t) (oneHotBlk m c t) (win0_3.cut (grid0.coords t) (oneHotBlk m c t)) = oneHotBlk m c t :=
  win0_3.fill_cut _ _

/-! ## The body at any point -/

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  simp only [before1, before2]
  have hN : t.val < 26 := lt_of_lt_of_eq t.isLt (show cfg0.N = 26 from N_0)
  by_cases h12 : t.val % 13 = 12
  · -- the last column tile: the masked update and the loss store
    have h0 : ¬t.val % 13 = 0 := by omega
    have hz : t.val ≠ 0 := by omega
    have hc0 : ¬cond0 (grid0.coords t) := fun h => h0 ((hcond0 t).mp h)
    have hc1 : ¬cond1 (grid0.coords t) := fun h => ((hcond1 t).mp h) h12
    have hc2 : cond2 (grid0.coords t) := (hcond2 t).mpr h12
    rw [leaves4_live m c t h12]
    simp only [before0]
    rw [PhiS_castSucc m c t, PhiS_pos m c _ _ hz]
    unfold lossBlk
    rw [scAt_last m c t h0 h12]
    dsimp only
    iintro ⟨⟨⟨HS0, HS1⟩, Hg⟩, Ho, ⟨%d0, H0⟩, ⟨%d1, H1⟩, ⟨%d2, H2⟩, ⟨%d3, H3⟩, ⟨%d4, H4⟩⟩
    iapply ((kernelRunC c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
      (win0_0.fill (grid0.coords t) d0 (iblk m c 0 t)) (iblk m c 1 t) (iblk m c 2 t)
      (scAt m c (t.val - 1) (Nat.lt_of_le_of_lt (Nat.sub_le _ _) t.isLt)).1 (scAt m c (t.val - 1) (Nat.lt_of_le_of_lt (Nat.sub_le _ _) t.isLt)).2).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hg]
    · isplitl [HS0 HS1]
      · isplitl [HS0]
        · unfold owns; iexists _; isplitr
          swap; · iexact HS0
          ipureintro
          exact (View.read_writes_eq_canon _ _ _ (coverCS0 c _ _ _ _ _ _ _ _ _ _ _ _ _ _ _ _ _ _ _ _ _ _ _)).trans ((canonCS0 c _ _ _ _ _ _ _ _ _ _ _ _ _ _ _ _ _ _ _ _ _ _ _).trans
            (tailM_fill_indep (grid0.coords t) (coord12 t h12) d0 zfill (iblk m c 0 t) (iblk m c 2 t) (iblk m c 1 t) _))
        · unfold owns; iexists _; isplitr
          swap; · iexact HS1
          ipureintro
          exact (View.read_writes_eq_canon _ _ _ (coverCS1 c _ _ _ _ _ _ _ _ _ _ _ _ _ _ _ _ _ _ _ _ _ _ _)).trans ((canonCS1 c _ _ _ _ _ _ _ _ _ _ _ _ _ _ _ _ _ _ _ _ _ _ _).trans
            (tailL_fill_indep (grid0.coords t) (coord12 t h12) d0 zfill (iblk m c 0 t) (iblk m c 2 t) (iblk m c 1 t) _ _))
      iexact Hg
    isplitl [Ho]; · iexact Ho
    isplitl [H0]; · iexists d0; iexact H0
    isplitl [H1]; · iexact H1
    isplitl [H2]; · iexact H2
    isplitl [H3]
    · iexists (oneHotBlk m c t)
      unfold owns; iexists _; isplitr
      swap; · iexact H3
      ipureintro
      exact (View.read_writes_eq_canon _ _ _ (coverC3 c _ _ _ _ _ _ _ _ _ _ _ _ _ _ _ _ _ _ _ _ _ _ _)).trans ((canonC3 c _ _ _ _ _ _ _ _ _ _ _ _ _ _ _ _ _ _ _ _ _ _ _).trans (oneHot_fill_cut m c t).symm)
    · unfold owns; iexists _; isplitr
      swap; · iexact H4
      ipureintro
      refine (View.read_writes_eq_canon _ _ _ (coverC4 c _ _ _ _ _ _ _ _ _ _ _ _ _ _ _ _ _ _ _ _ _ _ _)).trans ((canonC4 c _ _ _ _ _ _ _ _ _ _ _ _ _ _ _ _ _ _ _ _ _ _ _).trans ?_)
      rw [tailM_fill_indep (grid0.coords t) (coord12 t h12) d0 zfill (iblk m c 0 t) (iblk m c 2 t) (iblk m c 1 t),
        tailL_fill_indep (grid0.coords t) (coord12 t h12) d0 zfill (iblk m c 0 t) (iblk m c 2 t) (iblk m c 1 t)]
      rfl
  · -- before the last column tile: the unmasked update; the loss buffer is handed back as found
    have hc1 : cond1 (grid0.coords t) := (hcond1 t).mpr h12
    have hc2 : ¬cond2 (grid0.coords t) := fun h => h12 ((hcond2 t).mp h)
    rw [leaves4_idle m c t h12]
    simp only [before0_noclip m c t h12]
    unfold xfull
    by_cases h0 : t.val % 13 = 0
    · -- the first column tile of a row tile: the scratch columns are reset first
      have hc0 : cond0 (grid0.coords t) := (hcond0 t).mpr h0
      rw [scAt_first m c t h0]
      unfold xfull
      dsimp only
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRunA c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
          (win0_0.fill (grid0.coords t) zfill (iblk m c 0 t)) (iblk m c 1 t) (iblk m c 2 t)).2.2.2 ((dats m 0 c).before 4 t d4) Set.univ _)
        isplitl [H0]; · iexact H0
        isplitl [H1]; · iexact H1
        isplitl [H2]; · iexact H2
        isplitl [H3]; · iexists _; iexact H3
        isplitl [H4]; · iexact H4
        isplitl [HS0]; · iexact HS0
        isplitl [HS1]; · iexact HS1
        iintro ⟨H0, H1, H2, ⟨%e3, H3⟩, H4, ⟨%es0, HS0⟩, ⟨%es1, HS1⟩⟩
        isplitl [HS0 HS1 Hg]
        · isplitl [HS0 HS1]
          · isplitl [HS0]
            · unfold owns; iexists _; isplitr
              swap; · iexact HS0
              ipureintro
              exact (View.read_writes_eq_canon _ _ _ (coverAS0 c _ _ _ _ _ _ _ _ _ _ _ _ _ _ _ _ _ _ _ _ _)).trans (canonAS0 c _ _ _ _ _ _ _ _ _ _ _ _ _ _ _ _ _ _ _ _ _)
            · unfold owns; iexists _; isplitr
              swap; · iexact HS1
              ipureintro
              exact (View.read_writes_eq_canon _ _ _ (coverAS1 c _ _ _ _ _ _ _ _ _ _ _ _ _ _ _ _ _ _ _ _ _)).trans (canonAS1 c _ _ _ _ _ _ _ _ _ _ _ _ _ _ _ _ _ _ _ _ _)
          iexact Hg
        isplitl [Ho]; · iexact Ho
        isplitl [H0]; · iexists zfill; iexact H0
        isplitl [H1]; · iexact H1
        isplitl [H2]; · iexact H2
        isplitl [H3]
        · iexists (oneHotBlk m c t)
          unfold owns; iexists _; isplitr
          swap; · iexact H3
          ipureintro
          exact (View.read_writes_eq_canon _ _ _ (coverA3 c _ _ _ _ _ _ _ _ _ _ _ _ _ _ _ _ _ _ _ _ _)).trans ((canonA3 c _ _ _ _ _ _ _ _ _ _ _ _ _ _ _ _ _ _ _ _ _).trans (oneHot_fill_cut m c t).symm)
        · iexists d4; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRunA c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
          (win0_0.fill (grid0.coords t) zfill (iblk m c 0 t)) (iblk m c 1 t) (iblk m c 2 t)).2.2.2 ((dats m 0 c).before 4 t d4) Set.univ _)
        isplitl [H0]; · iexact H0
        isplitl [H1]; · iexact H1
        isplitl [H2]; · iexact H2
        isplitl [H3]; · iexists _; iexact H3
        isplitl [H4]; · iexact H4
        isplitl [HS0]; · iexists _; iexact HS0
        isplitl [HS1]; · iexists _; iexact HS1
        iintro ⟨H0, H1, H2, ⟨%e3, H3⟩, H4, ⟨%es0, HS0⟩, ⟨%es1, HS1⟩⟩
        isplitl [HS0 HS1 Hg]
        · isplitl [HS0 HS1]
          · isplitl [HS0]
            · unfold owns; iexists _; isplitr
              swap; · iexact HS0
              ipureintro
              exact (View.read_writes_eq_canon _ _ _ (coverAS0 c _ _ _ _ _ _ _ _ _ _ _ _ _ _ _ _ _ _ _ _ _)).trans (canonAS0 c _ _ _ _ _ _ _ _ _ _ _ _ _ _ _ _ _ _ _ _ _)
            · unfold owns; iexists _; isplitr
              swap; · iexact HS1
              ipureintro
              exact (View.read_writes_eq_canon _ _ _ (coverAS1 c _ _ _ _ _ _ _ _ _ _ _ _ _ _ _ _ _ _ _ _ _)).trans (canonAS1 c _ _ _ _ _ _ _ _ _ _ _ _ _ _ _ _ _ _ _ _ _)
          iexact Hg
        isplitl [Ho]; · iexact Ho
        isplitl [H0]; · iexists zfill; iexact H0
        isplitl [H1]; · iexact H1
        isplitl [H2]; · iexact H2
        isplitl [H3]
        · iexists (oneHotBlk m c t)
          unfold owns; iexists _; isplitr
          swap; · iexact H3
          ipureintro
          exact (View.read_writes_eq_canon _ _ _ (coverA3 c _ _ _ _ _ _ _ _ _ _ _ _ _ _ _ _ _ _ _ _ _)).trans ((canonA3 c _ _ _ _ _ _ _ _ _ _ _ _ _ _ _ _ _ _ _ _ _).trans (oneHot_fill_cut m c t).symm)
        · iexists d4; iexact H4
    · -- a middle column tile
      have hz : t.val ≠ 0 := fun h => h0 (by rw [h])
      have hc0 : ¬cond0 (grid0.coords t) := fun h => h0 ((hcond0 t).mp h)
      rw [scAt_mid m c t h0 h12]
      unfold xfull
      dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRunB c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
        (win0_0.fill (grid0.coords t) zfill (iblk m c 0 t)) (iblk m c 1 t) (iblk m c 2 t)
        (scAt m c (t.val - 1) (Nat.lt_of_le_of_lt (Nat.sub_le _ _) t.isLt)).1 (scAt m c (t.val - 1) (Nat.lt_of_le_of_lt (Nat.sub_le _ _) t.isLt)).2).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (coverBS0 c _ _ _ _ _ _ _ _ _ _ _ _ _ _ _ _ _ _ _ _ _ _ _)).trans (canonBS0 c _ _ _ _ _ _ _ _ _ _ _ _ _ _ _ _ _ _ _ _ _ _ _)
          · unfold owns; iexists _; isplitr
            swap; · iexact HS1
            ipureintro
            exact (View.read_writes_eq_canon _ _ _ (coverBS1 c _ _ _ _ _ _ _ _ _ _ _ _ _ _ _ _ _ _ _ _ _ _ _)).trans (canonBS1 c _ _ _ _ _ _ _ _ _ _ _ _ _ _ _ _ _ _ _ _ _ _ _)
        iexact Hg
      isplitl [Ho]; · iexact Ho
      isplitl [H0]; · iexists zfill; iexact H0
      isplitl [H1]; · iexact H1
      isplitl [H2]; · iexact H2
      isplitl [H3]
      · iexists (oneHotBlk m c t)
        unfold owns; iexists _; isplitr
        swap; · iexact H3
        ipureintro
        exact (View.read_writes_eq_canon _ _ _ (coverB3 c _ _ _ _ _ _ _ _ _ _ _ _ _ _ _ _ _ _ _ _ _ _ _)).trans ((canonB3 c _ _ _ _ _ _ _ _ _ _ _ _ _ _ _ _ _ _ _ _ _ _ _).trans (oneHot_fill_cut m c t).symm)
      · iexists d4; iexact H4

/-- The library's body obligation, at every point. -/
theorem body_obligation (c : Dev nD) :
    Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch columns' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 26 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, with every array of the pipeline at what the library computes
    from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.KS

end
-- ==== Proof.KState.lean ====
/-
  The kernel's state from point to point, as pure values.

  The grid has 2 x 13 points, point t = 13 * b + c (b the row tile of 128 rows, c the column tile of 8192 columns).
  Each point sees the block of cos_theta at (b, c) — at c = 12 only its first 1696 columns lie inside the array —,
  the 128 gathered margin logits and the 128 targets of row tile b. Two scratch columns are carried along a row
  tile: the running maximum and the running sum of exponentials. At c = 0 they are reset (to the sentinel and to
  zero) before use; at c < 12 the update reads the block unmasked; at c = 12 it masks the columns past the array's
  end and the loss column is written.
-/
import proofs.«409744_j20718922236693_3_alg».proof.Proof.Gen.KernelIdeal.Frame
import proofs.«409744_j20718922236693_3_alg».proof.Proof.Gen.KernelIdeal.Skeleton

noncomputable section

namespace Cert.KernelIdeal.KS

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The block of cos_theta at point t as the body reads it: the part inside the array, and the zero word on the
    columns past the array's end (only the last column tile has any; nothing computed depends on them). -/
def xfull (c : Dev nD) (t : Fin cfg0.N) : Vec F S128x8192 .f32 :=
  win0_0.fill (grid0.coords t) (fun _ => Scalar.ofBits .f32 0#32) (iblk m c 0 t)

/-- The gathered margin logits of the point's row tile, a column of 128. -/
def cmblk (c : Dev nD) (t : Fin cfg0.N) : Vec F S128x1 .f32 := iblk m c 1 t

/-- The targets of the point's row tile, a column of 128. -/
def tblk (c : Dev nD) (t : Fin cfg0.N) : Vec F S128x1 .i32 := iblk m c 2 t

/-- The running maximum after an unmasked update (column tiles 0 to 11), from the maximum found. -/
def fastM (i : grid0.Coords) (x : Vec F S128x8192 .f32) (tg : Vec F S128x1 .i32) (cm : Vec F S128x1 .f32)
    (mo : Vec F S128x1 .f32) : Vec F S128x1 .f32 := k0_pay9 i x tg cm mo

/-- The running sum after an unmasked update, from the maximum and the sum found. -/
def fastL (i : grid0.Coords) (x : Vec F S128x8192 .f32) (tg : Vec F S128x1 .i32) (cm : Vec F S128x1 .f32)
    (mo lo : Vec F S128x1 .f32) : Vec F S128x1 .f32 := k0_pay8 i x tg cm mo mo lo

/-- The running maximum after the masked update of the last column tile. -/
def tailM (i : grid0.Coords) (x : Vec F S128x8192 .f32) (tg : Vec F S128x1 .i32) (cm : Vec F S128x1 .f32)
    (mo : Vec F S128x1 .f32) : Vec F S128x1 .f32 := k0_pay16 x (k0_pay3 cm) (k0_pay4 i) (k0_pay5 i tg) mo

/-- The running sum after the masked update of the last column tile. -/
def tailL (i : grid0.Coords) (x : Vec F S128x8192 .f32) (tg : Vec F S128x1 .i32) (cm : Vec F S128x1 .f32)
    (mo lo : Vec F S128x1 .f32) : Vec F S128x1 .f32 := k0_pay15 x (k0_pay3 cm) (k0_pay4 i) (k0_pay5 i tg) mo mo lo

/-- The two scratch columns (running maximum, running sum) after the body at point n: at the first column tile of
    a row tile from the reset values, else from what the point before left; masked at the last column tile. -/
def scAt (c : Dev nD) : (n : ℕ) → n < cfg0.N → Vec F S128x1 .f32 × Vec F S128x1 .f32
  | 0, hn =>
    (fastM (grid0.coords ⟨0, hn⟩) (xfull m c ⟨0, hn⟩) (tblk m c ⟨0, hn⟩) (cmblk m c ⟨0, hn⟩) (k0_pay1 (F := F)),
     fastL (grid0.coords ⟨0, hn⟩) (xfull m c ⟨0, hn⟩) (tblk m c ⟨0, hn⟩) (cmblk m c ⟨0, hn⟩) (k0_pay1 (F := F)) (k0_pay2 (F := F)))
  | n + 1, hn =>
    if (n + 1) % 13 = 0 then
      (fastM (grid0.coords ⟨n + 1, hn⟩) (xfull m c ⟨n + 1, hn⟩) (tblk m c ⟨n + 1, hn⟩) (cmblk m c ⟨n + 1, hn⟩) (k0_pay1 (F := F)),
       fastL (grid0.coords ⟨n + 1, hn⟩) (xfull m c ⟨n + 1, hn⟩) (tblk m c ⟨n + 1, hn⟩) (cmblk m c ⟨n + 1, hn⟩) (k0_pay1 (F := F)) (k0_pay2 (F := F)))
    else if (n + 1) % 13 = 12 then
      (tailM (grid0.coords ⟨n + 1, hn⟩) (xfull m c ⟨n + 1, hn⟩) (tblk m c ⟨n + 1, hn⟩) (cmblk m c ⟨n + 1, hn⟩) (scAt c n (Nat.lt_of_succ_lt hn)).1,
       tailL (grid0.coords ⟨n + 1, hn⟩) (xfull m c ⟨n + 1, hn⟩) (tblk m c ⟨n + 1, hn⟩) (cmblk m c ⟨n + 1, hn⟩) (scAt c n (Nat.lt_of_succ_lt hn)).1 (scAt c n (Nat.lt_of_succ_lt hn)).2)
    else
      (fastM (grid0.coords ⟨n + 1, hn⟩) (xfull m c ⟨n + 1, hn⟩) (tblk m c ⟨n + 1, hn⟩) (cmblk m c ⟨n + 1, hn⟩) (scAt c n (Nat.lt_of_succ_lt hn)).1,
       fastL (grid0.coords ⟨n + 1, hn⟩) (xfull m c ⟨n + 1, hn⟩) (tblk m c ⟨n + 1, hn⟩) (cmblk m c ⟨n + 1, hn⟩) (scAt c n (Nat.lt_of_succ_lt hn)).1 (scAt c n (Nat.lt_of_succ_lt hn)).2)

/-- The block of the one-hot result the body stores at point t (every point stores it): 1 where the global column
    equals the row's target, else 0. -/
def oneHotBlk (c : Dev nD) (t : Fin cfg0.N) : Vec F S128x8192 .f32 := k0_pay10 (grid0.coords t) (tblk m c t)

/-- The loss column the body stores at a last column tile: maximum + log(sum) - margin logit, of that point's scratch. -/
def lossBlk (c : Dev nD) (t : Fin cfg0.N) : Vec F S128x1 .f32 :=
  k0_pay11 (scAt m c t.val t.isLt).1 (k0_pay18 (scAt m c t.val t.isLt).2) (cmblk m c t)

/-- scAt at the first column tile of a row tile. -/
theorem scAt_first (c : Dev nD) (t : Fin cfg0.N) (h : t.val % 13 = 0) :
    scAt m c t.val t.isLt =
      (fastM (grid0.coords t) (xfull m c t) (tblk m c t) (cmblk m c t) (k0_pay1 (F := F)),
       fastL (grid0.coords t) (xfull m c t) (tblk m c t) (cmblk m c t) (k0_pay1 (F := F)) (k0_pay2 (F := F))) := by
  obtain ⟨n, hn⟩ := t
  cases n with
  | zero => rfl
  | succ n => exact (if_pos h).trans rfl

/-- scAt at a middle column tile. -/
theorem scAt_mid (c : Dev nD) (t : Fin cfg0.N) (h0 : ¬t.val % 13 = 0) (h12 : ¬t.val % 13 = 12) :
    scAt m c t.val t.isLt =
      (fastM (grid0.coords t) (xfull m c t) (tblk m c t) (cmblk m c t) (scAt m c (t.val - 1) (Nat.lt_of_le_of_lt (Nat.sub_le _ _) t.isLt)).1,
       fastL (grid0.coords t) (xfull m c t) (tblk m c t) (cmblk m c t) (scAt m c (t.val - 1) (Nat.lt_of_le_of_lt (Nat.sub_le _ _) t.isLt)).1
         (scAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h12).trans rfl)

/-- scAt at the last column tile. -/
theorem scAt_last (c : Dev nD) (t : Fin cfg0.N) (h0 : ¬t.val % 13 = 0) (h12 : t.val % 13 = 12) :
    scAt m c t.val t.isLt =
      (tailM (grid0.coords t) (xfull m c t) (tblk m c t) (cmblk m c t) (scAt m c (t.val - 1) (Nat.lt_of_le_of_lt (Nat.sub_le _ _) t.isLt)).1,
       tailL (grid0.coords t) (xfull m c t) (tblk m c t) (cmblk m c t) (scAt m c (t.val - 1) (Nat.lt_of_le_of_lt (Nat.sub_le _ _) t.isLt)).1
         (scAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_pos h12).trans rfl)

end Cert.KernelIdeal.KS

end
-- ==== Proof.KDats.lean ====
/-
  The proof data of the kernel's pipeline: what every window's staging buffer holds after the body at each point,
  and the invariant that carries the two scratch columns from point to point.

  After the body at point t: the three inputs' buffers hold their blocks (the logits' block filled out with the zero
  word past the array's end); the one-hot result's buffer holds the point's one-hot block; the loss result's buffer
  holds, at a last column tile, the loss column (at the other points the body leaves it alone, and nothing is stated).
  Before the first point the scratch columns hold anything; before point n + 1 they hold the running maximum and the
  running sum that point n left.
-/
import proofs.«409744_j20718922236693_3_alg».proof.Proof.KState
import Idealize.ShloMosaic.Lib.Pipeline.FrameBody
import Idealize.ShloMosaic.Lib.Pipeline.FrameSuffix
import Idealize.ShloMosaic.Lib.Tactic

noncomputable section

namespace Cert.KernelIdeal.KS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch operands: the running maximum's buffer and the running sum's. -/
abbrev scM0 : Memref sig .tc .vmem S128x1 .f32 := Memref.whole cc0_scratch0
abbrev scM1 : Memref sig .tc .vmem S128x1 .f32 := Memref.whole cc0_scratch1

/-- What the launch hands the region, with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position n: before the first point the scratch columns at anything; afterwards at what the
    point before left (scAt). The generator register at some state throughout. -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2)) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => oneHotBlk m c t
    | ⟨4, _⟩ => lossBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xfull m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = oneHotBlk m c t := by dsimp only [dats]
theorem after4 (c : Dev nD) (t : Fin cfg0.N) : (dats m 0 c).after 4 t = lossBlk m c t := by dsimp only [dats]

end Cert.KernelIdeal.KS

end
-- ==== Proof.KCases.lean ====
/-
  The body's three branches over the grid, decided once.

  Point t = 13 b + c. The reset branch is taken at c = 0, the unmasked update at c < 12, the masked update with the
  loss store at c = 12: so a point is in one of three cases — first (reset, unmasked update), middle (unmasked
  update), last (masked update, loss store). The loss window is idle, and not written back, except at the last
  column tile; the logits' window is cut only there.
-/
import proofs.«409744_j20718922236693_3_alg».proof.Proof.KDats

set_option maxRecDepth 16384

noncomputable section

namespace Cert.KernelIdeal.KS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The reset branch's condition (column tile 0), as the body computes it. -/
abbrev cond0 (i : grid0.Coords) : Prop := (Scalar.cmpi .ne (Scalar.extui (Scalar.cmpi .eq (BitVec.ofNat 32 (i 1).val) 0#32)) 0#32) = 1#1
/-- The unmasked update's condition (column tile below 12). -/
abbrev cond1 (i : grid0.Coords) : Prop := k0_cond2 i = 1#1
/-- The masked update's condition (column tile 12). -/
abbrev cond2 (i : grid0.Coords) : Prop := k0_cond3 i = 1#1

theorem hcond0 : ∀ t : Fin cfg0.N, cond0 (grid0.coords t) ↔ t.val % 13 = 0 :=
  (by decide +kernel : ∀ t : Fin grid0.N, cond0 (grid0.coords t) ↔ t.val % 13 = 0)
theorem hcond1 : ∀ t : Fin cfg0.N, cond1 (grid0.coords t) ↔ ¬t.val % 13 = 12 :=
  (by decide +kernel : ∀ t : Fin grid0.N, cond1 (grid0.coords t) ↔ ¬t.val % 13 = 12)
theorem hcond2 : ∀ t : Fin cfg0.N, cond2 (grid0.coords t) ↔ t.val % 13 = 12 :=
  (by decide +kernel : ∀ t : Fin grid0.N, cond2 (grid0.coords t) ↔ t.val % 13 = 12)

/-- The inputs and the one-hot result are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The loss window is idle and not written back before the last column tile, live at it. -/
theorem idle4 : ∀ t : Fin cfg0.N, ¬t.val % 13 = 12 → cfg0.idle 4 (grid0.coords t) = true := by decide +kernel
theorem noFlush4 : ∀ t : Fin cfg0.N, ¬t.val % 13 = 12 → (cfg0.win 4).flush t = false := by decide +kernel
theorem live4 : ∀ t : Fin cfg0.N, t.val % 13 = 12 → cfg0.idle 4 (grid0.coords t) = false := by decide +kernel
/-- Before the last column tile the logits' block lies inside the array: nothing is cut. -/
theorem noClip0 : ∀ t : Fin cfg0.N, ¬t.val % 13 = 12 → ∀ a, (cfg0.win 0).clip (grid0.coords t) a = none := by decide +kernel

/-- Each window's current staging memref at point t, as the pipeline passes it, and its wholeness. -/
abbrev ms0 (t : Fin cfg0.N) : Memref sig .tc .vmem S128x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)

/-- Views through which the outputs' and the scratch columns' contents are stated. -/
abbrev VO3 : View sig .tc .vmem S128x8192 .f32 := (Memref.whole cc0_stg3_0 : Memref sig .tc .vmem S128x8192 .f32).view
abbrev VO4 : View sig .tc .vmem S128x1 .f32 := (Memref.whole cc0_stg4_0 : Memref sig .tc .vmem S128x1 .f32).view
abbrev VS0 : View sig .tc .vmem S128x1 .f32 := (scM0 : Memref sig .tc .vmem S128x1 .f32).view
abbrev VS1 : View sig .tc .vmem S128x1 .f32 := (scM1 : Memref sig .tc .vmem S128x1 .f32).view

end Cert.KernelIdeal.KS

end
-- ==== Proof.KRunB.lean ====
/-
  The body at a middle column tile (0 < c < 12): no reset, the unmasked update, no loss store. On whole staging
  memrefs holding the three input blocks, with the scratch columns at what the point before left, the body runs and
  leaves the inputs as they were, the loss buffer untouched, and the one-hot buffer and the two scratch columns with
  its stores written; the stores are the witness the run finds.
-/
import proofs.«409744_j20718922236693_3_alg».proof.Proof.KCases

set_option maxRecDepth 16384

noncomputable section

namespace Cert.KernelIdeal.KS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    Σ' (L3 : List (View.Piece (Elt F) S128x8192 .f32)) (LS0 : List (View.Piece (Elt F) S128x1 .f32)), { LS1 : List (View.Piece (Elt F) S128x1 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hf4; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.KernelIdeal.KS

end
-- ==== Proof.KRunA.lean ====
/-
  The body at the first column tile of a row tile (c = 0): the scratch columns, whatever they hold, are reset (to the
  sentinel and to zero), then the unmasked update runs on the reset values; no loss store. The stores into the
  one-hot buffer and the two scratch columns are the witness the run finds.
-/
import proofs.«409744_j20718922236693_3_alg».proof.Proof.KRunB

set_option maxRecDepth 16384

noncomputable section

namespace Cert.KernelIdeal.KS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    Σ' (L3 : List (View.Piece (Elt F) S128x8192 .f32)) (LS0 : List (View.Piece (Elt F) S128x1 .f32)), { LS1 : List (View.Piece (Elt F) S128x1 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.KernelIdeal.KS

end
-- ==== Proof.KRunC.lean ====
/-
  The body at the last column tile (c = 12): no reset, no unmasked update; the masked update on what the point before
  left in the scratch columns, then the loss column is stored. The stores into the one-hot buffer, the loss buffer
  and the two scratch columns are the witness the run finds.
-/
import proofs.«409744_j20718922236693_3_alg».proof.Proof.KRunA

set_option maxRecDepth 16384

noncomputable section

namespace Cert.KernelIdeal.KS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    Σ' (L3 : List (View.Piece (Elt F) S128x8192 .f32)) (L4 : List (View.Piece (Elt F) S128x1 .f32)) (LS0 : List (View.Piece (Elt F) S128x1 .f32)), { LS1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.KS

end
-- ==== Proof.KPieces.lean ====
/-
  What the body's stores leave, case by case, as pure values: each buffer the body stores into is covered by its
  stores, and read back it holds the generated payload of the last store — the one-hot block, the new running maximum,
  the new running sum, and at the last column tile the loss column — as a function of the three input blocks and of the
  scratch columns found.
-/
import proofs.«409744_j20718922236693_3_alg».proof.Proof.KRunC
import Idealize.ShloMosaic.Lib.Pipeline.Value

set_option maxRecDepth 16384

noncomputable section

namespace Cert.KernelIdeal.KS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## A middle column tile -/

theorem coverB3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) (y : S128x8192.Idx) :
    ∃ pc ∈ (kernelRunB c i arg2 harg2 arg3 harg3 arg4 harg4 arg5 harg5 arg6 harg6 arg7 harg7 arg8 harg8 hc0 hc1 hc2 x0 x1 x2 xs0 xs1).1, y ∈ pc.1.set :=
  View.cover_of_tiledL (kernelRunB c i arg2 harg2 arg3 harg3 arg4 harg4 arg5 harg5 arg6 harg6 arg7 harg7 arg8 harg8 hc0 hc1 hc2 x0 x1 x2 xs0 xs1).1 S128x8192.size (by sl_kernel_rfl) y

theorem coverBS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) (y : S128x1.Idx) :
    ∃ pc ∈ (kernelRunB c i arg2 harg2 arg3 harg3 arg4 harg4 arg5 harg5 arg6 harg6 arg7 harg7 arg8 harg8 hc0 hc1 hc2 x0 x1 x2 xs0 xs1).2.1, y ∈ pc.1.set :=
  View.cover_of_tiledL (kernelRunB c i arg2 harg2 arg3 harg3 arg4 harg4 arg5 harg5 arg6 harg6 arg7 harg7 arg8 harg8 hc0 hc1 hc2 x0 x1 x2 xs0 xs1).2.1 S128x1.size (by sl_kernel_rfl) y

theorem coverBS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) (y : S128x1.Idx) :
    ∃ pc ∈ (kernelRunB c i arg2 harg2 arg3 harg3 arg4 harg4 arg5 harg5 arg6 harg6 arg7 harg7 arg8 harg8 hc0 hc1 hc2 x0 x1 x2 xs0 xs1).2.2.1, y ∈ pc.1.set :=
  View.cover_of_tiledL (kernelRunB c i arg2 harg2 arg3 harg3 arg4 harg4 arg5 harg5 arg6 harg6 arg7 harg7 arg8 harg8 hc0 hc1 hc2 x0 x1 x2 xs0 xs1).2.2.1 S128x1.size (by sl_kernel_rfl) y

/-- The one-hot buffer holds the point's one-hot block. -/
theorem canonB3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    View.canon (kernelRunB c i arg2 harg2 arg3 harg3 arg4 harg4 arg5 harg5 arg6 harg6 arg7 harg7 arg8 harg8 hc0 hc1 hc2 x0 x1 x2 xs0 xs1).1 = k0_pay10 i x2 := by
  unfold kernelRunB; dsimp only; sl_unfold_words
  rw [View.canon_unit_zero hz2]
  simp only [View.readAt_eq_ld, harg2.read_unread, harg3.read_unread, harg4.read_unread, harg7.read_unread, harg8.read_unread, View.ld_unit_zero (S := S128x8192) hz2, View.ld_unit_zero (S := S128x1) hz2]

/-- The first scratch column holds the new running maximum. -/
theorem canonBS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    View.canon (kernelRunB c i arg2 harg2 arg3 harg3 arg4 harg4 arg5 harg5 arg6 harg6 arg7 harg7 arg8 harg8 hc0 hc1 hc2 x0 x1 x2 xs0 xs1).2.1 = fastM i x0 x2 x1 xs0 := by
  unfold kernelRunB; dsimp only; sl_unfold_words
  rw [View.canon_unit_zero hz2]
  simp only [View.readAt_eq_ld, harg2.read_unread, harg3.read_unread, harg4.read_unread, harg7.read_unread, harg8.read_unread, View.ld_unit_zero (S := S128x8192) hz2, View.ld_unit_zero (S := S128x1) hz2]
  rfl

/-- The second scratch column holds the new running sum. -/
theorem canonBS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : cond1 i) (hc2 : ¬cond2 i)
    (x0 : Vec F S128x8192 .f32) (x1 : Vec F S128x1 .f32) (x2 : Vec F S128x1 .i32) (xs0 xs1 : Vec F S128x1 .f32) :
    View.canon (kernelRunB c i arg2 harg2 arg3 harg3 arg4 harg4 arg5 harg5 arg6 harg6 arg7 harg7 arg8 harg8 hc0 hc1 hc2 x0 x1 x2 xs0 xs1).2.2.1 = fastL i x0 x2 x1 xs0 xs1 := by
  unfold kernelRunB; dsimp only; sl_unfold_words
  rw [View.canon_unit_zero hz2]
  simp only [View.readAt_eq_ld, harg2.read_unread, harg3.read_unread, harg4.read_unread, harg7.read_unread, harg8.read_unread, View.ld_unit_zero (S := S128x8192) hz2, View.ld_unit_zero (S := S128x1) hz2]
  rfl

/-! ## The first column tile of a row tile -/

theorem coverA3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) (y : S128x8192.Idx) :
    ∃ pc ∈ (kernelRunA c i arg2 harg2 arg3 harg3 arg4 harg4 arg5 harg5 arg6 harg6 arg7 harg7 arg8 harg8 hc0 hc1 hc2 x0 x1 x2).1, y ∈ pc.1.set :=
  View.cover_of_tiledL (kernelRunA c i arg2 harg2 arg3 harg3 arg4 harg4 arg5 harg5 arg6 harg6 arg7 harg7 arg8 harg8 hc0 hc1 hc2 x0 x1 x2).1 S128x8192.size (by sl_kernel_rfl) y

theorem coverAS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) (y : S128x1.Idx) :
    ∃ pc ∈ (kernelRunA c i arg2 harg2 arg3 harg3 arg4 harg4 arg5 harg5 arg6 harg6 arg7 harg7 arg8 harg8 hc0 hc1 hc2 x0 x1 x2).2.1, y ∈ pc.1.set :=
  View.cover_of_tiledL (kernelRunA c i arg2 harg2 arg3 harg3 arg4 harg4 arg5 harg5 arg6 harg6 arg7 harg7 arg8 harg8 hc0 hc1 hc2 x0 x1 x2).2.1 S128x1.size (by sl_kernel_rfl) y

theorem coverAS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) (y : S128x1.Idx) :
    ∃ pc ∈ (kernelRunA c i arg2 harg2 arg3 harg3 arg4 harg4 arg5 harg5 arg6 harg6 arg7 harg7 arg8 harg8 hc0 hc1 hc2 x0 x1 x2).2.2.1, y ∈ pc.1.set :=
  View.cover_of_tiledL (kernelRunA c i arg2 harg2 arg3 harg3 arg4 harg4 arg5 harg5 arg6 harg6 arg7 harg7 arg8 harg8 hc0 hc1 hc2 x0 x1 x2).2.2.1 S128x1.size (by sl_kernel_rfl) y

/-- The one-hot buffer holds the point's one-hot block. -/
theorem canonA3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    View.canon (kernelRunA c i arg2 harg2 arg3 harg3 arg4 harg4 arg5 harg5 arg6 harg6 arg7 harg7 arg8 harg8 hc0 hc1 hc2 x0 x1 x2).1 = k0_pay10 i x2 := by
  unfold kernelRunA; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The first scratch column holds the running maximum from the reset value. -/
theorem canonAS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    View.canon (kernelRunA c i arg2 harg2 arg3 harg3 arg4 harg4 arg5 harg5 arg6 harg6 arg7 harg7 arg8 harg8 hc0 hc1 hc2 x0 x1 x2).2.1 = fastM i x0 x2 x1 (k0_pay1 (F := F)) := by
  unfold kernelRunA; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The second scratch column holds the running sum from the reset values. -/
theorem canonAS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : cond0 i) (hc1 : cond1 i) (hc2 : ¬cond2 i)
    (x0 : Vec F S128x8192 .f32) (x1 : Vec F S128x1 .f32) (x2 : Vec F S128x1 .i32) :
    View.canon (kernelRunA c i arg2 harg2 arg3 harg3 arg4 harg4 arg5 harg5 arg6 harg6 arg7 harg7 arg8 harg8 hc0 hc1 hc2 x0 x1 x2).2.2.1 = fastL i x0 x2 x1 (k0_pay1 (F := F)) (k0_pay2 (F := F)) := by
  unfold kernelRunA; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-! ## The last column tile -/

theorem coverC3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x8192.Idx) :
    ∃ pc ∈ (kernelRunC c i arg2 harg2 arg3 harg3 arg4 harg4 arg5 harg5 arg6 harg6 arg7 harg7 arg8 harg8 hc0 hc1 hc2 x0 x1 x2 xs0 xs1).1, y ∈ pc.1.set :=
  View.cover_of_tiledL (kernelRunC c i arg2 harg2 arg3 harg3 arg4 harg4 arg5 harg5 arg6 harg6 arg7 harg7 arg8 harg8 hc0 hc1 hc2 x0 x1 x2 xs0 xs1).1 S128x8192.size (by sl_kernel_rfl) y

theorem coverC4 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x1.Idx) :
    ∃ pc ∈ (kernelRunC c i arg2 harg2 arg3 harg3 arg4 harg4 arg5 harg5 arg6 harg6 arg7 harg7 arg8 harg8 hc0 hc1 hc2 x0 x1 x2 xs0 xs1).2.1, y ∈ pc.1.set :=
  View.cover_of_tiledL (kernelRunC c i arg2 harg2 arg3 harg3 arg4 harg4 arg5 harg5 arg6 harg6 arg7 harg7 arg8 harg8 hc0 hc1 hc2 x0 x1 x2 xs0 xs1).2.1 S128x1.size (by sl_kernel_rfl) y

theorem coverCS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x1.Idx) :
    ∃ pc ∈ (kernelRunC c i arg2 harg2 arg3 harg3 arg4 harg4 arg5 harg5 arg6 harg6 arg7 harg7 arg8 harg8 hc0 hc1 hc2 x0 x1 x2 xs0 xs1).2.2.1, y ∈ pc.1.set :=
  View.cover_of_tiledL (kernelRunC c i arg2 harg2 arg3 harg3 arg4 harg4 arg5 harg5 arg6 harg6 arg7 harg7 arg8 harg8 hc0 hc1 hc2 x0 x1 x2 xs0 xs1).2.2.1 S128x1.size (by sl_kernel_rfl) y

theorem coverCS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) (y : S128x1.Idx) :
    ∃ pc ∈ (kernelRunC c i arg2 harg2 arg3 harg3 arg4 harg4 arg5 harg5 arg6 harg6 arg7 harg7 arg8 harg8 hc0 hc1 hc2 x0 x1 x2 xs0 xs1).2.2.2.1, y ∈ pc.1.set :=
  View.cover_of_tiledL (kernelRunC c i arg2 harg2 arg3 harg3 arg4 harg4 arg5 harg5 arg6 harg6 arg7 harg7 arg8 harg8 hc0 hc1 hc2 x0 x1 x2 xs0 xs1).2.2.2.1 S128x1.size (by sl_kernel_rfl) y

/-- The one-hot buffer holds the point's one-hot block. -/
theorem canonC3 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).1 = k0_pay10 i x2 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The loss buffer holds the new maximum plus the log of the new sum, minus the margin logits. -/
theorem canonC4 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).2.1 = k0_pay11 (tailM i x0 x2 x1 xs0) (k0_pay18 (tailL i x0 x2 x1 xs0 xs1)) x1 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The first scratch column holds the new running maximum of the masked update. -/
theorem canonCS0 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).2.2.1 = tailM i x0 x2 x1 xs0 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

/-- The second scratch column holds the new running sum of the masked update. -/
theorem canonCS1 (c : Dev nD) (i : grid0.Coords) (arg2 : Memref sig .tc .vmem S128x8192 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x8192 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole)
    (hc0 : ¬cond0 i) (hc1 : ¬cond1 i) (hc2 : cond2 i)
    (x0 : Vec F S128x8192 .f32) (x1 : Vec F S128x1 .f32) (x2 : Vec F S128x1 .i32) (xs0 xs1 : Vec F S128x1 .f32) :
    View.canon (kernelRunC c i arg2 harg2 arg3 harg3 arg4 harg4 arg5 harg5 arg6 harg6 arg7 harg7 arg8 harg8 hc0 hc1 hc2 x0 x1 x2 xs0 xs1).2.2.2.1 = tailL i x0 x2 x1 xs0 xs1 := by
  unfold kernelRunC; dsimp only; sl_unfold_words
  first | rw [View.canon_unit_zero hz2] | rw [View.canon_cons_unit_zero (S := S128x1) hz2] | rw [View.canon_cons_unit_zero (S := S128x8192) hz2]
  simp only [View.readAt_eq_ld, harg2.read_unread, harg3.read_unread, harg4.read_unread, harg7.read_unread, harg8.read_unread, View.ld_unit_zero (S := S128x8192) hz2, View.ld_unit_zero (S := S128x1) hz2, View.readCov_unit_zero (S := S128x1) _ hz2]
  try rfl

end Cert.KernelIdeal.KS

end
-- ==== Proof.KTailIndep.lean ====
/-
  At the last column tile the block of logits overhangs the array: only its first 1696 columns are the array's, and
  the staging buffer holds arbitrary words on the others. The masked update never uses them: a column is kept only
  where its global index 98304 + q is below 100000, that is q < 1696, and replaced by the sentinel elsewhere. So the
  running maximum and the running sum after the masked update are the same for any two fillings of the overhang.
-/
import proofs.«409744_j20718922236693_3_alg».proof.Proof.KState
import Idealize.ShloMosaic.Lib.Pipeline.Value
import Idealize.ShloMosaic.Lib.StableHlo.Predicate

noncomputable section

namespace Cert.KernelIdeal.KS

open Cert.KernelIdeal Cert.KernelIdeal.Gen
open Idealize.ShloMosaic Idealize.ShloMosaic.TcCoe
open Idealize.SL Idealize.SL.Sem

variable {F : FTy → Type} [FloatOps F]

/-- The global column index of the last column tile at a block index: 98304 + the block's column. -/
theorem pay4_last_apply (i : grid0.Coords) (h12 : (i 1).val = 12) (j : S128x8192.Idx) :
    k0_pay4 i j = BitVec.ofNat 32 (98304 + (j 1).val) := by
  unfold k0_pay4
  show IntOp.addi (iota .tc S128x8192 32 [1] iota_S128x8192_d1_w32 j) (Scalar.muli (BitVec.ofNat 32 (i 1).val) 8192#32) = _
  rw [iota_single_apply, h12]
  -- 12 * 8192 = 98304, and adding words below 2^32 is adding numbers
  show BitVec.ofNat 32 (j 1).val + BitVec.ofNat 32 98304 = _
  rw [← BitVec.ofNat_add, Nat.add_comm]

/-- The mask of the last column tile is set exactly on the block's columns below 1696. -/
theorem mask_last_iff (i : grid0.Coords) (h12 : (i 1).val = 12) (j : S128x8192.Idx) :
    k0_pay12 (k0_pay4 i) j = 1#1 ↔ (j 1).val < 1696 := by
  have hq : (j 1).val < 8192 := (j 1).isLt
  show IntOp.cmpi .slt (k0_pay4 i j) 100000#32 = 1#1 ↔ _
  rw [pay4_last_apply i h12 j]
  have ht : (BitVec.ofNat 32 (98304 + (j 1).val)).toNat = 98304 + (j 1).val := by
    rw [BitVec.toNat_ofNat]; omega
  have hc : (100000#32 : BitVec 32).toNat = 100000 := rfl
  have h1 : (BitVec.ofNat 32 (98304 + (j 1).val)).toNat < 2 ^ 31 := by rw [ht]; omega
  have h2 : (100000#32 : BitVec 32).toNat < 2 ^ 31 := by decide
  rw [StableHlo.Predicate.slt_iff_toNat h1 h2, ht, hc]
  omega

/-- Axis 0 of the block of logits is never cut. -/
theorem xsize_last_0 (i : grid0.Coords) : win0_0.xsize i 0 = 128 := by
  have hi : (i 0).val < 2 := (i 0).isLt
  have hix : cc0_transform_0 i 0 = (i 0).val := by
    show (BitVec.ofNat 32 (i 0).val).toNat = (i 0).val
    rw [BitVec.toNat_ofNat]; omega
  show (Pipeline.Clip.of (cc0_transform_0 i 0) 128 256).extent 128 = 128
  rw [hix]
  unfold Pipeline.Clip.of
  rw [if_pos (by omega)]

/-- At the last column tile axis 1 is cut to the array's last 1696 columns. -/
theorem xsize_last_1 (i : grid0.Coords) (h12 : (i 1).val = 12) : win0_0.xsize i 1 = 1696 := by
  have hix : cc0_transform_0 i 1 = 12 := by
    show (BitVec.ofNat 32 (i 1).val).toNat = 12
    rw [h12]; rfl
  show (Pipeline.Clip.of (cc0_transform_0 i 1) 8192 100000).extent 8192 = 1696
  rw [hix]
  rfl

/-- At the last column tile an index of the block is moved exactly when its column is below 1696. -/
theorem moved_last_iff (i : grid0.Coords) (h12 : (i 1).val = 12) (j : S128x8192.Idx) :
    win0_0.moved i j = true ↔ (j 1).val < 1696 := by
  rw [Pipeline.Window.moved_iff]
  constructor
  · intro h
    have h1 := h 1
    rw [xsize_last_1 i h12] at h1
    exact h1
  · intro h a
    match a with
    | ⟨0, _⟩ =>
      show (j 0).val < win0_0.xsize i 0
      rw [xsize_last_0 i]
      exact (j 0).isLt
    | ⟨1, _⟩ =>
      show (j 1).val < win0_0.xsize i 1
      rw [xsize_last_1 i h12]
      exact h

/-- The masked logits at an index: the sentinel where the mask is clear, else the margin logit at the target column
    and the block's logit elsewhere. -/
theorem pay13_apply (x : Vec F S128x8192 .f32) (v7 : FVec F S128x1 .f32) (v11 : IVec S128x8192 32) (v13 : IVec S128x8192 1)
    (j : S128x8192.Idx) :
    k0_pay13 x v7 v11 v13 j
      = Scalar.select (k0_pay12 v11 j)
          (Scalar.select (v13 j)
            (broadcastTo S128x8192 (shapeCast S128x1 v7 shapeCasts_S128x1_S128x1) broadcasts_S128x1_S128x8192 j) (x j))
          (Scalar.ofBits .f32 0xF149F2CA#32) := rfl

/-- The masked logits of the last column tile do not depend on the filling of the overhang. -/
theorem pay13_fill_indep (i : grid0.Coords) (h12 : (i 1).val = 12)
    (d d' : S128x8192.Idx → Elt F .f32) (g : (win0_0.xblock i).Idx → Elt F .f32)
    (v7 : FVec F S128x1 .f32) (v13 : IVec S128x8192 1) :
    k0_pay13 (win0_0.fill i d g : Vec F S128x8192 .f32) v7 (k0_pay4 i) v13
      = k0_pay13 (win0_0.fill i d' g : Vec F S128x8192 .f32) v7 (k0_pay4 i) v13 := by
  funext j
  rw [pay13_apply, pay13_apply]
  by_cases hm : win0_0.moved i j = true
  · -- a moved index reads the fetched block under both fillings
    have hx : win0_0.fill i d g j = win0_0.fill i d' g j := by
      unfold Pipeline.Window.fill
      rw [dif_pos hm, dif_pos hm]
    rw [hx]
  · -- an index of the overhang has its mask bit clear: both sides are the sentinel
    have hb : ¬k0_pay12 (k0_pay4 i) j = 1 := fun hb =>
      hm ((moved_last_iff i h12 j).2 ((mask_last_iff i h12 j).1 hb))
    unfold Scalar.select
    rw [if_neg hb, if_neg hb]

/-- Nor does the running maximum after the masked update. -/
theorem tailM_fill_indep (i : grid0.Coords) (h12 : (i 1).val = 12)
    (d d' : S128x8192.Idx → Elt F .f32) (g : (win0_0.xblock i).Idx → Elt F .f32)
    (tg : Vec F S128x1 .i32) (cm mo : Vec F S128x1 .f32) :
    tailM i (win0_0.fill i d g : Vec F S128x8192 .f32) tg cm mo = tailM i (win0_0.fill i d' g : Vec F S128x8192 .f32) tg cm mo := by
  unfold tailM k0_pay16 k0_pay14
  rw [pay13_fill_indep i h12 d d' g]

/-- Nor the running sum. -/
theorem tailL_fill_indep (i : grid0.Coords) (h12 : (i 1).val = 12)
    (d d' : S128x8192.Idx → Elt F .f32) (g : (win0_0.xblock i).Idx → Elt F .f32)
    (tg : Vec F S128x1 .i32) (cm mo lo : Vec F S128x1 .f32) :
    tailL i (win0_0.fill i d g : Vec F S128x8192 .f32) tg cm mo lo = tailL i (win0_0.fill i d' g : Vec F S128x8192 .f32) tg cm mo lo := by
  unfold tailL k0_pay15 k0_pay14
  rw [pay13_fill_indep i h12 d d' g]

end Cert.KernelIdeal.KS

end
-- ==== Proof.KFrame.lean ====
/-
  The kernel's region runs: the body obligation at every grid point, from the three cases' runs, and the launch.

  At a point the body is handed the three input blocks (the logits' block filled out past the array's end by whatever
  its buffer held), the one-hot buffer at anything, the loss buffer as the pipeline left it, and the scratch columns at
  what the point before left (anything at the first point). It hands back the inputs unchanged, the one-hot block,
  the loss buffer untouched — or, at the last column tile, the loss column — and the scratch columns at the next
  running maximum and sum. At the last column tile these do not depend on the filling of the overhang.
-/
import proofs.«409744_j20718922236693_3_alg».proof.Proof.KPieces
import proofs.«409744_j20718922236693_3_alg».proof.Proof.KTailIndep

set_option maxRecDepth 16384

noncomputable section

namespace Cert.KernelIdeal.KS

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows' buffers hold before the body -/

/-- The zero word everywhere: the filling of the overhang the proof data names. -/
abbrev zfill : S128x8192.Idx → Elt F .f32 := fun _ => Scalar.ofBits .f32 0#32

/-- The logits' buffer, fetched at every point: its block, filled out by what the buffer held. -/
theorem before0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]

/-- Before the last column tile nothing is cut, so that is the block the proof data names. -/
theorem before0_noclip (c : Dev nD) (t : Fin cfg0.N) (h : ¬t.val % 13 = 12) (d) :
    (dats m 0 c).before 0 t d = xfull m c t := by
  rw [before0]; unfold xfull
  exact Pipeline.fill_of_clip_none (cfg := cfg0) 0 (grid0.coords t) (noClip0 t h) d zfill (iblk m c 0 t)

theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the last column tile the second grid coordinate is 12. -/
theorem coord12 : ∀ t : Fin cfg0.N, t.val % 13 = 12 → ((grid0.coords t) 1).val = 12 := by decide +kernel

/-! ## What the body hands back, window by window -/

theorem leaves0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0 t]; dsimp only
  rw [after0]
  exact congrArg (fun f : (S128x8192.Idx → Elt F .f32) → (S128x8192.Idx → Elt F .f32) =>
      (iprop(∃ d, owns (c : Thread nD τ) (ms0 t) fullShare (f d)) : sProp 𝕄))
    (funext fun d => congrArg (win0_0.fill (grid0.coords t) d) (win0_0.cut_fill (grid0.coords t) zfill (iblk m c 0 t)))
theorem leaves1 (c : Dev nD) (t : Fin cfg0.N) :
    (dats m 0 c).leaves 1 t = owns (c : Thread nD τ) (ms1 t) fullShare (iblk m c 1 t) := by
  unfold Dat.leaves; rw [live1 t]; dsimp only; rw [after1]
theorem leaves2 (c : Dev nD) (t : Fin cfg0.N) :
    (dats m 0 c).leaves 2 t = owns (c : Thread nD τ) (ms2 t) fullShare (iblk m c 2 t) := by
  unfold Dat.leaves; rw [live2 t]; dsimp only; rw [after2]
theorem leaves3 (c : Dev nD) (t : Fin cfg0.N) :
    (dats m 0 c).leaves 3 t = iprop(∃ d, owns (c : Thread nD τ) (ms3 t) fullShare (win0_3.fill (grid0.coords t) d (win0_3.cut (grid0.coords t) (oneHotBlk m c t)))) := by
  unfold Dat.leaves; rw [live3 t]; dsimp only; rw [after3]
  first | rfl | skip
theorem leaves4_idle (c : Dev nD) (t : Fin cfg0.N) (h : ¬t.val % 13 = 12) :
    (dats m 0 c).leaves 4 t = iprop(∃ d, owns (c : Thread nD τ) (ms4 t) fullShare ((dats m 0 c).before 4 t d)) :=
  Dat.leaves_idle (dats m 0 c) 4 t (idle4 t h) (noFlush4 t h)
theorem leaves4_live (c : Dev nD) (t : Fin cfg0.N) (h : t.val % 13 = 12) :
    (dats m 0 c).leaves 4 t = owns (c : Thread nD τ) (ms4 t) fullShare (lossBlk m c t) := by
  unfold Dat.leaves; rw [live4 t h]; dsimp only; rw [after4]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t)

/-- The one-hot block handed back, as the loose window's post states it. -/
theorem oneHot_fill_cut (c : Dev nD) (t : Fin cfg0.N) :
    win0_3.fill (grid0.coords t) (oneHotBlk m c t) (win0_3.cut (grid0.coords t) (oneHotBlk m c t)) = oneHotBlk m c t :=
  win0_3.fill_cut _ _

/-! ## The body at any point -/

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  simp only [before1, before2]
  have hN : t.val < 26 := lt_of_lt_of_eq t.isLt (show cfg0.N = 26 from N_0)
  by_cases h12 : t.val % 13 = 12
  · -- the last column tile: the masked update and the loss store
    have h0 : ¬t.val % 13 = 0 := by omega
    have hz : t.val ≠ 0 := by omega
    have hc0 : ¬cond0 (grid0.coords t) := fun h => h0 ((hcond0 t).mp h)
    have hc1 : ¬cond1 (grid0.coords t) := fun h => ((hcond1 t).mp h) h12
    have hc2 : cond2 (grid0.coords t) := (hcond2 t).mpr h12
    rw [leaves4_live m c t h12]
    simp only [before0]
    rw [PhiS_castSucc m c t, PhiS_pos m c _ _ hz]
    unfold lossBlk
    rw [scAt_last m c t h0 h12]
    dsimp only
    iintro ⟨⟨⟨HS0, HS1⟩, Hg⟩, Ho, ⟨%d0, H0⟩, ⟨%d1, H1⟩, ⟨%d2, H2⟩, ⟨%d3, H3⟩, ⟨%d4, H4⟩⟩
    iapply ((kernelRunC c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
      (win0_0.fill (grid0.coords t) d0 (iblk m c 0 t)) (iblk m c 1 t) (iblk m c 2 t)
      (scAt m c (t.val - 1) (Nat.lt_of_le_of_lt (Nat.sub_le _ _) t.isLt)).1 (scAt m c (t.val - 1) (Nat.lt_of_le_of_lt (Nat.sub_le _ _) t.isLt)).2).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hg]
    · isplitl [HS0 HS1]
      · isplitl [HS0]
        · unfold owns; iexists _; isplitr
          swap; · iexact HS0
          ipureintro
          exact (View.read_writes_eq_canon _ _ _ (coverCS0 c _ _ _ _ _ _ _ _ _ _ _ _ _ _ _ _ _ _ _ _ _ _ _)).trans ((canonCS0 c _ _ _ _ _ _ _ _ _ _ _ _ _ _ _ _ _ _ _ _ _ _ _).trans
            (tailM_fill_indep (grid0.coords t) (coord12 t h12) d0 zfill (iblk m c 0 t) (iblk m c 2 t) (iblk m c 1 t) _))
        · unfold owns; iexists _; isplitr
          swap; · iexact HS1
          ipureintro
          exact (View.read_writes_eq_canon _ _ _ (coverCS1 c _ _ _ _ _ _ _ _ _ _ _ _ _ _ _ _ _ _ _ _ _ _ _)).trans ((canonCS1 c _ _ _ _ _ _ _ _ _ _ _ _ _ _ _ _ _ _ _ _ _ _ _).trans
            (tailL_fill_indep (grid0.coords t) (coord12 t h12) d0 zfill (iblk m c 0 t) (iblk m c 2 t) (iblk m c 1 t) _ _))
      iexact Hg
    isplitl [Ho]; · iexact Ho
    isplitl [H0]; · iexists d0; iexact H0
    isplitl [H1]; · iexact H1
    isplitl [H2]; · iexact H2
    isplitl [H3]
    · iexists (oneHotBlk m c t)
      unfold owns; iexists _; isplitr
      swap; · iexact H3
      ipureintro
      exact (View.read_writes_eq_canon _ _ _ (coverC3 c _ _ _ _ _ _ _ _ _ _ _ _ _ _ _ _ _ _ _ _ _ _ _)).trans ((canonC3 c _ _ _ _ _ _ _ _ _ _ _ _ _ _ _ _ _ _ _ _ _ _ _).trans (oneHot_fill_cut m c t).symm)
    · unfold owns; iexists _; isplitr
      swap; · iexact H4
      ipureintro
      refine (View.read_writes_eq_canon _ _ _ (coverC4 c _ _ _ _ _ _ _ _ _ _ _ _ _ _ _ _ _ _ _ _ _ _ _)).trans ((canonC4 c _ _ _ _ _ _ _ _ _ _ _ _ _ _ _ _ _ _ _ _ _ _ _).trans ?_)
      rw [tailM_fill_indep (grid0.coords t) (coord12 t h12) d0 zfill (iblk m c 0 t) (iblk m c 2 t) (iblk m c 1 t),
        tailL_fill_indep (grid0.coords t) (coord12 t h12) d0 zfill (iblk m c 0 t) (iblk m c 2 t) (iblk m c 1 t)]
      rfl
  · -- before the last column tile: the unmasked update; the loss buffer is handed back as found
    have hc1 : cond1 (grid0.coords t) := (hcond1 t).mpr h12
    have hc2 : ¬cond2 (grid0.coords t) := fun h => h12 ((hcond2 t).mp h)
    rw [leaves4_idle m c t h12]
    simp only [before0_noclip m c t h12]
    unfold xfull
    by_cases h0 : t.val % 13 = 0
    · -- the first column tile of a row tile: the scratch columns are reset first
      have hc0 : cond0 (grid0.coords t) := (hcond0 t).mpr h0
      rw [scAt_first m c t h0]
      unfold xfull
      dsimp only
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRunA c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
          (win0_0.fill (grid0.coords t) zfill (iblk m c 0 t)) (iblk m c 1 t) (iblk m c 2 t)).2.2.2 ((dats m 0 c).before 4 t d4) Set.univ _)
        isplitl [H0]; · iexact H0
        isplitl [H1]; · iexact H1
        isplitl [H2]; · iexact H2
        isplitl [H3]; · iexists _; iexact H3
        isplitl [H4]; · iexact H4
        isplitl [HS0]; · iexact HS0
        isplitl [HS1]; · iexact HS1
        iintro ⟨H0, H1, H2, ⟨%e3, H3⟩, H4, ⟨%es0, HS0⟩, ⟨%es1, HS1⟩⟩
        isplitl [HS0 HS1 Hg]
        · isplitl [HS0 HS1]
          · isplitl [HS0]
            · unfold owns; iexists _; isplitr
              swap; · iexact HS0
              ipureintro
              exact (View.read_writes_eq_canon _ _ _ (coverAS0 c _ _ _ _ _ _ _ _ _ _ _ _ _ _ _ _ _ _ _ _ _)).trans (canonAS0 c _ _ _ _ _ _ _ _ _ _ _ _ _ _ _ _ _ _ _ _ _)
            · unfold owns; iexists _; isplitr
              swap; · iexact HS1
              ipureintro
              exact (View.read_writes_eq_canon _ _ _ (coverAS1 c _ _ _ _ _ _ _ _ _ _ _ _ _ _ _ _ _ _ _ _ _)).trans (canonAS1 c _ _ _ _ _ _ _ _ _ _ _ _ _ _ _ _ _ _ _ _ _)
          iexact Hg
        isplitl [Ho]; · iexact Ho
        isplitl [H0]; · iexists zfill; iexact H0
        isplitl [H1]; · iexact H1
        isplitl [H2]; · iexact H2
        isplitl [H3]
        · iexists (oneHotBlk m c t)
          unfold owns; iexists _; isplitr
          swap; · iexact H3
          ipureintro
          exact (View.read_writes_eq_canon _ _ _ (coverA3 c _ _ _ _ _ _ _ _ _ _ _ _ _ _ _ _ _ _ _ _ _)).trans ((canonA3 c _ _ _ _ _ _ _ _ _ _ _ _ _ _ _ _ _ _ _ _ _).trans (oneHot_fill_cut m c t).symm)
        · iexists d4; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRunA c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
          (win0_0.fill (grid0.coords t) zfill (iblk m c 0 t)) (iblk m c 1 t) (iblk m c 2 t)).2.2.2 ((dats m 0 c).before 4 t d4) Set.univ _)
        isplitl [H0]; · iexact H0
        isplitl [H1]; · iexact H1
        isplitl [H2]; · iexact H2
        isplitl [H3]; · iexists _; iexact H3
        isplitl [H4]; · iexact H4
        isplitl [HS0]; · iexists _; iexact HS0
        isplitl [HS1]; · iexists _; iexact HS1
        iintro ⟨H0, H1, H2, ⟨%e3, H3⟩, H4, ⟨%es0, HS0⟩, ⟨%es1, HS1⟩⟩
        isplitl [HS0 HS1 Hg]
        · isplitl [HS0 HS1]
          · isplitl [HS0]
            · unfold owns; iexists _; isplitr
              swap; · iexact HS0
              ipureintro
              exact (View.read_writes_eq_canon _ _ _ (coverAS0 c _ _ _ _ _ _ _ _ _ _ _ _ _ _ _ _ _ _ _ _ _)).trans (canonAS0 c _ _ _ _ _ _ _ _ _ _ _ _ _ _ _ _ _ _ _ _ _)
            · unfold owns; iexists _; isplitr
              swap; · iexact HS1
              ipureintro
              exact (View.read_writes_eq_canon _ _ _ (coverAS1 c _ _ _ _ _ _ _ _ _ _ _ _ _ _ _ _ _ _ _ _ _)).trans (canonAS1 c _ _ _ _ _ _ _ _ _ _ _ _ _ _ _ _ _ _ _ _ _)
          iexact Hg
        isplitl [Ho]; · iexact Ho
        isplitl [H0]; · iexists zfill; iexact H0
        isplitl [H1]; · iexact H1
        isplitl [H2]; · iexact H2
        isplitl [H3]
        · iexists (oneHotBlk m c t)
          unfold owns; iexists _; isplitr
          swap; · iexact H3
          ipureintro
          exact (View.read_writes_eq_canon _ _ _ (coverA3 c _ _ _ _ _ _ _ _ _ _ _ _ _ _ _ _ _ _ _ _ _)).trans ((canonA3 c _ _ _ _ _ _ _ _ _ _ _ _ _ _ _ _ _ _ _ _ _).trans (oneHot_fill_cut m c t).symm)
        · iexists d4; iexact H4
    · -- a middle column tile
      have hz : t.val ≠ 0 := fun h => h0 (by rw [h])
      have hc0 : ¬cond0 (grid0.coords t) := fun h => h0 ((hcond0 t).mp h)
      rw [scAt_mid m c t h0 h12]
      unfold xfull
      dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRunB c (grid0.coords t) (ms0 t) (hs0 t) (ms1 t) (hs1 t) (ms2 t) (hs2 t) (ms3 t) (hs3 t) (ms4 t) (hs4 t) scM0 (Memref.isWhole_whole _) scM1 (Memref.isWhole_whole _) hc0 hc1 hc2
        (win0_0.fill (grid0.coords t) zfill (iblk m c 0 t)) (iblk m c 1 t) (iblk m c 2 t)
        (scAt m c (t.val - 1) (Nat.lt_of_le_of_lt (Nat.sub_le _ _) t.isLt)).1 (scAt m c (t.val - 1) (Nat.lt_of_le_of_lt (Nat.sub_le _ _) t.isLt)).2).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (coverBS0 c _ _ _ _ _ _ _ _ _ _ _ _ _ _ _ _ _ _ _ _ _ _ _)).trans (canonBS0 c _ _ _ _ _ _ _ _ _ _ _ _ _ _ _ _ _ _ _ _ _ _ _)
          · unfold owns; iexists _; isplitr
            swap; · iexact HS1
            ipureintro
            exact (View.read_writes_eq_canon _ _ _ (coverBS1 c _ _ _ _ _ _ _ _ _ _ _ _ _ _ _ _ _ _ _ _ _ _ _)).trans (canonBS1 c _ _ _ _ _ _ _ _ _ _ _ _ _ _ _ _ _ _ _ _ _ _ _)
        iexact Hg
      isplitl [Ho]; · iexact Ho
      isplitl [H0]; · iexists zfill; iexact H0
      isplitl [H1]; · iexact H1
      isplitl [H2]; · iexact H2
      isplitl [H3]
      · iexists (oneHotBlk m c t)
        unfold owns; iexists _; isplitr
        swap; · iexact H3
        ipureintro
        exact (View.read_writes_eq_canon _ _ _ (coverB3 c _ _ _ _ _ _ _ _ _ _ _ _ _ _ _ _ _ _ _ _ _ _ _)).trans ((canonB3 c _ _ _ _ _ _ _ _ _ _ _ _ _ _ _ _ _ _ _ _ _ _ _).trans (oneHot_fill_cut m c t).symm)
      · iexists d4; iexact H4

/-- The library's body obligation, at every point. -/
theorem body_obligation (c : Dev nD) :
    Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch columns' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 26 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, with every array of the pipeline at what the library computes
    from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.KS

end
-- ==== Proof.Spec.lean ====
/-
  What both programs compute, as mathematics.

  For 256 rows and 100000 classes: the blended logit of row i at class j is the margin logit cos_theta_m[i, j] at
  the row's target class and the plain logit cos_theta[i, j] elsewhere; the row's loss is the log-sum-exp of its
  blended logits minus the blended logit at the target (softmax cross-entropy); the one-hot array has a 1 at each
  row's target class. All inputs are finite, so the loss is a real number; it is stated in the extended reals
  because that is where the programs' values live.
-/
import Idealize.ShloMosaic.PureOps.Ideal
import Idealize.ShloMosaic.Lib.ValueIdx
import Mathlib.Analysis.SpecialFunctions.Log.Basic
import Mathlib.Analysis.SpecialFunctions.Exp

noncomputable section

namespace Cert.Spec

open Idealize.ShloMosaic Idealize.ShloMosaic.ValueIdx

/-- The number of classes. -/
abbrev NC : ℕ := 100000

/-- The [256, 100000] arrays' shape, the [256] vectors', the [256, 1] columns'. -/
abbrev SA : Shape := ⟨2, ![256, 100000]⟩
abbrev SV : Shape := ⟨1, ![256]⟩
abbrev SC : Shape := ⟨2, ![256, 1]⟩

/-- A class index from a natural number (the number itself when it is below the number of classes). -/
def colOf (n : ℕ) : Fin NC := ⟨n % NC, Nat.mod_lt _ (by norm_num)⟩

theorem colOf_val_of_lt {n : ℕ} (h : n < NC) : (colOf n).val = n := Nat.mod_eq_of_lt h

/-- An array of extended reals read as real numbers, row by row (its entries are finite where this is used). -/
def re2 (A : SA.Idx → EReal) (i : Fin 256) (j : Fin NC) : ℝ := (A (ix2 i j)).toReal

/-- Row i's target class. -/
def tgt (T : SV.Idx → BitVec 32) (i : Fin 256) : Fin NC := colOf (T (ix1 i)).toNat

/-- The blended logit: the margin logit at the target class, the plain logit elsewhere. -/
def logit (cos cosm : Fin 256 → Fin NC → ℝ) (tg : Fin 256 → Fin NC) (i : Fin 256) (j : Fin NC) : ℝ :=
  if j = tg i then cosm i j else cos i j

/-- The log-sum-exp of a row. -/
def lse (x : Fin NC → ℝ) : ℝ := Real.log (∑ j, Real.exp (x j))

/-- Row i's loss: the log-sum-exp of its blended logits minus the blended logit at its target class. -/
def lossRow (cos cosm : Fin 256 → Fin NC → ℝ) (tg : Fin 256 → Fin NC) (i : Fin 256) : ℝ :=
  lse (logit cos cosm tg i) - cosm i (tg i)

/-- The per-row losses of the argument arrays, as a vector of extended reals. -/
def lossVec (cos cosm : SA.Idx → EReal) (T : SV.Idx → BitVec 32) : SV.Idx → EReal :=
  fun i => ((lossRow (re2 cos) (re2 cosm) (tgt T) (i 0) : ℝ) : EReal)

/-- The one-hot array of the targets. -/
def oneHot (T : SV.Idx → BitVec 32) : SA.Idx → EReal :=
  fun i => if BitVec.ofNat 32 (i 1).val = T (ix1 (i 0)) then 1 else 0

end Cert.Spec

end
-- ==== Proof.HostEnds.lean ====
/-
  The host lines around the kernel's region. Before it: the targets are laid out as a column, and the margin logit
  of each row at its target class is gathered into a column (the gather's index is the target itself when it is a
  class index). After it: the loss is the sum of the loss column's 256 entries divided by 256, the regulariser is a
  function of x_norm alone, and the one-hot result is the region's array.
-/
import proofs.«409744_j20718922236693_3_alg».proof.Proof.KDats
import proofs.«409744_j20718922236693_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.HostEnds

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## Words below the class count -/

/-- A word whose value is below 100000 is not negative as a signed number. -/
theorem not_slt_zero {a : BitVec 32} (ha : a.toNat < 100000) : IntOp.cmpi .slt a 0#32 ≠ 1#1 := by
  intro h
  have h1 := (StableHlo.Predicate.slt_iff_toNat (a := a) (b := 0#32) (by omega) (by decide)).1 h
  have h0 : (0#32 : BitVec 32).toNat = 0 := rfl
  omega

/-- It is at least zero as a signed number. -/
theorem sge_zero {a : BitVec 32} (ha : a.toNat < 100000) : IntOp.cmpi .sge a 0#32 = 1#1 :=
  (StableHlo.Predicate.sge_iff_toNat (a := a) (b := 0#32) (by omega) (by decide)).2 (Nat.zero_le _)

/-- It is at most 99999 as a signed number. -/
theorem sle_last {a : BitVec 32} (ha : a.toNat < 100000) : IntOp.cmpi .sle a 99999#32 = 1#1 :=
  (StableHlo.Predicate.sle_iff_toNat (a := a) (b := 99999#32) (by omega) (by decide)).2
    (by have h9 : (99999#32 : BitVec 32).toNat = 99999 := rfl; omega)

/-- Read signed, it is its value. -/
theorem toInt_toNat {a : BitVec 32} (ha : a.toNat < 100000) : a.toInt.toNat = a.toNat := by
  rw [StableHlo.Predicate.toInt_eq_toNat_of_lt (a := a) (by omega)]; rfl

/-! ## A conjunction over an axis whose every entry holds -/

/-- A left fold by `and` from 1 over words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_all_one f hf l

/-- A reduce by `and` from 1 of an array whose every entry is 1 is 1 everywhere. -/
theorem reduce_andi_all_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_all_one x hx _

/-! ## The host lines that gather the margin logit at the target, read at an index -/

/-- A vector laid out as a column, read at (r, 0): the vector at r. -/
theorem col_apply {α : Type} (T : S256.Idx → α) (j : S256x1.Idx) :
    shapeCast S256x1 T shapeCasts_S256_S256x1 j = T (ix1 (j 0)) := by
  refine shapeCast_apply _ _ j (ix1 (j 0)) ?_
  rw [Shape.rowMajor_val_one, Shape.rowMajor_val_two]
  have h1 := idx2_lt1 j
  show (j 0).val = (j 0).val * 1 + (j 1).val
  omega

/-- The start indices given to the gather, as a function of the target column: a negative entry is moved up by the class
    count, and the column is laid out as [256, 1, 1]. -/
def startIdx (v0 : S256x1.Idx → BitVec 32) : S256x1x1.Idx → BitVec 32 :=
  shapeCast S256x1x1 (select (cmpi .slt v0 (broadcastInDim S256x1 ![] bcast_S_S256x1 (constantI S_ 32 0#32)))
    (addi v0 (broadcastInDim S256x1 ![] bcast_S_S256x1 (constantI S_ 32 100000#32))) v0) shapeCasts_S256x1_S256x1x1

/-- The range mask of the start indices: 0 ≤ index ≤ 99999, conjoined over the unit axis. -/
def inRange (i3 : S256x1x1.Idx → BitVec 32) : S256x1.Idx → BitVec 1 :=
  Host.reduce IntOp.andi
    (andi (cmpi .sge i3 (broadcastInDim S256x1x1 ![] bcast_S_S256x1x1 (constantI S_ 32 0#32)))
      (cmpi .sle i3 (broadcastInDim S256x1x1 ![0, 1, 2] bcast_S1x1x1_S256x1x1_0_1_2
        (broadcastInDim S1x1x1 ![2] bcast_S1_S1x1x1_2 (constantI S1 32 99999#32)))))
    (constantI S_ 1 1#1) reducesTo_S256x1x1_S256x1_d2 h_S_

/-- Entry (r, 0, 0) of the start indices is row r's target, when every target is a class index. -/
theorem startIdx_apply (v0 : S256x1.Idx → BitVec 32) (hv : ∀ j, (v0 j).toNat < 100000) (k : S256x1x1.Idx) :
    startIdx v0 k = v0 (ix2 (k 0) 0) := by
  unfold startIdx
  refine (shapeCast_apply _ _ k (ix2 (k 0) 0) ?_).trans ?_
  · rw [Shape.rowMajor_val_two, Shape.rowMajor_val_three]
    have h1 : (k 1).val < 1 := (k 1).isLt
    have h2 : (k 2).val < 1 := (k 2).isLt
    show (k 0).val * 1 + 0 = ((k 0).val * 1 + (k 1).val) * 1 + (k 2).val
    omega
  · exact if_neg (not_slt_zero (hv _))

/-- The range mask holds everywhere, when every start index is a class index. -/
theorem inRange_apply (i3 : S256x1x1.Idx → BitVec 32) (h3 : ∀ k, (i3 k).toNat < 100000) (j : S256x1.Idx) :
    inRange i3 j = 1#1 := by
  unfold inRange
  refine reduce_andi_all_one _ _ _ _ (fun k => ?_) (fun _ => rfl) j
  exact IntOp.andi_eq_one.2 ⟨sge_zero (h3 k), sle_last (h3 k)⟩

/-- The gather read at (r, 0): the array at row r and the column its start index (r, 0, 0) names, read signed and
    clamped into the class range. -/
theorem gather_apply {α : Type} (x : S256x100000.Idx → α) (i3 : S256x1x1.Idx → BitVec 32) (j : S256x1.Idx) :
    Host.gather gather_S256x100000_S256x1x1_S256x1_n_1_0_0_1_2_11 x i3 j
      = x (ix2 (j 0) ⟨min (i3 (ix3 (j 0) 0 0)).toInt.toNat 99999, by omega⟩) := by
  unfold Host.gather
  congr 1
  funext a
  refine Fin.ext ?_
  match a with
  | ⟨0, _⟩ =>
    show gather_S256x100000_S256x1x1_S256x1_n_1_0_0_1_2_11.start j i3 0 + gather_S256x100000_S256x1x1_S256x1_n_1_0_0_1_2_11.batchCoord j 0 + gather_S256x100000_S256x1x1_S256x1_n_1_0_0_1_2_11.offCoord j 0 = (j 0).val
    rw [GatherDims.start_batching _ _ _ _ (show (0 : Fin 2) ∈ gather_S256x100000_S256x1x1_S256x1_n_1_0_0_1_2_11.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S256x100000_S256x1x1_S256x1_n_1_0_0_1_2_11.operandBatchingDims from List.mem_singleton.mpr rfl)]
    rfl
  | ⟨1, _⟩ =>
    show gather_S256x100000_S256x1x1_S256x1_n_1_0_0_1_2_11.start j i3 1 + gather_S256x100000_S256x1x1_S256x1_n_1_0_0_1_2_11.batchCoord j 1 + gather_S256x100000_S256x1x1_S256x1_n_1_0_0_1_2_11.offCoord j 1 = min (i3 (ix3 (j 0) 0 0)).toInt.toNat 99999
    rw [GatherDims.batchCoord_eq_zero _ _ _ (show (1 : Fin 2) ∉ gather_S256x100000_S256x1x1_S256x1_n_1_0_0_1_2_11.operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x100000_S256x1x1_S256x1_n_1_0_0_1_2_11.startIndexMap from List.mem_singleton.mpr rfl)]
    have hsi : gather_S256x100000_S256x1x1_S256x1_n_1_0_0_1_2_11.siIdx j ⟨List.idxOf (1 : Fin 2) gather_S256x100000_S256x1x1_S256x1_n_1_0_0_1_2_11.startIndexMap,
        List.idxOf_lt_length_iff.2 (List.mem_singleton.mpr rfl)⟩ = ix3 (j 0) 0 0 := by
      funext b; refine Fin.ext ?_
      match b with
      | ⟨0, _⟩ => rfl
      | ⟨1, _⟩ =>
        have h1 : (j 1).val < 1 := (j 1).isLt
        show (j 1).val = 0
        omega
      | ⟨2, _⟩ => rfl
    rw [hsi]
    rfl

/-! ## The two columns the region is given, and the lines after it -/

variable (m : (ℓ : Loc nD τ sig) → Buf (Elt Ideal) ℓ) (c : Dev nD)

/-- The region finds the targets as a column: entry (r, 0) is row r's target. -/
theorem V_v0 :
    (V m c main_v0 : S256x1.Idx → BitVec 32) = fun idx => m ((c.tc : Thread nD τ).loc main_arg3) (ix1 (idx 0)) := by
  have e : (V m c main_v0 : S256x1.Idx → BitVec 32)
      = shapeCast S256x1 (m ((c.tc : Thread nD τ).loc main_arg3) : S256.Idx → BitVec 32) shapeCasts_S256_S256x1 := by
    dsimp only [Gen.V, Gen.V0]
    simp only [Gen.hostOps0, Gen.hostOps0_1, List.flatten_cons, List.flatten_nil, List.append_nil, List.cons_append,
      List.nil_append]
    after_results; rfl
  rw [e]
  funext idx
  exact col_apply _ idx

/-- The region finds the gathered margin logits as a column: entry (r, 0) is cos_theta_m[r, target r], when every
    target is a class index. -/
theorem V_v1 (hT : ∀ i, (m ((c.tc : Thread nD τ).loc main_arg3) i).toNat < 100000) :
    (V m c main_v1 : S256x1.Idx → EReal)
      = fun idx => m ((c.tc : Thread nD τ).loc main_arg1) (ix2 (idx 0) (Cert.Spec.colOf (m ((c.tc : Thread nD τ).loc main_arg3) (ix1 (idx 0))).toNat)) := by
  have e : (V m c main_v1 : S256x1.Idx → EReal)
      = select (inRange (startIdx (shapeCast S256x1 (m ((c.tc : Thread nD τ).loc main_arg3) : S256.Idx → BitVec 32) shapeCasts_S256_S256x1)))
          (Host.gather gather_S256x100000_S256x1x1_S256x1_n_1_0_0_1_2_11 (m ((c.tc : Thread nD τ).loc main_arg1) : S256x100000.Idx → EReal)
            (startIdx (shapeCast S256x1 (m ((c.tc : Thread nD τ).loc main_arg3) : S256.Idx → BitVec 32) shapeCasts_S256_S256x1)))
          (broadcastInDim S256x1 ![] bcast_S_S256x1 (constant (F := Ideal) S_ .f32 0x7FC00000#32)) := by
    dsimp only [Gen.V, Gen.V0]
    simp only [Gen.hostOps0, Gen.hostOps0_1, List.flatten_cons, List.flatten_nil, List.append_nil, List.cons_append,
      List.nil_append]
    after_results_simp; rfl
  rw [e]
  funext idx
  -- every entry of the target column, and so every start index, is a class index
  have hv : ∀ j : S256x1.Idx, (shapeCast S256x1 (m ((c.tc : Thread nD τ).loc main_arg3) : S256.Idx → BitVec 32) shapeCasts_S256_S256x1 j).toNat < 100000 :=
    fun j => by rw [col_apply]; exact hT _
  have h3 : ∀ k, (startIdx (shapeCast S256x1 (m ((c.tc : Thread nD τ).loc main_arg3) : S256.Idx → BitVec 32) shapeCasts_S256_S256x1) k).toNat < 100000 :=
    fun k => by rw [startIdx_apply _ hv]; exact hv _
  -- so the range mask holds and the select takes the gathered entry
  show Scalar.select (inRange _ idx) (Host.gather _ _ _ idx) _ = _
  rw [inRange_apply _ h3 idx, select_one, gather_apply]
  refine congrArg _ (congrArg (ix2 (idx 0)) (Fin.ext ?_))
  -- whose column is the target itself: read signed it is its value, and the clamp leaves it
  show min (startIdx _ (ix3 (idx 0) 0 0)).toInt.toNat 99999 = (Cert.Spec.colOf _).val
  rw [startIdx_apply _ hv, col_apply, toInt_toNat (hT _), Cert.Spec.colOf_val_of_lt (hT _)]
  have h := hT (ix1 (idx 0))
  show min (m ((c.tc : Thread nD τ).loc main_arg3) (ix1 (idx 0))).toNat 99999
    = (m ((c.tc : Thread nD τ).loc main_arg3) (ix1 (idx 0))).toNat
  exact Nat.min_eq_left (by omega)

/-- After the region: the loss result is the sum of the loss column divided by 256. -/
theorem tail_v5 (dats : (p : Fin 1) → (c : Dev nD) → Dat τ (Elt Ideal) Unit ℕ (UR sig nD τ) ℕ (cfgs p) c) :
    Pipeline.afterTail₀ cfgs dats 0 (V0 m) [hostOps1] c main_v5
      = Host.divf (F := Ideal) (Host.reduceAdd (F := Ideal) (shapeCast S256 ((dats 0 c).arrAt 4 cfg0.N : S256x1.Idx → EReal) shapeCasts_S256x1_S256)
          (constant (F := Ideal) S_ .f32 0x00000000#32) reducesTo_S256_S_d0 h_S_) (constant (F := Ideal) S_ .f32 0x43800000#32) := by
  unfold Pipeline.afterTail₀
  show StableHlo.after hostOps1 _ (Proc.devRef .tc main_v5) = _
  after_results
  have e : Pipeline.withArrays (cfgs 0).spec c (V0 m c) (fun w => (dats 0 c).arrAt w (cfgs 0).N) (Proc.devRef .tc main_v2_1)
      = (dats 0 c).arrAt 4 cfg0.N := Pipeline.withArrays_arr spec0 launch0.win.arr_inj c _ _ 4
  rw [e]
  rfl

/-- After the region: the regulariser, of x_norm alone. -/
theorem tail_v12 (dats : (p : Fin 1) → (c : Dev nD) → Dat τ (Elt Ideal) Unit ℕ (UR sig nD τ) ℕ (cfgs p) c) :
    Pipeline.afterTail₀ cfgs dats 0 (V0 m) [hostOps1] c main_v12
      = Host.divf (F := Ideal) (Host.reduceAdd (F := Ideal) (addf (F := Ideal) (Host.divf (F := Ideal) (m ((c.tc : Thread nD τ).loc main_arg2)) (broadcastInDim S256 ![] bcast_S_S256 (constant (F := Ideal) S_ .f32 0x463D1000#32))) (Host.divf (F := Ideal) (broadcastInDim S256 ![] bcast_S_S256 (constant (F := Ideal) S_ .f32 0x3F800000#32)) (m ((c.tc : Thread nD τ).loc main_arg2)))) (constant (F := Ideal) S_ .f32 0x00000000#32) reducesTo_S256_S_d0 h_S_) (constant (F := Ideal) S_ .f32 0x43800000#32) := by
  unfold Pipeline.afterTail₀
  show StableHlo.after hostOps1 _ (Proc.devRef .tc main_v12) = _
  after_results
  have e : Pipeline.withArrays (cfgs 0).spec c (V0 m c) (fun w => (dats 0 c).arrAt w (cfgs 0).N) (Proc.devRef .tc main_arg2)
      = m ((c.tc : Thread nD τ).loc main_arg2) :=
    (Pipeline.withArrays_of_ne _ c (V0 m c) _ main_arg2
      (by exact (by decide : ∀ w, Pipeline.arrRef spec0 w ≠ main_arg2))).trans (V_main_arg2 m c)
  rw [e]

/-- After the region: the one-hot result is the region's array. -/
theorem tail_v2_0 (dats : (p : Fin 1) → (c : Dev nD) → Dat τ (Elt Ideal) Unit ℕ (UR sig nD τ) ℕ (cfgs p) c) :
    Pipeline.afterTail₀ cfgs dats 0 (V0 m) [hostOps1] c main_v2_0 = (dats 0 c).arrAt 3 cfg0.N := by
  unfold Pipeline.afterTail₀
  rw [StableHlo.after_of_forall_not_mem (b := Proc.devRef .tc main_v2_0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))]
  exact Pipeline.withArrays_arr spec0 launch0.win.arr_inj c _ _ 3

end Cert.KernelIdeal.HostEnds

end
-- ==== Proof.KValue3.lean ====
/-
  The one-hot result after the run. Every point writes its 128 x 8192 block of the one-hot array back, the last
  column tile only its first 1696 columns; the 26 blocks cover the 256 x 100000 array, and each entry is 1 exactly
  where the global column is the row's target.

  The steps: the stored block read at an entry (p, q) compares the word of column 8192 c + q with the target word in
  row p of the targets' block; that block's row p is the target of array row 128 b + p; so what point 13 b + c writes
  back is its block of the one-hot array. Entry (r, j) of the array lies in the block of point
  13 (r / 128) + j / 8192, inside the part that is written back, so the array ends as the one-hot array.
-/
import proofs.«409744_j20718922236693_3_alg».proof.Proof.KDats
import proofs.«409744_j20718922236693_3_alg».proof.Proof.Spec
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.KernelIdeal.KS
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

namespace OneHot

/-- A one-bit word widened to 32 bits and read as a signed integer is the bit. -/
theorem toInt_widen_bit : ∀ b : BitVec 1, (b.setWidth 32).toInt = (b.toNat : ℤ) := by decide

/-- The stored block at (p, q): 1 where the word of the global column (the tile's first column plus q) is the
    row's target word, else 0. -/
theorem pay10_apply (i : grid0.Coords) (tg : Vec Ideal S128x1 .i32) (p : Fin 128) (q : Fin 8192) :
    k0_pay10 (F := Ideal) i tg (ix2 p q)
      = if BitVec.ofNat 32 q.val + BitVec.ofNat 32 (i 1).val * 8192#32 = tg (ix2 p (0 : Fin 1)) then (1 : EReal) else 0 := by
  unfold k0_pay10 k0_pay5 k0_pay4
  show (((((IntOp.cmpi .eq (IntOp.addi (iota .tc S128x8192 32 [1] iota_S128x8192_d1_w32 (ix2 p q)) (Scalar.muli (BitVec.ofNat 32 (i 1).val) 8192#32))
      (broadcastTo S128x8192 (shapeCast S128x1 tg shapeCasts_S128x1_S128x1) broadcasts_S128x1_S128x8192 (ix2 p q))).setWidth 32).toInt : ℤ) : ℝ) : EReal) = _
  rw [toInt_widen_bit, iota_single_apply, shapeCast_self,
    broadcastTo_apply tg broadcasts_S128x1_S128x8192 (ix2 p q) (ix2 p (0 : Fin 1)) (fun a => by
      match a with
      | ⟨0, _⟩ => rfl
      | ⟨1, _⟩ => rfl)]
  show ((((BitVec.ofBool (BitVec.ofNat 32 q.val + BitVec.ofNat 32 (i 1).val * 8192#32 == tg (ix2 p (0 : Fin 1)))).toNat : ℤ) : ℝ) : EReal) = _
  by_cases h : BitVec.ofNat 32 q.val + BitVec.ofNat 32 (i 1).val * 8192#32 = tg (ix2 p (0 : Fin 1))
  · rw [if_pos h, beq_iff_eq.mpr h]; simp
  · rw [if_neg h, beq_eq_false_iff_ne.mpr h]; simp

/-- The same at any index of the block. -/
theorem pay10_at (i : grid0.Coords) (tg : Vec Ideal S128x1 .i32) (y : S128x8192.Idx) :
    k0_pay10 (F := Ideal) i tg y
      = if BitVec.ofNat 32 (y 1).val + BitVec.ofNat 32 (i 1).val * 8192#32 = tg (ix2 (y 0) (0 : Fin 1)) then (1 : EReal) else 0 := by
  obtain ⟨p, q, rfl⟩ : ∃ (p : Fin 128) (q : Fin 8192), y = ix2 p q := ⟨y 0, y 1, eq_ix2 y⟩
  exact pay10_apply i tg p q

/-- The word of a global column: the column inside the tile plus the tile's first column, added as words, is the
    word of the sum. -/
theorem word_col (a b : ℕ) : BitVec.ofNat 32 a + BitVec.ofNat 32 b * 8192#32 = BitVec.ofNat 32 (b * 8192 + 1 * a) := by
  rw [Nat.one_mul, Nat.add_comm, BitVec.ofNat_add, BitVec.ofNat_mul]

/-- Where the blocks sit, decided once over the 26 points: point t = 13 b + c has the one-hot block at block index
    (b, c) and the targets' block at (b, 0); the one-hot block keeps all 128 rows, and all 8192 columns but at the
    last column tile, where 1696 columns lie inside the array. -/
theorem where_blocks : ∀ t : Fin cfg0.N,
    win0_3.index t (0 : Fin 2) = t.val / 13 ∧ win0_3.index t (1 : Fin 2) = t.val % 13
    ∧ (grid0.coords t (1 : Fin 2)).val = t.val % 13
    ∧ win0_2.index t (0 : Fin 2) = t.val / 13 ∧ win0_2.index t (1 : Fin 2) = 0
    ∧ win0_3.xsize (grid0.coords t) (0 : Fin 2) = 128
    ∧ win0_3.xsize (grid0.coords t) (1 : Fin 2) = (if t.val % 13 = 12 then 1696 else 8192) :=
  (by decide +kernel : ∀ t : Fin grid0.N, _)

/-- An array index is in point t's block exactly when, on each axis, its coordinate lies in the block's part
    inside the array. -/
theorem mem_blk3 (t : Fin cfg0.N) (i : S256x100000.Idx) :
    i ∈ ((cfg0.win 3).blk t).view.set
      ↔ ∀ a : Fin 2, win0_3.index t a * S128x8192.size a ≤ (i a).val
          ∧ (i a).val < win0_3.index t a * S128x8192.size a + win0_3.xsize (grid0.coords t) a := by
  show i ∈ ((View.whole main_v2_0).slice (win0_3.rect t)).set ↔ _
  rw [View.set_slice_whole, Rect.mem_set_unit]
  exact Iff.rfl

/-- The blocks cover the array: entry (r, j) lies in the block of point 13 (r / 128) + j / 8192 — its row in that
    block's 128 rows, its column in the 8192 columns of the column tile, or, in the last column tile (from column
    98304 on), in the 1696 columns that lie inside the array. -/
theorem covered3 (i : S256x100000.Idx) :
    ∃ t : Fin cfg0.N, (cfg0.win 3).flush t = true ∧ i ∈ ((cfg0.win 3).blk t).view.set := by
  have hi0 : (i 0).val < 256 := idx2_lt0 i
  have hi1 : (i 1).val < 100000 := idx2_lt1 i
  have hN : cfg0.N = 26 := by decide
  obtain ⟨t, hv⟩ : ∃ t : Fin cfg0.N, t.val = 13 * ((i 0).val / 128) + (i 1).val / 8192 :=
    ⟨⟨13 * ((i 0).val / 128) + (i 1).val / 8192, by rw [hN]; omega⟩, rfl⟩
  refine ⟨t, flush0_3 t, ?_⟩
  rw [mem_blk3]
  obtain ⟨e0, e1, -, -, -, e5, e6⟩ := where_blocks t
  intro a
  match a with
  | ⟨0, _⟩ =>
    show win0_3.index t (0 : Fin 2) * 128 ≤ (i 0).val
      ∧ (i 0).val < win0_3.index t (0 : Fin 2) * 128 + win0_3.xsize (grid0.coords t) (0 : Fin 2)
    rw [e0, e5, hv]; omega
  | ⟨1, _⟩ =>
    show win0_3.index t (1 : Fin 2) * 8192 ≤ (i 1).val
      ∧ (i 1).val < win0_3.index t (1 : Fin 2) * 8192 + win0_3.xsize (grid0.coords t) (1 : Fin 2)
    rw [e1, e6, hv]
    split <;> omega

/-- The targets' block at point t, row p of the block: the target of array row 128 b + p. -/
theorem tblk_apply
    (hv0 : (V m c main_v0 : S256x1.Idx → BitVec 32) = fun idx => m ((c.tc : Thread nD τ).loc main_arg3) (ix1 (idx 0)))
    (t : Fin cfg0.N) (p : Fin 128) (r : Fin 256) (hr : r.val = t.val / 13 * 128 + p.val) :
    tblk m c t (ix2 p (0 : Fin 1)) = m ((c.tc : Thread nD τ).loc main_arg3) (ix1 r) := by
  show V m c main_v0 (((cfg0.win 2).blk t).view.emb (ix2 p (0 : Fin 1))) = _
  rw [hv0]
  show m ((c.tc : Thread nD τ).loc main_arg3) (ix1 ((((cfg0.win 2).blk t).view.emb (ix2 p (0 : Fin 1))) 0)) = _
  refine congrArg (fun a : Fin 256 => m ((c.tc : Thread nD τ).loc main_arg3) (ix1 a)) (Fin.ext ?_)
  show win0_2.index t (0 : Fin 2) * 128 + 1 * p.val = r.val
  rw [(where_blocks t).2.2.2.1, hr]; omega

/-- What point t writes back is its block of the one-hot array of the targets: the block's entry (p, q) sits at
    array row 128 b + p and column 8192 c + q, the block's row p holds the target of that array row, and the word
    the body compares with it is the word of that column. -/
theorem flushed3_eq
    (hv0 : (V m c main_v0 : S256x1.Idx → BitVec 32) = fun idx => m ((c.tc : Thread nD τ).loc main_arg3) (ix1 (idx 0)))
    (t : Fin cfg0.N) :
    (dats m 0 c).flushed 3 t
      = ((cfg0.win 3).blk t).view.read (Elt Ideal) (Cert.Spec.oneHot (m ((c.tc : Thread nD τ).loc main_arg3))) := by
  show (cfg0.win 3).cut (grid0.coords t) ((dats m 0 c).after 3 t) = _
  rw [after3]
  funext j
  show oneHotBlk m c t (win0_3.xinj (grid0.coords t) j)
    = Cert.Spec.oneHot (m ((c.tc : Thread nD τ).loc main_arg3)) (((cfg0.win 3).blk t).view.emb j)
  unfold oneHotBlk
  refine (pay10_at (grid0.coords t) (tblk m c t) (win0_3.xinj (grid0.coords t) j)).trans ?_
  obtain ⟨e0, e1, e2, -, -, -, -⟩ := where_blocks t
  rw [tblk_apply m c hv0 t ((win0_3.xinj (grid0.coords t) j) 0) ((((cfg0.win 3).blk t).view.emb j) 0) (by
      show win0_3.index t (0 : Fin 2) * 128 + 1 * (j 0).val = t.val / 13 * 128 + (j 0).val
      rw [e0]; omega),
    word_col]
  show (if BitVec.ofNat 32 ((grid0.coords t (1 : Fin 2)).val * 8192 + 1 * (j 1).val)
          = m ((c.tc : Thread nD τ).loc main_arg3) (ix1 ((((cfg0.win 3).blk t).view.emb j) 0)) then (1 : EReal) else 0)
    = (if BitVec.ofNat 32 (win0_3.index t (1 : Fin 2) * 8192 + 1 * (j 1).val)
          = m ((c.tc : Thread nD τ).loc main_arg3) (ix1 ((((cfg0.win 3).blk t).view.emb j) 0)) then (1 : EReal) else 0)
  rw [e2, e1]

end OneHot

/-- The one-hot result's array after the last write-back is the specification's one-hot array of the targets, given
    that the region finds the targets as a column. -/
theorem arr3
    (hv0 : (V m c main_v0 : S256x1.Idx → BitVec 32) = fun idx => m ((c.tc : Thread nD τ).loc main_arg3) (ix1 (idx 0))) :
    ((dats m 0 c).arrAt 3 cfg0.N : S256x100000.Idx → EReal) = Cert.Spec.oneHot (m ((c.tc : Thread nD τ).loc main_arg3)) :=
  (dats m 0 c).arrAt_eq_of_cover 3 (Cert.Spec.oneHot (m ((c.tc : Thread nD τ).loc main_arg3)))
    (fun t _ => OneHot.flushed3_eq m c hv0 t) OneHot.covered3

end Cert.KernelIdeal.KValue

end
-- ==== Proof.KV4Idx.lean ====
/-
  Rows and columns of the arrays from a grid point and a coordinate inside the point's block: point t is row tile
  t / 13 and column tile t % 13, so row p of its blocks is row 128 (t / 13) + p of the arrays, and column q of its
  logits block is class 8192 (t % 13) + q.
-/
import proofs.«409744_j20718922236693_3_alg».proof.Proof.KState
import proofs.«409744_j20718922236693_3_alg».proof.Proof.Spec

noncomputable section

namespace Cert.KernelIdeal.KValue

open Cert.KernelIdeal Cert.KernelIdeal.Gen

/-- The array row of row p of point t's blocks. -/
def rowOf (t : Fin cfg0.N) (p : Fin 128) : Fin 256 := ⟨(128 * (t.val / 13) + p.val) % 256, Nat.mod_lt _ (by norm_num)⟩

theorem rowOf_val (t : Fin cfg0.N) (p : Fin 128) : (rowOf t p).val = 128 * (t.val / 13) + p.val := by
  have hN : cfg0.N = 26 := N_0
  have ht := t.isLt
  have hp := p.isLt
  show (128 * (t.val / 13) + p.val) % 256 = _
  apply Nat.mod_eq_of_lt
  omega

/-- The class of column q of point t's logits block (the number itself when it is a class). -/
def classOf (t : Fin cfg0.N) (q : Fin 8192) : Fin Cert.Spec.NC := Cert.Spec.colOf (8192 * (t.val % 13) + q.val)

theorem classOf_val (t : Fin cfg0.N) (q : Fin 8192) (h : 8192 * (t.val % 13) + q.val < 100000) :
    (classOf t q).val = 8192 * (t.val % 13) + q.val := Cert.Spec.colOf_val_of_lt h

end Cert.KernelIdeal.KValue

end
-- ==== Proof.SoftmaxMath.lean ====
/-
  The algebra of log-sum-exp that joins the two programs.

  Shifting every logit by any real M and adding M back leaves the log-sum-exp unchanged; a partial sum of
  exponentials taken at one shift is turned into the same sum at another by the factor exp of the shifts'
  difference; a sum over all classes splits into sums over column tiles of 8192, the thirteenth tile holding the
  last 1696 classes.
-/
import proofs.«409744_j20718922236693_3_alg».proof.Proof.Spec
import Mathlib.Algebra.BigOperators.Fin
import Mathlib.Algebra.BigOperators.Intervals

noncomputable section

namespace Cert.Spec

open Idealize.ShloMosaic

/-- A sum of exponentials of shifted logits is positive. -/
theorem sum_exp_pos (x : Fin NC → ℝ) (M : ℝ) : 0 < ∑ j, Real.exp (x j - M) := by
  -- every term is positive and there is at least one class
  apply Finset.sum_pos
  · intro j _
    exact Real.exp_pos _
  · exact ⟨⟨0, by norm_num⟩, Finset.mem_univ _⟩

/-- Shifting by any real M leaves the log-sum-exp unchanged. -/
theorem lse_shift (x : Fin NC → ℝ) (M : ℝ) : M + Real.log (∑ j, Real.exp (x j - M)) = lse x := by
  -- exp (x - M) = exp x * exp (-M), so the shifted sum is the plain sum times exp (-M)
  have h1 : ∑ j, Real.exp (x j - M) = (∑ j, Real.exp (x j)) * Real.exp (-M) := by
    rw [Finset.sum_mul]
    refine Finset.sum_congr rfl fun j _ => ?_
    rw [sub_eq_add_neg, Real.exp_add]
  have hpos : 0 < ∑ j, Real.exp (x j) := by
    have h := sum_exp_pos x 0
    simpa using h
  rw [h1, Real.log_mul hpos.ne' (Real.exp_pos _).ne', Real.log_exp]
  unfold lse
  ring

/-- A sum of exponentials at shift a, rescaled to shift b. -/
theorem rescale_sum {ι : Type} (S : Finset ι) (x : ι → ℝ) (a b : ℝ) :
    Real.exp (a - b) * ∑ j ∈ S, Real.exp (x j - a) = ∑ j ∈ S, Real.exp (x j - b) := by
  -- term by term: exp (a - b) * exp (x - a) = exp (x - b)
  rw [Finset.mul_sum]
  refine Finset.sum_congr rfl fun j _ => ?_
  rw [← Real.exp_add]
  congr 1
  ring

/-- A finite sum of coerced reals is the coerced sum. -/
theorem coe_sum {ι : Type} (S : Finset ι) (f : ι → ℝ) : (∑ j ∈ S, ((f j : ℝ) : EReal)) = ((∑ j ∈ S, f j : ℝ) : EReal) := by
  classical
  -- by induction on the index set; the coercion is additive
  refine Finset.induction_on S ?_ ?_
  · simp
  · intro a s ha ih
    rw [Finset.sum_insert ha, Finset.sum_insert ha, ih, EReal.coe_add]

/-- The classes below a bound. -/
def below (n : ℕ) : Finset (Fin NC) := Finset.univ.filter fun j => j.val < n

theorem below_zero : below 0 = ∅ := by
  ext j
  simp [below]

theorem below_all : below NC = Finset.univ := by
  ext j
  simp [below, j.isLt]

/-- A function on the classes, continued by zero to all natural numbers. -/
def ext0 (f : Fin NC → ℝ) (m : ℕ) : ℝ := if h : m < NC then f ⟨m, h⟩ else 0

theorem ext0_of_lt (f : Fin NC → ℝ) {m : ℕ} (h : m < NC) : ext0 f m = f ⟨m, h⟩ := dif_pos h

theorem ext0_of_ge (f : Fin NC → ℝ) {m : ℕ} (h : NC ≤ m) : ext0 f m = 0 := dif_neg (not_lt.mpr h)

/-- A sum over the classes below a bound is a sum over an initial range of natural numbers. -/
theorem sum_below_range (f : Fin NC → ℝ) (n : ℕ) (hn : n ≤ NC) :
    ∑ j ∈ below n, f j = ∑ m ∈ Finset.range n, ext0 f m := by
  have h1 : ∑ j ∈ below n, f j = ∑ j : Fin NC, (fun m => if m < n then ext0 f m else 0) j.val := by
    rw [below, Finset.sum_filter]
    refine Finset.sum_congr rfl fun j _ => ?_
    show _ = if j.val < n then ext0 f j.val else 0
    rw [ext0_of_lt f j.isLt]
  rw [h1, Fin.sum_univ_eq_sum_range (fun m => if m < n then ext0 f m else 0) NC, ← Finset.sum_filter]
  refine Finset.sum_congr ?_ fun _ _ => rfl
  ext m
  simp only [Finset.mem_filter, Finset.mem_range]
  omega

/-- One more whole column tile. -/
theorem sum_below_succ_tile (f : Fin NC → ℝ) (k : ℕ) (hk : 8192 * (k + 1) ≤ NC) :
    ∑ j ∈ below (8192 * (k + 1)), f j
      = ∑ j ∈ below (8192 * k), f j + ∑ q : Fin 8192, f ⟨8192 * k + q.val, by omega⟩ := by
  -- as sums over ranges of natural numbers: range (8192 k + 8192) is range (8192 k) followed by 8192 more
  rw [sum_below_range f _ hk, sum_below_range f (8192 * k) (by omega),
    show 8192 * (k + 1) = 8192 * k + 8192 by ring, Finset.sum_range_add,
    ← Fin.sum_univ_eq_sum_range (fun m => ext0 f (8192 * k + m)) 8192]
  congr 1
  refine Finset.sum_congr rfl fun q _ => ?_
  exact ext0_of_lt f _

/-- The last, partial column tile: its columns past the last class contribute nothing. -/
theorem sum_all_last_tile (f : Fin NC → ℝ) :
    ∑ j, f j = ∑ j ∈ below (8192 * 12), f j
      + ∑ q : Fin 8192, (if h : 8192 * 12 + q.val < NC then f ⟨8192 * 12 + q.val, h⟩ else 0) := by
  -- both sides are the sum of the zero-continued function over range (8192 * 13); past the last class it adds zeros
  have hL : ∑ j, f j = ∑ m ∈ Finset.range NC, ext0 f m := by
    rw [← below_all, sum_below_range f NC le_rfl]
  have hR : ∑ q : Fin 8192, (if h : 8192 * 12 + q.val < NC then f ⟨8192 * 12 + q.val, h⟩ else 0)
      = ∑ m ∈ Finset.range 8192, ext0 f (8192 * 12 + m) := by
    rw [← Fin.sum_univ_eq_sum_range (fun m => ext0 f (8192 * 12 + m)) 8192]
    rfl
  have hT : ∑ m ∈ Finset.range (NC + 6496), ext0 f m = ∑ m ∈ Finset.range NC, ext0 f m := by
    rw [Finset.sum_range_add, Finset.sum_eq_zero (s := Finset.range 6496) (fun m _ => ext0_of_ge f (by omega)),
      add_zero]
  rw [hL, hR, sum_below_range f (8192 * 12) (by norm_num), ← Finset.sum_range_add, ← hT]

/-- The reference's row in the extended reals: minus the log-softmax at the target, with the row shifted by any real M. -/
theorem ref_row (x : Fin NC → ℝ) (M : ℝ) (t : Fin NC) :
    -((((x t : ℝ) : EReal) - (M : EReal)) - Ideal.log (((∑ j, Real.exp (x j - M) : ℝ) : EReal)))
      = ((lse x - x t : ℝ) : EReal) := by
  -- the sum is positive, so its logarithm is the real one; the rest is real arithmetic
  rw [Ideal.log_coe, if_neg (not_le.mpr (sum_exp_pos x M)), ← EReal.coe_sub, ← EReal.coe_sub, ← EReal.coe_neg,
    ← lse_shift x M]
  congr 1
  ring

/-- The kernel's row in the extended reals: shift + log of the sum at that shift, minus the logit at the target. -/
theorem ker_row (x : Fin NC → ℝ) (M : ℝ) (t : Fin NC) :
    ((M : EReal) + Ideal.log (((∑ j, Real.exp (x j - M) : ℝ) : EReal))) - ((x t : ℝ) : EReal)
      = ((lse x - x t : ℝ) : EReal) := by
  rw [Ideal.log_coe, if_neg (not_le.mpr (sum_exp_pos x M)), ← EReal.coe_add, ← EReal.coe_sub, lse_shift x M]

end Cert.Spec

end
-- ==== Proof.KV4Blk.lean ====
/-
  The three input blocks of a grid point, read at a coordinate: row p of point t's blocks is row 128 (t / 13) + p of
  the arrays; the targets' and the gathered margin logits' columns are read at that row; column q of the logits' block
  is class 8192 (t % 13) + q of the array wherever that is a class.
-/
import proofs.«409744_j20718922236693_3_alg».proof.Proof.KDats
import proofs.«409744_j20718922236693_3_alg».proof.Proof.Spec
import proofs.«409744_j20718922236693_3_alg».proof.Proof.KV4Idx
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.KernelIdeal.KS
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- The block indices of the three input windows at every grid point: row tile t / 13 for all three, column tile
    t % 13 for the logits and 0 for the two columns. -/
theorem inBlkIdx : ∀ t : Fin cfg0.N,
    win0_0.index t (0 : Fin 2) = t.val / 13 ∧ win0_0.index t (1 : Fin 2) = t.val % 13
    ∧ win0_1.index t (0 : Fin 2) = t.val / 13 ∧ win0_1.index t (1 : Fin 2) = 0
    ∧ win0_2.index t (0 : Fin 2) = t.val / 13 ∧ win0_2.index t (1 : Fin 2) = 0 :=
  (by decide +kernel : ∀ t : Fin grid0.N, _)

/-- The part of the logits' block that lies inside the array: all 128 rows, and the columns up to the array's end
    (8192 of them, but 1696 at the last column tile). -/
theorem inBlkSize : ∀ t : Fin cfg0.N,
    win0_0.xsize (grid0.coords t) (0 : Fin 2) = 128
    ∧ win0_0.xsize (grid0.coords t) (1 : Fin 2) = min 8192 (100000 - 8192 * (t.val % 13)) :=
  (by decide +kernel : ∀ t : Fin grid0.N, _)

/-- The targets' block at (p, 0) is the target of the block's row. -/
theorem tblk_apply
    (hv0 : (V m c main_v0 : S256x1.Idx → BitVec 32) = fun idx => m ((c.tc : Thread nD τ).loc main_arg3) (ix1 (idx 0)))
    (t : Fin cfg0.N) (p : Fin 128) (u : Fin 1) :
    (tblk m c t : S128x1.Idx → BitVec 32) (ix2 p u) = m ((c.tc : Thread nD τ).loc main_arg3) (ix1 (rowOf t p)) := by
  obtain ⟨-, -, -, -, e0, -⟩ := inBlkIdx t
  -- the block's row p sits in the array at row (block index) * 128 + p
  have hrow : (((cfg0.win 2).blk t).view.emb (ix2 p u)) 0 = rowOf t p := by
    apply Fin.ext
    rw [rowOf_val]
    show win0_2.index t (0 : Fin 2) * 128 + 1 * p.val = _
    rw [e0]; omega
  unfold tblk iblk
  rw [View.read_apply]
  show (V m c main_v0 : S256x1.Idx → BitVec 32) (((cfg0.win 2).blk t).view.emb (ix2 p u)) = _
  rw [hv0]
  show m ((c.tc : Thread nD τ).loc main_arg3) (ix1 ((((cfg0.win 2).blk t).view.emb (ix2 p u)) 0)) = _
  rw [hrow]

/-- The gathered margin logits' block at (p, 0) is the margin logit of the block's row at its target class. -/
theorem cmblk_apply
    (hv1 : (V m c main_v1 : S256x1.Idx → EReal)
      = fun idx => m ((c.tc : Thread nD τ).loc main_arg1) (ix2 (idx 0) (Cert.Spec.colOf (m ((c.tc : Thread nD τ).loc main_arg3) (ix1 (idx 0))).toNat)))
    (t : Fin cfg0.N) (p : Fin 128) (u : Fin 1) :
    (cmblk m c t : S128x1.Idx → EReal) (ix2 p u)
      = m ((c.tc : Thread nD τ).loc main_arg1) (ix2 (rowOf t p) (Cert.Spec.colOf (m ((c.tc : Thread nD τ).loc main_arg3) (ix1 (rowOf t p))).toNat)) := by
  obtain ⟨-, -, e0, -⟩ := inBlkIdx t
  have hrow : (((cfg0.win 1).blk t).view.emb (ix2 p u)) 0 = rowOf t p := by
    apply Fin.ext
    rw [rowOf_val]
    show win0_1.index t (0 : Fin 2) * 128 + 1 * p.val = _
    rw [e0]; omega
  unfold cmblk iblk
  rw [View.read_apply]
  show (V m c main_v1 : S256x1.Idx → EReal) (((cfg0.win 1).blk t).view.emb (ix2 p u)) = _
  rw [hv1]
  show m ((c.tc : Thread nD τ).loc main_arg1) (ix2 ((((cfg0.win 1).blk t).view.emb (ix2 p u)) 0)
    (Cert.Spec.colOf (m ((c.tc : Thread nD τ).loc main_arg3) (ix1 ((((cfg0.win 1).blk t).view.emb (ix2 p u)) 0))).toNat)) = _
  rw [hrow]

/-- The logits' block at (p, q), where column 8192 (t % 13) + q is a class, is the array's logit there. -/
theorem xfull_apply (t : Fin cfg0.N) (p : Fin 128) (q : Fin 8192) (h : 8192 * (t.val % 13) + q.val < 100000) :
    (xfull m c t : S128x8192.Idx → EReal) (ix2 p q) = m ((c.tc : Thread nD τ).loc main_arg0) (ix2 (rowOf t p) (classOf t q)) := by
  obtain ⟨e0, e1, -⟩ := inBlkIdx t
  obtain ⟨s0, s1⟩ := inBlkSize t
  -- (p, q) lies in the part of the block inside the array, so the filled-out block reads the array's block there
  have hmv : win0_0.moved (grid0.coords t) (ix2 p q) = true := by
    rw [Pipeline.Window.moved_iff]
    intro a
    match a with
    | ⟨0, _⟩ => show p.val < win0_0.xsize (grid0.coords t) (0 : Fin 2); rw [s0]; exact p.isLt
    | ⟨1, _⟩ => show q.val < win0_0.xsize (grid0.coords t) (1 : Fin 2); rw [s1]; have := q.isLt; omega
  unfold xfull Pipeline.Window.fill
  rw [dif_pos hmv]
  unfold iblk
  rw [View.read_apply]
  show (V m c main_arg0 : S256x100000.Idx → EReal) _ = _
  rw [V_main_arg0]
  congr 1
  -- coordinate by coordinate: (block index) * (block size) + the coordinate inside the block
  apply Shape.idx_ext₂
  · show win0_0.index t (0 : Fin 2) * 128 + 1 * p.val = (rowOf t p).val
    rw [rowOf_val, e0]; omega
  · show win0_0.index t (1 : Fin 2) * 8192 + 1 * q.val = (classOf t q).val
    rw [classOf_val t q h, e1]; omega

end Cert.KernelIdeal.KValue

end
-- ==== Proof.KV4Vec.lean ====
/-
  Vector operations of a 128 x 8192 tile read at an index, at the exact (extended-real) values: a column
  [128, 1] broadcast along the lanes reads the row's entry; a vector [128] viewed as a column reads the row's
  entry; a lane maximum is the fold of max over the row's 8192 entries from the accumulator's value, and a
  lane sum is their sum.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV4

open Idealize.ShloMosaic Idealize.ShloMosaic.ValueIdx

abbrev T2 : Shape := ⟨2, ![128, 8192]⟩
abbrev C2 : Shape := ⟨2, ![128, 1]⟩
abbrev R1 : Shape := ⟨1, ![128]⟩

/-- A column broadcast along the lanes reads, at (p, q), the column's entry of row p. -/
theorem bcastCol_apply {α : Type} (v : C2.Idx → α) (h : C2.Broadcasts T2) (p : Fin 128) (q : Fin 8192) :
    broadcastTo T2 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A vector of 128 viewed as a column reads, at (p, u), the vector's entry p. -/
theorem colCast_apply {α : Type} (v : R1.Idx → α) (h : R1.ShapeCasts C2) (p : Fin 128) (u : Fin 1) :
    shapeCast C2 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The index of row p with lane q inserted. -/
theorem lift_eq (h : T2.Reduces [1] R1) (p : Fin 128) (q : Fin 8192) : h.lift (ix1 p) q = ix2 p q := by
  funext a
  match a with
  | ⟨0, _⟩ => exact Fin.ext rfl
  | ⟨1, _⟩ => exact Fin.ext rfl

/-- A lane maximum at row p: the fold of max over the row's entries, from the accumulator's value. -/
theorem laneMax_apply (src : FVec Ideal T2 .f32) (acc : BitVec 32) (h : T2.Reduces [1] R1) (hφ : FKind.Formats .f32)
    (hacc : acc = FKind.maximumf.neutral .f32 hφ) (p : Fin 128) :
    multiReduction .maximumf [1] R1 src acc h hφ hacc (ix1 p)
      = (Finset.univ : Finset (Fin 8192)).fold max (Ideal.ofBits .f32 acc) (fun q => src (ix2 p q)) := by
  refine (Ideal.multiReduction_maximumf_single src acc h hφ hacc (ix1 p)).trans ?_
  show (Finset.univ : Finset (Fin 8192)).fold max (Ideal.ofBits .f32 acc) (src ∘ h.lift (ix1 p)) = _
  congr 1
  funext q
  exact congrArg src (lift_eq h p q)

/-- A lane sum at row p: the sum of the row's entries. -/
theorem laneSum_apply (src : FVec Ideal T2 .f32) (acc : BitVec 32) (h : T2.Reduces [1] R1) (hφ : FKind.Formats .f32)
    (hacc : acc = FKind.add.neutral .f32 hφ) (p : Fin 128) :
    multiReduction .add [1] R1 src acc h hφ hacc (ix1 p) = ∑ q : Fin 8192, src (ix2 p q) := by
  refine (Ideal.multiReduction_add_single src acc h hφ hacc (ix1 p)).trans ?_
  show ∑ q : Fin 8192, src (h.lift (ix1 p) q) = _
  exact Finset.sum_congr rfl fun q _ => congrArg src (lift_eq h p q)

end Cert.KernelIdeal.KV4

end
-- ==== Proof.KV4Pay.lean ====
/-
  The blended logit of one grid point read at an index: at row p and lane q of column tile k it is the margin logit
  where the global column 8192 k + q is the row's target, and the plain logit elsewhere. With it the word facts
  used to read the body's selects: a select on an equality or on a signed comparison of words is an if.
-/
import proofs.«409744_j20718922236693_3_alg».proof.Proof.KState
import proofs.«409744_j20718922236693_3_alg».proof.Proof.KV4Vec

noncomputable section

namespace Cert.KernelIdeal.KV4

open Cert.KernelIdeal Cert.KernelIdeal.Gen Cert.KernelIdeal.KS
open Idealize.ShloMosaic Idealize.ShloMosaic.ValueIdx

/-- Word arithmetic of the global column number. -/
theorem colWord (k q : ℕ) : BitVec.ofNat 32 q + BitVec.ofNat 32 k * 8192#32 = BitVec.ofNat 32 (8192 * k + q) := by
  rw [show (8192#32 : BitVec 32) = BitVec.ofNat 32 8192 from rfl, ← BitVec.ofNat_mul, ← BitVec.ofNat_add]
  congr 1
  ring

/-- A select on an equality of words is the if on the equality. -/
theorem select_eq {α : Type} (a b : BitVec 32) (u v : α) :
    Scalar.select (IntOp.cmpi .eq a b) u v = if a = b then u else v := by
  show (if BitVec.ofBool (a == b) = 1#1 then u else v) = _
  by_cases h : a = b
  · rw [if_pos h]; subst h; simp
  · have hb : (a == b) = false := beq_eq_false_iff_ne.2 h
    rw [if_neg h, hb]; rfl

/-- A select on a signed comparison of words is the if on the comparison. -/
theorem select_slt {α : Type} (a b : BitVec 32) (u v : α) :
    Scalar.select (IntOp.cmpi .slt a b) u v = if a.slt b = true then u else v := by
  show (if BitVec.ofBool (a.slt b) = 1#1 then u else v) = _
  by_cases h : a.slt b = true
  · rw [if_pos h, h]; rfl
  · have hb : a.slt b = false := by simpa using h
    rw [if_neg h, hb]; rfl

/-- For a number below 2^31 the signed comparison of its word with 100000 is the comparison of the numbers. -/
theorem slt_iff (n : ℕ) (hn : n < 2 ^ 31) : (BitVec.ofNat 32 n).slt 100000#32 = true ↔ n < 100000 := by
  simp only [BitVec.slt, decide_eq_true_eq, BitVec.toInt_eq_toNat_cond, BitVec.toNat_ofNat]
  have h1 : n % 2 ^ 32 = n := Nat.mod_eq_of_lt (by omega)
  rw [h1]
  norm_num
  omega

variable (i : grid0.Coords) (x : Vec Ideal S128x8192 .f32) (tg : Vec Ideal S128x1 .i32) (cm mo mo' lo : Vec Ideal S128x1 .f32)

/-- The global column number at lane q of column tile (i 1), as a word. -/
theorem col_apply (p : Fin 128) (q : Fin 8192) : k0_pay4 i (ix2 p q) = BitVec.ofNat 32 (8192 * (i 1).val + q.val) := by
  unfold k0_pay4
  show IntOp.addi (iota .tc S128x8192 32 [1] iota_S128x8192_d1_w32 (ix2 p q)) (IntOp.muli (BitVec.ofNat 32 (i 1).val) 8192#32) = _
  rw [iota_single_apply]
  exact colWord _ _

/-- The blended logit at (p, q). -/
theorem blend_apply (p : Fin 128) (q : Fin 8192) :
    k0_pay6 i x tg cm (ix2 p q)
      = if BitVec.ofNat 32 (8192 * (i 1).val + q.val) = tg (ix2 p (0 : Fin 1)) then cm (ix2 p (0 : Fin 1)) else x (ix2 p q) := by
  unfold k0_pay6 k0_pay5 k0_pay3
  show Scalar.select (IntOp.cmpi .eq (k0_pay4 i (ix2 p q)) (broadcastTo S128x8192 (shapeCast S128x1 tg shapeCasts_S128x1_S128x1) broadcasts_S128x1_S128x8192 (ix2 p q)))
      (broadcastTo S128x8192 (shapeCast S128x1 (shapeCast S128x1 cm shapeCasts_S128x1_S128x1) shapeCasts_S128x1_S128x1) broadcasts_S128x1_S128x8192 (ix2 p q)) (x (ix2 p q)) = _
  rw [shapeCast_self, shapeCast_self, shapeCast_self, bcastCol_apply, bcastCol_apply, col_apply, select_eq]

end Cert.KernelIdeal.KV4

end
-- ==== Proof.KV4Ent.lean ====
/-
  The blended logit the body forms at a grid point, read at row p and lane q where the global column is a class: it
  is the specification's blended logit of the array row at that class — the margin logit when the class is the row's
  target, the plain logit otherwise — as a real number, because every logit is finite.
-/
import proofs.«409744_j20718922236693_3_alg».proof.Proof.KDats
import proofs.«409744_j20718922236693_3_alg».proof.Proof.Spec
import proofs.«409744_j20718922236693_3_alg».proof.Proof.KV4Idx
import proofs.«409744_j20718922236693_3_alg».proof.Proof.KV4Blk
import proofs.«409744_j20718922236693_3_alg».proof.Proof.KV4Pay

noncomputable section

namespace Cert.KernelIdeal.KValue

open Cert.KernelIdeal Cert.KernelIdeal.Gen Cert.KernelIdeal.KS
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The word of a number below 100000 equals a word below 100000 exactly when the classes they name are equal. -/
theorem word_eq_iff (n : ℕ) (w : BitVec 32) (hn : n < 100000) (hw : w.toNat < 100000) :
    BitVec.ofNat 32 n = w ↔ Cert.Spec.colOf n = Cert.Spec.colOf w.toNat := by
  constructor
  · intro e
    rw [← e, BitVec.toNat_ofNat, Nat.mod_eq_of_lt (by omega)]
  · intro e
    have hv : n = w.toNat := by
      have := congrArg Fin.val e
      rwa [Cert.Spec.colOf_val_of_lt hn, Cert.Spec.colOf_val_of_lt hw] at this
    apply BitVec.eq_of_toNat_eq
    rw [BitVec.toNat_ofNat, hv]
    exact Nat.mod_eq_of_lt w.isLt

/-- The body's blend of one entry, for arrays of reals and targets that are classes: the margin logit when the
    column is the row's target, else the plain logit, is the specification's blended logit. -/
theorem blend_pure (A0 A1 : Cert.Spec.SA.Idx → EReal) (T : Cert.Spec.SV.Idx → BitVec 32)
    (h0 : ∀ i, ∃ r : ℝ, A0 i = (r : EReal)) (h1 : ∀ i, ∃ r : ℝ, A1 i = (r : EReal))
    (hT : ∀ i, (T i).toNat < 100000) (r : Fin 256) (n : ℕ) (hn : n < 100000) :
    (if BitVec.ofNat 32 n = T (ix1 r) then A1 (ix2 r (Cert.Spec.colOf (T (ix1 r)).toNat)) else A0 (ix2 r (Cert.Spec.colOf n)))
      = ((Cert.Spec.logit (Cert.Spec.re2 A0) (Cert.Spec.re2 A1) (Cert.Spec.tgt T) r (Cert.Spec.colOf n) : ℝ) : EReal) := by
  unfold Cert.Spec.logit Cert.Spec.tgt
  by_cases hc : Cert.Spec.colOf n = Cert.Spec.colOf (T (ix1 r)).toNat
  · rw [if_pos ((word_eq_iff n _ hn (hT _)).2 hc), if_pos hc, hc]
    obtain ⟨x, hx⟩ := h1 (ix2 r (Cert.Spec.colOf (T (ix1 r)).toNat))
    unfold Cert.Spec.re2
    rw [hx, EReal.toReal_coe]
  · rw [if_neg (fun e => hc ((word_eq_iff n _ hn (hT _)).1 e)), if_neg hc]
    obtain ⟨x, hx⟩ := h0 (ix2 r (Cert.Spec.colOf n))
    unfold Cert.Spec.re2
    rw [hx, EReal.toReal_coe]

/-- Point t is column tile t % 13. -/
theorem coords_col : ∀ t : Fin cfg0.N, (grid0.coords t (1 : Fin 2)).val = t.val % 13 := by
  exact (by decide +kernel : ∀ t : Fin grid0.N, (grid0.coords t (1 : Fin 2)).val = t.val % 13)

/-- The blended logit at (p, q) of point t, where column 8192 (t % 13) + q is a class. -/
theorem blend_entry
    (h0 : ∀ i, ∃ r : ℝ, m ((c.tc : Thread nD τ).loc main_arg0) i = (r : EReal))
    (h1 : ∀ i, ∃ r : ℝ, m ((c.tc : Thread nD τ).loc main_arg1) i = (r : EReal))
    (hT : ∀ i, (m ((c.tc : Thread nD τ).loc main_arg3) i).toNat < 100000)
    (hv0 : (V m c main_v0 : S256x1.Idx → BitVec 32) = fun idx => m ((c.tc : Thread nD τ).loc main_arg3) (ix1 (idx 0)))
    (hv1 : (V m c main_v1 : S256x1.Idx → EReal)
      = fun idx => m ((c.tc : Thread nD τ).loc main_arg1) (ix2 (idx 0) (Cert.Spec.colOf (m ((c.tc : Thread nD τ).loc main_arg3) (ix1 (idx 0))).toNat)))
    (t : Fin cfg0.N) (p : Fin 128) (q : Fin 8192) (h : 8192 * (t.val % 13) + q.val < 100000) :
    k0_pay6 (grid0.coords t) (xfull m c t) (tblk m c t) (cmblk m c t) (ix2 p q)
      = ((Cert.Spec.logit (Cert.Spec.re2 (m ((c.tc : Thread nD τ).loc main_arg0))) (Cert.Spec.re2 (m ((c.tc : Thread nD τ).loc main_arg1)))
          (Cert.Spec.tgt (m ((c.tc : Thread nD τ).loc main_arg3))) (rowOf t p) (classOf t q) : ℝ) : EReal) := by
  rw [KV4.blend_apply, coords_col t, tblk_apply m c hv0 t p 0, cmblk_apply m c hv1 t p 0, xfull_apply m c t p q h]
  exact blend_pure _ _ _ h0 h1 hT (rowOf t p) _ h

/-- The gathered margin logit of row p of point t is the specification's blended logit of the array row at its target. -/
theorem cm_entry
    (h1 : ∀ i, ∃ r : ℝ, m ((c.tc : Thread nD τ).loc main_arg1) i = (r : EReal))
    (hv1 : (V m c main_v1 : S256x1.Idx → EReal)
      = fun idx => m ((c.tc : Thread nD τ).loc main_arg1) (ix2 (idx 0) (Cert.Spec.colOf (m ((c.tc : Thread nD τ).loc main_arg3) (ix1 (idx 0))).toNat)))
    (t : Fin cfg0.N) (p : Fin 128) (u : Fin 1) :
    (cmblk m c t : S128x1.Idx → EReal) (ix2 p u)
      = ((Cert.Spec.logit (Cert.Spec.re2 (m ((c.tc : Thread nD τ).loc main_arg0))) (Cert.Spec.re2 (m ((c.tc : Thread nD τ).loc main_arg1)))
          (Cert.Spec.tgt (m ((c.tc : Thread nD τ).loc main_arg3))) (rowOf t p)
          (Cert.Spec.tgt (m ((c.tc : Thread nD τ).loc main_arg3)) (rowOf t p)) : ℝ) : EReal) := by
  rw [cmblk_apply m c hv1 t p u]
  unfold Cert.Spec.logit
  rw [if_pos rfl]
  obtain ⟨x, hx⟩ := h1 (ix2 (rowOf t p) (Cert.Spec.tgt (m ((c.tc : Thread nD τ).loc main_arg3)) (rowOf t p)))
  unfold Cert.Spec.re2
  rw [hx, EReal.toReal_coe]
  exact hx

end Cert.KernelIdeal.KValue

end
-- ==== Proof.KV4Pay2.lean ====
/-
  The body's running maximum and running sum of one grid point read at an index, at the exact (extended-real)
  values. The new running maximum of row p is the maximum of the old one and of the row's 8192 blended logits; the
  new running sum is the old one times exp (old maximum - new maximum) plus the sum of exp (blended logit - new
  maximum) over the lanes. The last column tile replaces the blended logit by the sentinel, and its exponential by
  zero, on the lanes whose global column is not a class. The loss is maximum + log (sum) - margin logit.
-/
import proofs.«409744_j20718922236693_3_alg».proof.Proof.KState
import proofs.«409744_j20718922236693_3_alg».proof.Proof.KV4Vec
import proofs.«409744_j20718922236693_3_alg».proof.Proof.KV4Pay

noncomputable section

namespace Cert.KernelIdeal.KV4

open Cert.KernelIdeal Cert.KernelIdeal.Gen Cert.KernelIdeal.KS
open Idealize.ShloMosaic Idealize.ShloMosaic.ValueIdx

variable (i : grid0.Coords) (x : FVec Ideal S128x8192 .f32) (tg : IVec S128x1 32) (cm mo mo' lo : FVec Ideal S128x1 .f32)

/-- The new running maximum of row p. -/
theorem newMax_apply (p : Fin 128) (u : Fin 1) :
    k0_pay7 (F := Ideal) i x tg cm mo (ix2 p u)
      = max (mo (ix2 p u)) ((Finset.univ : Finset (Fin 8192)).fold max (Ideal.ofBits .f32 0xFF800000#32)
          (fun q => k0_pay6 (F := Ideal) i x tg cm (ix2 p q))) := by
  unfold k0_pay7
  refine (maximumf_apply mo _ (ix2 p u)).trans ?_
  refine congrArg (max (mo (ix2 p u))) ?_
  refine (colCast_apply _ shapeCasts_S128_S128x1 p u).trans ?_
  exact laneMax_apply (k0_pay6 (F := Ideal) i x tg cm) 0xFF800000#32 reduces_S128x8192_S128 (.inl rfl) rfl p

/-- The running maximum an unmasked update stores. -/
theorem fastM_apply (p : Fin 128) (u : Fin 1) :
    fastM (F := Ideal) i x tg cm mo (ix2 p u) = k0_pay7 (F := Ideal) i x tg cm mo (ix2 p u) := by
  unfold fastM k0_pay9
  rw [shapeCast_self]

/-- The running sum an unmasked update stores, at row p. -/
theorem fastL_apply (p : Fin 128) :
    k0_pay8 (F := Ideal) i x tg cm mo mo' lo (ix2 p (0 : Fin 1))
      = Ideal.exp (mo' (ix2 p (0 : Fin 1)) - k0_pay7 (F := Ideal) i x tg cm mo (ix2 p (0 : Fin 1))) * lo (ix2 p (0 : Fin 1))
        + ∑ q : Fin 8192, Ideal.exp (k0_pay6 (F := Ideal) i x tg cm (ix2 p q) - k0_pay7 (F := Ideal) i x tg cm mo (ix2 p (0 : Fin 1))) := by
  unfold k0_pay8
  rw [shapeCast_self]
  show Ideal.exp (mo' (ix2 p (0 : Fin 1)) - k0_pay7 (F := Ideal) i x tg cm mo (ix2 p (0 : Fin 1))) * lo (ix2 p (0 : Fin 1))
      + shapeCast S128x1 (multiReduction .add [1] S128 (exp (subf (k0_pay6 (F := Ideal) i x tg cm) (broadcastTo S128x8192 (k0_pay7 (F := Ideal) i x tg cm mo) broadcasts_S128x1_S128x8192))) 0x00000000#32 reduces_S128x8192_S128 (.inl rfl) rfl) shapeCasts_S128_S128x1 (ix2 p (0 : Fin 1)) = _
  refine congrArg (Ideal.exp (mo' (ix2 p (0 : Fin 1)) - k0_pay7 (F := Ideal) i x tg cm mo (ix2 p (0 : Fin 1))) * lo (ix2 p (0 : Fin 1)) + ·) ?_
  refine (colCast_apply _ shapeCasts_S128_S128x1 p (0 : Fin 1)).trans ?_
  refine (laneSum_apply _ 0x00000000#32 reduces_S128x8192_S128 (.inl rfl) rfl p).trans ?_
  refine Finset.sum_congr rfl fun q _ => ?_
  show Ideal.exp (k0_pay6 (F := Ideal) i x tg cm (ix2 p q) - broadcastTo S128x8192 (k0_pay7 (F := Ideal) i x tg cm mo) broadcasts_S128x1_S128x8192 (ix2 p q)) = _
  rw [bcastCol_apply]

/-! The masked update of the last column tile. -/

/-- The masked blended logit at (p, q): the sentinel where the global column is not a class. -/
theorem tblend_apply (p : Fin 128) (q : Fin 8192) :
    k0_pay13 (F := Ideal) x (k0_pay3 cm) (k0_pay4 i) (k0_pay5 (F := Ideal) i tg) (ix2 p q)
      = if (BitVec.ofNat 32 (8192 * (i 1).val + q.val)).slt 100000#32 = true then k0_pay6 (F := Ideal) i x tg cm (ix2 p q)
        else Ideal.ofBits .f32 0xF149F2CA#32 := by
  unfold k0_pay13 k0_pay12
  show Scalar.select (IntOp.cmpi .slt (k0_pay4 i (ix2 p q)) 100000#32)
      (Scalar.select (k0_pay5 (F := Ideal) i tg (ix2 p q)) (broadcastTo S128x8192 (shapeCast S128x1 (k0_pay3 cm) shapeCasts_S128x1_S128x1) broadcasts_S128x1_S128x8192 (ix2 p q)) (x (ix2 p q)))
      (Ideal.ofBits .f32 0xF149F2CA#32) = _
  rw [col_apply, select_slt]
  rfl

/-- The new running maximum of row p at the last column tile. -/
theorem tnewMax_apply (p : Fin 128) (u : Fin 1) :
    k0_pay14 (F := Ideal) x (k0_pay3 cm) (k0_pay4 i) (k0_pay5 (F := Ideal) i tg) mo (ix2 p u)
      = max (mo (ix2 p u)) ((Finset.univ : Finset (Fin 8192)).fold max (Ideal.ofBits .f32 0xFF800000#32)
          (fun q => k0_pay13 (F := Ideal) x (k0_pay3 cm) (k0_pay4 i) (k0_pay5 (F := Ideal) i tg) (ix2 p q))) := by
  unfold k0_pay14
  refine (maximumf_apply mo _ (ix2 p u)).trans ?_
  refine congrArg (max (mo (ix2 p u))) ?_
  refine (colCast_apply _ shapeCasts_S128_S128x1 p u).trans ?_
  exact laneMax_apply (k0_pay13 (F := Ideal) x (k0_pay3 cm) (k0_pay4 i) (k0_pay5 (F := Ideal) i tg)) 0xFF800000#32 reduces_S128x8192_S128 (.inl rfl) rfl p

/-- The running maximum the masked update stores. -/
theorem tailM_apply (p : Fin 128) (u : Fin 1) :
    tailM (F := Ideal) i x tg cm mo (ix2 p u) = k0_pay14 (F := Ideal) x (k0_pay3 cm) (k0_pay4 i) (k0_pay5 (F := Ideal) i tg) mo (ix2 p u) := by
  unfold tailM k0_pay16
  rw [shapeCast_self]

/-- The running sum the masked update stores, at row p. -/
theorem tailL_apply (p : Fin 128) :
    k0_pay15 (F := Ideal) x (k0_pay3 cm) (k0_pay4 i) (k0_pay5 (F := Ideal) i tg) mo mo' lo (ix2 p (0 : Fin 1))
      = Ideal.exp (mo' (ix2 p (0 : Fin 1)) - k0_pay14 (F := Ideal) x (k0_pay3 cm) (k0_pay4 i) (k0_pay5 (F := Ideal) i tg) mo (ix2 p (0 : Fin 1))) * lo (ix2 p (0 : Fin 1))
        + ∑ q : Fin 8192,
            (if (BitVec.ofNat 32 (8192 * (i 1).val + q.val)).slt 100000#32 = true then
              Ideal.exp (k0_pay13 (F := Ideal) x (k0_pay3 cm) (k0_pay4 i) (k0_pay5 (F := Ideal) i tg) (ix2 p q)
                - k0_pay14 (F := Ideal) x (k0_pay3 cm) (k0_pay4 i) (k0_pay5 (F := Ideal) i tg) mo (ix2 p (0 : Fin 1)))
            else Ideal.ofBits .f32 0x00000000#32) := by
  unfold k0_pay15
  rw [shapeCast_self]
  show Ideal.exp (mo' (ix2 p (0 : Fin 1)) - k0_pay14 (F := Ideal) x (k0_pay3 cm) (k0_pay4 i) (k0_pay5 (F := Ideal) i tg) mo (ix2 p (0 : Fin 1))) * lo (ix2 p (0 : Fin 1))
      + shapeCast S128x1 (multiReduction .add [1] S128
          (select (k0_pay12 (k0_pay4 i))
            (exp (subf (k0_pay13 (F := Ideal) x (k0_pay3 cm) (k0_pay4 i) (k0_pay5 (F := Ideal) i tg)) (broadcastTo S128x8192 (k0_pay14 (F := Ideal) x (k0_pay3 cm) (k0_pay4 i) (k0_pay5 (F := Ideal) i tg) mo) broadcasts_S128x1_S128x8192)))
            (broadcast S128x8192 (Scalar.ofBits (F := Ideal) .f32 0x00000000#32)))
          0x00000000#32 reduces_S128x8192_S128 (.inl rfl) rfl) shapeCasts_S128_S128x1 (ix2 p (0 : Fin 1)) = _
  refine congrArg (Ideal.exp (mo' (ix2 p (0 : Fin 1)) - k0_pay14 (F := Ideal) x (k0_pay3 cm) (k0_pay4 i) (k0_pay5 (F := Ideal) i tg) mo (ix2 p (0 : Fin 1))) * lo (ix2 p (0 : Fin 1)) + ·) ?_
  refine (colCast_apply _ shapeCasts_S128_S128x1 p (0 : Fin 1)).trans ?_
  refine (laneSum_apply _ 0x00000000#32 reduces_S128x8192_S128 (.inl rfl) rfl p).trans ?_
  refine Finset.sum_congr rfl fun q _ => ?_
  unfold k0_pay12
  show Scalar.select (IntOp.cmpi .slt (k0_pay4 i (ix2 p q)) 100000#32)
      (Ideal.exp (k0_pay13 (F := Ideal) x (k0_pay3 cm) (k0_pay4 i) (k0_pay5 (F := Ideal) i tg) (ix2 p q) - broadcastTo S128x8192 (k0_pay14 (F := Ideal) x (k0_pay3 cm) (k0_pay4 i) (k0_pay5 (F := Ideal) i tg) mo) broadcasts_S128x1_S128x8192 (ix2 p q)))
      (Ideal.ofBits .f32 0x00000000#32) = _
  rw [col_apply, select_slt, bcastCol_apply]

/-- The stored loss of row p: running maximum + log (running sum) - margin logit. -/
theorem loss_apply (a b : FVec Ideal S128x1 .f32) (p : Fin 128) (u : Fin 1) :
    k0_pay11 (F := Ideal) a (k0_pay18 (F := Ideal) b) cm (ix2 p u)
      = (a (ix2 p u) + Ideal.log (b (ix2 p u))) - cm (ix2 p u) := by
  unfold k0_pay11 k0_pay18
  rw [shapeCast_self]
  rfl

/-- The reset values at row p: the sentinel and zero. -/
theorem reset_apply (p : Fin 128) (u : Fin 1) :
    (k0_pay1 (F := Ideal)) (ix2 p u) = Ideal.ofBits .f32 0xF149F2CA#32
      ∧ (k0_pay2 (F := Ideal)) (ix2 p u) = Ideal.ofBits .f32 0x00000000#32 := by
  unfold k0_pay1 k0_pay2
  rw [shapeCast_self, shapeCast_self]
  exact ⟨rfl, rfl⟩

end Cert.KernelIdeal.KV4

end
-- ==== Proof.KV4Math.lean ====
/-
  The online softmax of one row, as mathematics on the extended reals.

  The running maximum stays a real number: it starts at a finite sentinel and is joined with maxima of finitely
  many reals. The running sum, rescaled by exp of the maxima's difference and increased by the tile's
  exponentials, is the sum of the exponentials of all logits seen so far at the new shift; after the last tile it
  is the sum over all classes.
-/
import proofs.«409744_j20718922236693_3_alg».proof.Proof.Spec
import proofs.«409744_j20718922236693_3_alg».proof.Proof.SoftmaxMath
import Idealize.ShloMosaic.PureOps.Ideal.Laws

noncomputable section

namespace Cert.KernelIdeal.KV4

open Idealize.ShloMosaic Cert.Spec

/-- The accumulator of a maximum reduction is minus infinity. -/
theorem negInf_eq : Ideal.ofBits .f32 0xFF800000#32 = ⊥ := by
  simp [Ideal.ofBits, Ideal.ieee]

/-- The sentinel -1e30 is a real number. -/
theorem sentinel_real : ∃ s : ℝ, Ideal.ofBits .f32 0xF149F2CA#32 = (s : EReal) := by
  unfold Ideal.ofBits Ideal.ieee
  simp only []
  rw [if_neg (by decide), if_neg (by decide)]
  exact ⟨_, rfl⟩

/-- A maximum of a real and the fold of max, from minus infinity, over a tile of reals is a real. -/
theorem max_real (M0 : ℝ) (B : Fin 8192 → EReal) (y : Fin 8192 → ℝ) (hB : ∀ q, B q = (y q : EReal)) :
    ∃ M : ℝ, max (M0 : EReal) ((Finset.univ : Finset (Fin 8192)).fold max (Ideal.ofBits .f32 0xFF800000#32) B) = (M : EReal) := by
  have hB' : B = fun q => (y q : EReal) := funext hB
  subst hB'
  rw [negInf_eq]
  obtain ⟨i, _, hi⟩ := Finset.exists_mem_eq_sup (Finset.univ : Finset (Fin 8192)) ⟨⟨0, by norm_num⟩, Finset.mem_univ _⟩
    (fun q => (y q : EReal))
  refine ⟨max M0 (y i), ?_⟩
  have h2 : (Finset.univ : Finset (Fin 8192)).fold max (⊥ : EReal) (fun q => (y q : EReal)) = (y i : EReal) := hi
  rw [h2]
  exact (EReal.coe_strictMono.monotone.map_max).symm

/-- The update of the running sum, in real numbers. -/
theorem sum_real (M0 M L0 : ℝ) (E : Fin 8192 → EReal) (e : Fin 8192 → ℝ) (hE : ∀ q, E q = (e q : EReal)) :
    Ideal.exp ((M0 : EReal) - (M : EReal)) * (L0 : EReal) + ∑ q, E q
      = ((Real.exp (M0 - M) * L0 + ∑ q, e q : ℝ) : EReal) := by
  have hE' : E = fun q => (e q : EReal) := funext hE
  subst hE'
  rw [← EReal.coe_sub, Ideal.exp_coe, ← EReal.coe_mul, coe_sum, ← EReal.coe_add]

/-- The exponential of a difference of reals. -/
theorem exp_sub_coe (a b : ℝ) : Ideal.exp ((a : EReal) - (b : EReal)) = ((Real.exp (a - b) : ℝ) : EReal) := by
  rw [← EReal.coe_sub, Ideal.exp_coe]

/-- One more whole tile: the rescaled sum over the classes below 8192 k plus the tile's exponentials is the sum
    over the classes below 8192 (k + 1), at the new shift. -/
theorem tile_step (x : Fin NC → ℝ) (k : ℕ) (hk : 8192 * (k + 1) ≤ NC) (M0 M : ℝ) :
    Real.exp (M0 - M) * (∑ j ∈ below (8192 * k), Real.exp (x j - M0))
        + ∑ q : Fin 8192, Real.exp (x ⟨8192 * k + q.val, by omega⟩ - M)
      = ∑ j ∈ below (8192 * (k + 1)), Real.exp (x j - M) := by
  rw [rescale_sum, sum_below_succ_tile (fun j => Real.exp (x j - M)) k hk]

/-- The last, partial tile: with the columns past the last class contributing nothing, the sum is over all classes. -/
theorem tile_last (x : Fin NC → ℝ) (M0 M : ℝ) :
    Real.exp (M0 - M) * (∑ j ∈ below (8192 * 12), Real.exp (x j - M0))
        + ∑ q : Fin 8192, (if h : 8192 * 12 + q.val < NC then Real.exp (x ⟨8192 * 12 + q.val, h⟩ - M) else 0)
      = ∑ j, Real.exp (x j - M) := by
  rw [rescale_sum, sum_all_last_tile (fun j => Real.exp (x j - M))]

end Cert.KernelIdeal.KV4

end
-- ==== Proof.KV4Step.lean ====
/-
  One step of the online softmax on one row, from the body's arithmetic read at an index to real numbers.

  The invariant of a row with logits x after the classes below n: the running maximum is some real M, and the
  running sum is the sum over those classes of exp (x j - M). The reset values satisfy it for n = 0 (the sentinel
  is a real, and an empty sum is zero); an unmasked update over a whole tile takes it from 8192 k to 8192 (k + 1);
  the masked update of the last tile takes it from 8192 * 12 to all classes.
-/
import proofs.«409744_j20718922236693_3_alg».proof.Proof.KV4Pay2
import proofs.«409744_j20718922236693_3_alg».proof.Proof.KV4Math

noncomputable section

namespace Cert.KernelIdeal.KV4

open Cert.KernelIdeal Cert.KernelIdeal.Gen Cert.KernelIdeal.KS
open Idealize.ShloMosaic Idealize.ShloMosaic.ValueIdx
open Cert.Spec

/-- The invariant of one row: the running maximum is a real M and the running sum is the sum, over the classes
    below n, of exp (x j - M). -/
def Inv (xr : Fin NC → ℝ) (n : ℕ) (mv lv : EReal) : Prop :=
  ∃ M : ℝ, mv = (M : EReal) ∧ lv = ((∑ j ∈ below n, Real.exp (xr j - M) : ℝ) : EReal)

/-- The reset values satisfy the invariant before any class. -/
theorem reset_inv (xr : Fin NC → ℝ) (p : Fin 128) (u : Fin 1) :
    Inv xr 0 ((k0_pay1 (F := Ideal)) (ix2 p u)) ((k0_pay2 (F := Ideal)) (ix2 p u)) := by
  obtain ⟨h1, h2⟩ := reset_apply p u
  obtain ⟨s, hs⟩ := sentinel_real
  refine ⟨s, by rw [h1, hs], ?_⟩
  rw [h2, below_zero, Finset.sum_empty, Ideal.ofBits_zero_f32, EReal.coe_zero]

variable (i : grid0.Coords) (x : FVec Ideal S128x8192 .f32) (tg : IVec S128x1 32) (cm mo lo : FVec Ideal S128x1 .f32)

/-- An unmasked update over tile k, whose blended logits at row p are the row's logits at the classes cls q
    = 8192 k + q, takes the invariant from 8192 k to 8192 (k + 1). -/
theorem fast_inv (p : Fin 128) (xr : Fin NC → ℝ) (k : ℕ) (hk : 8192 * (k + 1) ≤ NC)
    (cls : Fin 8192 → Fin NC) (hcls : ∀ q, (cls q).val = 8192 * k + q.val)
    (hB : ∀ q : Fin 8192, k0_pay6 (F := Ideal) i x tg cm (ix2 p q) = ((xr (cls q) : ℝ) : EReal))
    (hinv : Inv xr (8192 * k) (mo (ix2 p (0 : Fin 1))) (lo (ix2 p (0 : Fin 1)))) :
    Inv xr (8192 * (k + 1)) (fastM (F := Ideal) i x tg cm mo (ix2 p (0 : Fin 1)))
      (fastL (F := Ideal) i x tg cm mo lo (ix2 p (0 : Fin 1))) := by
  obtain ⟨M0, hm, hl⟩ := hinv
  -- the new running maximum is a real M
  obtain ⟨M, hM⟩ := max_real M0 (fun q => k0_pay6 (F := Ideal) i x tg cm (ix2 p q)) (fun q => xr (cls q)) hB
  have h7 : k0_pay7 (F := Ideal) i x tg cm mo (ix2 p (0 : Fin 1)) = (M : EReal) := by
    rw [newMax_apply, hm]
    exact hM
  refine ⟨M, ?_, ?_⟩
  · rw [fastM_apply]
    exact h7
  · -- the new running sum, in real numbers, is the rescaled old sum plus the tile's exponentials
    unfold fastL
    rw [fastL_apply, h7, hm, hl]
    refine (sum_real M0 M _ (fun q => Ideal.exp (k0_pay6 (F := Ideal) i x tg cm (ix2 p q) - (M : EReal)))
      (fun q => Real.exp (xr (cls q) - M)) (fun q => by rw [hB q]; exact exp_sub_coe _ _)).trans ?_
    refine congrArg (fun r : ℝ => (r : EReal)) ?_
    have hc : ∀ q : Fin 8192, Real.exp (xr (cls q) - M) = Real.exp (xr ⟨8192 * k + q.val, by omega⟩ - M) := fun q => by
      rw [show cls q = ⟨8192 * k + q.val, by omega⟩ from Fin.ext (hcls q)]
    rw [Finset.sum_congr rfl fun q _ => hc q]
    exact tile_step xr k hk M0 M

/-- The masked update of the last tile (column tile 12), whose blended logits at row p are the row's logits at the
    classes cls q = 8192 * 12 + q wherever that is a class, takes the invariant from 8192 * 12 to all classes. -/
theorem tail_inv (hi : (i 1).val = 12) (p : Fin 128) (xr : Fin NC → ℝ)
    (cls : Fin 8192 → Fin NC) (hcls : ∀ q : Fin 8192, 8192 * 12 + q.val < NC → (cls q).val = 8192 * 12 + q.val)
    (hB : ∀ q : Fin 8192, 8192 * 12 + q.val < NC → k0_pay6 (F := Ideal) i x tg cm (ix2 p q) = ((xr (cls q) : ℝ) : EReal))
    (hinv : Inv xr (8192 * 12) (mo (ix2 p (0 : Fin 1))) (lo (ix2 p (0 : Fin 1)))) :
    ∃ M : ℝ, tailM (F := Ideal) i x tg cm mo (ix2 p (0 : Fin 1)) = (M : EReal)
      ∧ tailL (F := Ideal) i x tg cm mo lo (ix2 p (0 : Fin 1)) = ((∑ j, Real.exp (xr j - M) : ℝ) : EReal) := by
  obtain ⟨M0, hm, hl⟩ := hinv
  obtain ⟨s, hs⟩ := sentinel_real
  -- the mask of lane q is set exactly when column 8192 * 12 + q is a class
  have hslt : ∀ q : Fin 8192, (BitVec.ofNat 32 (8192 * (i 1).val + q.val)).slt 100000#32 = true ↔ 8192 * 12 + q.val < NC := by
    intro q
    rw [hi]
    exact slt_iff _ (by have := q.isLt; omega)
  -- the masked logits are reals: the row's logit at a class, the sentinel elsewhere
  have hY : ∀ q : Fin 8192, k0_pay13 (F := Ideal) x (k0_pay3 cm) (k0_pay4 i) (k0_pay5 (F := Ideal) i tg) (ix2 p q)
      = (((if h : 8192 * 12 + q.val < NC then xr (cls q) else s) : ℝ) : EReal) := by
    intro q
    rw [tblend_apply]
    by_cases h : 8192 * 12 + q.val < NC
    · rw [if_pos ((hslt q).2 h), hB q h, dif_pos h]
    · rw [if_neg (fun e => h ((hslt q).1 e)), hs, dif_neg h]
  obtain ⟨M, hM⟩ := max_real M0 (fun q => k0_pay13 (F := Ideal) x (k0_pay3 cm) (k0_pay4 i) (k0_pay5 (F := Ideal) i tg) (ix2 p q))
    (fun q => if h : 8192 * 12 + q.val < NC then xr (cls q) else s) hY
  have h14 : k0_pay14 (F := Ideal) x (k0_pay3 cm) (k0_pay4 i) (k0_pay5 (F := Ideal) i tg) mo (ix2 p (0 : Fin 1)) = (M : EReal) := by
    rw [tnewMax_apply, hm]
    exact hM
  refine ⟨M, ?_, ?_⟩
  · rw [tailM_apply]
    exact h14
  · unfold tailL
    rw [tailL_apply, h14, hm, hl]
    -- the masked exponentials are reals: exp (logit - M) at a class, zero elsewhere
    have hE : ∀ q : Fin 8192,
        (if (BitVec.ofNat 32 (8192 * (i 1).val + q.val)).slt 100000#32 = true then
            Ideal.exp (k0_pay13 (F := Ideal) x (k0_pay3 cm) (k0_pay4 i) (k0_pay5 (F := Ideal) i tg) (ix2 p q) - (M : EReal))
          else Ideal.ofBits .f32 0x00000000#32)
          = (((if h : 8192 * 12 + q.val < NC then Real.exp (xr ⟨8192 * 12 + q.val, h⟩ - M) else 0) : ℝ) : EReal) := by
      intro q
      by_cases h : 8192 * 12 + q.val < NC
      · rw [if_pos ((hslt q).2 h), hY q, dif_pos h, dif_pos h, exp_sub_coe,
          show cls q = ⟨8192 * 12 + q.val, h⟩ from Fin.ext (hcls q h)]
      · rw [if_neg (fun e => h ((hslt q).1 e)), dif_neg h, Ideal.ofBits_zero_f32, EReal.coe_zero]
    refine (sum_real M0 M _ _ _ hE).trans ?_
    exact congrArg (fun r : ℝ => (r : EReal)) (tile_last xr M0 M)

end Cert.KernelIdeal.KV4

end
-- ==== Proof.KV4Inv.lean ====
/-
  The online softmax along a row tile. For row p of row tile b (array row r = 128 b + p) with blended logits x: after
  column tile k < 12 (point t = 13 b + k) the running maximum is a real M and the running sum is the sum over the
  classes below 8192 (k + 1) of exp (x j - M), by induction on the point from the reset values; after the last column
  tile the sum is over all classes, so the stored loss M + log (sum) - x (target) is the row's log-sum-exp minus its
  logit at the target: the specification's loss.
-/
import proofs.«409744_j20718922236693_3_alg».proof.Proof.KDats
import proofs.«409744_j20718922236693_3_alg».proof.Proof.Spec
import proofs.«409744_j20718922236693_3_alg».proof.Proof.SoftmaxMath
import proofs.«409744_j20718922236693_3_alg».proof.Proof.KV4Idx
import proofs.«409744_j20718922236693_3_alg».proof.Proof.KV4Ent
import proofs.«409744_j20718922236693_3_alg».proof.Proof.KV4Step

noncomputable section

namespace Cert.KernelIdeal.KValue

open Cert.KernelIdeal Cert.KernelIdeal.Gen Cert.KernelIdeal.KS Cert.KernelIdeal.KV4
open Idealize.ShloMosaic Idealize.ShloMosaic.TcCoe Idealize.ShloMosaic.ValueIdx
open Idealize.SL Idealize.SL.Sem

variable (m : (ℓ : Loc nD τ sig) → Buf (Elt Ideal) ℓ) (c : Dev nD)

/-- What is assumed of the run's entry: finite logits, targets that are classes, and the two columns the region
    finds (the targets, and the margin logits gathered at the targets). -/
structure Hyps : Prop where
  h0 : ∀ i, ∃ r : ℝ, m ((c.tc : Thread nD τ).loc main_arg0) i = (r : EReal)
  h1 : ∀ i, ∃ r : ℝ, m ((c.tc : Thread nD τ).loc main_arg1) i = (r : EReal)
  hT : ∀ i, (m ((c.tc : Thread nD τ).loc main_arg3) i).toNat < 100000
  hv0 : (V m c main_v0 : S256x1.Idx → BitVec 32) = fun idx => m ((c.tc : Thread nD τ).loc main_arg3) (ix1 (idx 0))
  hv1 : (V m c main_v1 : S256x1.Idx → EReal)
      = fun idx => m ((c.tc : Thread nD τ).loc main_arg1) (ix2 (idx 0) (Cert.Spec.colOf (m ((c.tc : Thread nD τ).loc main_arg3) (ix1 (idx 0))).toNat))

/-- The blended logits of array row r, as real numbers. -/
abbrev xrow (r : Fin 256) : Fin Cert.Spec.NC → ℝ :=
  Cert.Spec.logit (Cert.Spec.re2 (m ((c.tc : Thread nD τ).loc main_arg0))) (Cert.Spec.re2 (m ((c.tc : Thread nD τ).loc main_arg1)))
    (Cert.Spec.tgt (m ((c.tc : Thread nD τ).loc main_arg3))) r

/-- An unmasked update at point t (column tile t % 13 < 12) takes the row's invariant one tile further. -/
theorem point_fast (H : Hyps m c) (t : Fin cfg0.N) (p : Fin 128) (hk : t.val % 13 < 12) (mo lo : FVec Ideal S128x1 .f32)
    (hinv : Inv (xrow m c (rowOf t p)) (8192 * (t.val % 13)) (mo (ix2 p (0 : Fin 1))) (lo (ix2 p (0 : Fin 1)))) :
    Inv (xrow m c (rowOf t p)) (8192 * (t.val % 13 + 1))
      (fastM (F := Ideal) (grid0.coords t) (xfull m c t) (tblk m c t) (cmblk m c t) mo (ix2 p (0 : Fin 1)))
      (fastL (F := Ideal) (grid0.coords t) (xfull m c t) (tblk m c t) (cmblk m c t) mo lo (ix2 p (0 : Fin 1))) :=
  fast_inv (grid0.coords t) (xfull m c t) (tblk m c t) (cmblk m c t) mo lo p (xrow m c (rowOf t p)) (t.val % 13)
    (by show 8192 * (t.val % 13 + 1) ≤ 100000; omega) (classOf t)
    (fun q => classOf_val t q (by have := q.isLt; omega))
    (fun q => blend_entry m c H.h0 H.h1 H.hT H.hv0 H.hv1 t p q (by have := q.isLt; omega)) hinv

/-- The masked update at a point of the last column tile takes the row's invariant to all classes. -/
theorem point_tail (H : Hyps m c) (t : Fin cfg0.N) (p : Fin 128) (hk : t.val % 13 = 12) (mo lo : FVec Ideal S128x1 .f32)
    (hinv : Inv (xrow m c (rowOf t p)) (8192 * 12) (mo (ix2 p (0 : Fin 1))) (lo (ix2 p (0 : Fin 1)))) :
    ∃ M : ℝ, tailM (F := Ideal) (grid0.coords t) (xfull m c t) (tblk m c t) (cmblk m c t) mo (ix2 p (0 : Fin 1)) = (M : EReal)
      ∧ tailL (F := Ideal) (grid0.coords t) (xfull m c t) (tblk m c t) (cmblk m c t) mo lo (ix2 p (0 : Fin 1))
          = ((∑ j, Real.exp (xrow m c (rowOf t p) j - M) : ℝ) : EReal) :=
  tail_inv (grid0.coords t) (xfull m c t) (tblk m c t) (cmblk m c t) mo lo ((coords_col t).trans hk) p (xrow m c (rowOf t p)) (classOf t)
    (fun q h => (classOf_val t q (by rw [hk]; exact h)).trans (by rw [hk]))
    (fun q h => blend_entry m c H.h0 H.h1 H.hT H.hv0 H.hv1 t p q (by rw [hk]; exact h)) hinv

/-- After a point of column tile k < 12 the two scratch columns satisfy the row's invariant for the classes below
    8192 (k + 1): by induction on the point, from the reset values at the first column tile of a row tile. -/
theorem scAt_inv (H : Hyps m c) (p : Fin 128) :
    ∀ (n : ℕ) (t : Fin cfg0.N), t.val = n → t.val % 13 < 12 →
      Inv (xrow m c (rowOf t p)) (8192 * (t.val % 13 + 1))
        ((scAt m c t.val t.isLt).1 (ix2 p (0 : Fin 1))) ((scAt m c t.val t.isLt).2 (ix2 p (0 : Fin 1))) := by
  intro n
  induction n with
  | zero =>
    intro t ht hk
    have hz : t.val % 13 = 0 := by rw [ht]
    rw [scAt_first m c t hz]
    dsimp only
    refine point_fast m c H t p hk (k0_pay1 (F := Ideal)) (k0_pay2 (F := Ideal)) ?_
    rw [hz, Nat.mul_zero]
    exact reset_inv _ p 0
  | succ n ih =>
    intro t ht hk
    by_cases hz : t.val % 13 = 0
    · rw [scAt_first m c t hz]
      dsimp only
      refine point_fast m c H t p hk (k0_pay1 (F := Ideal)) (k0_pay2 (F := Ideal)) ?_
      rw [hz, Nat.mul_zero]
      exact reset_inv _ p 0
    · have h12 : ¬t.val % 13 = 12 := by omega
      have hlt : t.val - 1 < cfg0.N := Nat.lt_of_le_of_lt (Nat.sub_le _ _) t.isLt
      have hrow : rowOf ⟨t.val - 1, hlt⟩ p = rowOf t p := by
        apply Fin.ext
        rw [rowOf_val, rowOf_val]
        show 128 * ((t.val - 1) / 13) + p.val = 128 * (t.val / 13) + p.val
        omega
      have hk' : (t.val - 1) % 13 + 1 = t.val % 13 := by omega
      have hprev : Inv (xrow m c (rowOf ⟨t.val - 1, hlt⟩ p)) (8192 * ((t.val - 1) % 13 + 1))
          ((scAt m c (t.val - 1) hlt).1 (ix2 p (0 : Fin 1))) ((scAt m c (t.val - 1) hlt).2 (ix2 p (0 : Fin 1))) :=
        ih ⟨t.val - 1, hlt⟩ (by show t.val - 1 = n; omega) (by show (t.val - 1) % 13 < 12; omega)
      rw [hrow, hk'] at hprev
      rw [scAt_mid m c t hz h12]
      dsimp only
      exact point_fast m c H t p hk _ _ hprev

/-- After a point of the last column tile the running maximum is a real M and the running sum is the sum over all
    classes of exp (x j - M). -/
theorem scAt_last_inv (H : Hyps m c) (p : Fin 128) (t : Fin cfg0.N) (h12 : t.val % 13 = 12) :
    ∃ M : ℝ, (scAt m c t.val t.isLt).1 (ix2 p (0 : Fin 1)) = (M : EReal)
      ∧ (scAt m c t.val t.isLt).2 (ix2 p (0 : Fin 1)) = ((∑ j, Real.exp (xrow m c (rowOf t p) j - M) : ℝ) : EReal) := by
  have hz : ¬t.val % 13 = 0 := by omega
  have hlt : t.val - 1 < cfg0.N := Nat.lt_of_le_of_lt (Nat.sub_le _ _) t.isLt
  have hrow : rowOf ⟨t.val - 1, hlt⟩ p = rowOf t p := by
    apply Fin.ext
    rw [rowOf_val, rowOf_val]
    show 128 * ((t.val - 1) / 13) + p.val = 128 * (t.val / 13) + p.val
    omega
  have hk' : (t.val - 1) % 13 + 1 = 12 := by omega
  have hprev : Inv (xrow m c (rowOf ⟨t.val - 1, hlt⟩ p)) (8192 * ((t.val - 1) % 13 + 1))
      ((scAt m c (t.val - 1) hlt).1 (ix2 p (0 : Fin 1))) ((scAt m c (t.val - 1) hlt).2 (ix2 p (0 : Fin 1))) :=
    scAt_inv m c H p (t.val - 1) ⟨t.val - 1, hlt⟩ rfl (by show (t.val - 1) % 13 < 12; omega)
  rw [hrow, hk'] at hprev
  rw [scAt_last m c t hz h12]
  dsimp only
  exact point_tail m c H t p h12 _ _ hprev

/-- The loss column stored at a point of the last column tile is, at row p, the specification's loss of the array row. -/
theorem lossBlk_entry (H : Hyps m c) (t : Fin cfg0.N) (h12 : t.val % 13 = 12) (p : Fin 128) (u : Fin 1) :
    (lossBlk m c t : S128x1.Idx → EReal) (ix2 p u)
      = Cert.Spec.lossVec (m ((c.tc : Thread nD τ).loc main_arg0)) (m ((c.tc : Thread nD τ).loc main_arg1))
          (m ((c.tc : Thread nD τ).loc main_arg3)) (ix1 (rowOf t p)) := by
  obtain rfl : u = 0 := Subsingleton.elim _ _
  obtain ⟨M, hM, hL⟩ := scAt_last_inv m c H p t h12
  unfold lossBlk
  refine (loss_apply (cmblk m c t) (scAt m c t.val t.isLt).1 (scAt m c t.val t.isLt).2 p 0).trans ?_
  rw [hM, hL, cm_entry m c H.h1 H.hv1 t p 0]
  refine (Cert.Spec.ker_row (xrow m c (rowOf t p)) M (Cert.Spec.tgt (m ((c.tc : Thread nD τ).loc main_arg3)) (rowOf t p))).trans ?_
  unfold Cert.Spec.lossVec Cert.Spec.lossRow
  congr 2
  exact if_pos rfl

end Cert.KernelIdeal.KValue

end
-- ==== Proof.KV4Arr.lean ====
/-
  From the loss blocks to the loss array: the loss window is written back exactly at the two points of the last column
  tile (t = 12: rows 0 to 127; t = 25: rows 128 to 255), and the two blocks cover the 256 x 1 array; so the array
  after the run is any function whose restriction to each of the two blocks is that point's loss block.
-/
import proofs.«409744_j20718922236693_3_alg».proof.Proof.KDats
import proofs.«409744_j20718922236693_3_alg».proof.Proof.Spec
import proofs.«409744_j20718922236693_3_alg».proof.Proof.KV4Idx
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.KernelIdeal.KS
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- The loss window's block index at every grid point: row tile t / 13, column tile 0. -/
theorem lossBlkIdx : ∀ t : Fin cfg0.N,
    win0_4.index t (0 : Fin 2) = t.val / 13 ∧ win0_4.index t (1 : Fin 2) = 0 :=
  (by decide +kernel : ∀ t : Fin grid0.N, _)

/-- What a point of the last column tile writes back is its block of G: the block's row p is the array's row
    128 (t / 13) + p, and the window is not cut, so what is written back is what the body left. -/
theorem lossFlushed (G : S256x1.Idx → EReal)
    (hblk : ∀ t : Fin cfg0.N, t.val % 13 = 12 → ∀ (p : Fin 128) (u : Fin 1),
      (lossBlk m c t : S128x1.Idx → EReal) (ix2 p u) = G (ix2 (rowOf t p) u))
    (t : Fin cfg0.N) (hf : (cfg0.win 4).flush t = true) :
    (dats m 0 c).flushed 4 t = ((cfg0.win 4).blk t).view.read (Elt Ideal) G := by
  have h12 : t.val % 13 = 12 := (flush0_4 t).mp hf
  obtain ⟨e0, e1⟩ := lossBlkIdx t
  show (cfg0.win 4).cut (grid0.coords t) ((dats m 0 c).after 4 t) = _
  rw [after4]
  funext (j : S128x1.Idx)
  obtain ⟨p, u, rfl⟩ : ∃ (p : Fin 128) (u : Fin 1), j = ix2 p u := ⟨j 0, j 1, eq_ix2 j⟩
  rw [View.read_apply]
  show (lossBlk m c t : S128x1.Idx → EReal) (ix2 p u) = G (((cfg0.win 4).blk t).view.emb (ix2 p u))
  rw [hblk t h12 p u]
  congr 1
  apply Shape.idx_ext₂
  · show (rowOf t p).val = win0_4.index t (0 : Fin 2) * 128 + 1 * p.val
    rw [rowOf_val, e0]; omega
  · show u.val = win0_4.index t (1 : Fin 2) * 1 + 1 * u.val
    rw [e1]; omega

/-- The loss array after the run, from the loss blocks at the last column tiles. -/
theorem arr4_of_blocks (G : S256x1.Idx → EReal)
    (hblk : ∀ t : Fin cfg0.N, t.val % 13 = 12 → ∀ (p : Fin 128) (u : Fin 1),
      (lossBlk m c t : S128x1.Idx → EReal) (ix2 p u) = G (ix2 (rowOf t p) u)) :
    ((dats m 0 c).arrAt 4 cfg0.N : S256x1.Idx → EReal) = G := by
  -- the cover: row r of the array lies in the block of the last column tile of row tile r / 128
  refine (dats m 0 c).arrAt_eq_of_cover 4 G (lossFlushed m c G hblk) (fun (i : S256x1.Idx) => ?_)
  have hN : cfg0.N = 26 := N_0
  have hr : (i 0).val < 256 := (i 0).isLt
  have hu : (i 1).val < 1 := (i 1).isLt
  have htN : 13 * ((i 0).val / 128) + 12 < cfg0.N := by rw [hN]; omega
  obtain ⟨e0, e1⟩ := lossBlkIdx ⟨13 * ((i 0).val / 128) + 12, htN⟩
  refine ⟨⟨13 * ((i 0).val / 128) + 12, htN⟩, (flush0_4 _).mpr (by show (13 * ((i 0).val / 128) + 12) % 13 = 12; omega), ?_⟩
  show i ∈ ((View.whole main_v2_1).slice (win0_4.rect ⟨13 * ((i 0).val / 128) + 12, htN⟩)).set
  rw [View.set_slice_whole, Rect.mem_set_unit]
  intro a
  match a with
  | ⟨0, _⟩ =>
    show win0_4.index ⟨13 * ((i 0).val / 128) + 12, htN⟩ (0 : Fin 2) * 128 ≤ (i 0).val
      ∧ (i 0).val < win0_4.index ⟨13 * ((i 0).val / 128) + 12, htN⟩ (0 : Fin 2) * 128 + 128
    rw [e0]
    show (13 * ((i 0).val / 128) + 12) / 13 * 128 ≤ (i 0).val ∧ (i 0).val < (13 * ((i 0).val / 128) + 12) / 13 * 128 + 128
    omega
  | ⟨1, _⟩ =>
    show win0_4.index ⟨13 * ((i 0).val / 128) + 12, htN⟩ (1 : Fin 2) * 1 ≤ (i 1).val
      ∧ (i 1).val < win0_4.index ⟨13 * ((i 0).val / 128) + 12, htN⟩ (1 : Fin 2) * 1 + 1
    rw [e1]; omega

end Cert.KernelIdeal.KValue

end
-- ==== Proof.KValue4.lean ====
/-
  The loss column after the run. Along a row tile the two scratch columns hold, after column tile k, a finite shift
  (the maximum of the sentinel and the logits seen) and the sum of the exponentials of the logits seen, at that
  shift; after the last column tile every class has been seen, so shift + log(sum) is the row's log-sum-exp, and the
  stored loss is the specification's. The two row tiles' loss columns cover the 256 x 1 array.
-/
import proofs.«409744_j20718922236693_3_alg».proof.Proof.KDats
import proofs.«409744_j20718922236693_3_alg».proof.Proof.Spec
import proofs.«409744_j20718922236693_3_alg».proof.Proof.KV4Idx
import proofs.«409744_j20718922236693_3_alg».proof.Proof.KV4Inv
import proofs.«409744_j20718922236693_3_alg».proof.Proof.KV4Arr

noncomputable section

namespace Cert.KernelIdeal.KValue

open Cert.KernelIdeal Cert.KernelIdeal.Gen Cert.KernelIdeal.KS
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- The loss result's array after the last write-back: entry (r, 0) is row r's loss by the specification, when the
    logits are finite, the targets are class indices, and the region finds the targets and the gathered margin
    logits as columns. -/
theorem arr4
    (h0 : ∀ i, ∃ r : ℝ, m ((c.tc : Thread nD τ).loc main_arg0) i = (r : EReal))
    (h1 : ∀ i, ∃ r : ℝ, m ((c.tc : Thread nD τ).loc main_arg1) i = (r : EReal))
    (hT : ∀ i, (m ((c.tc : Thread nD τ).loc main_arg3) i).toNat < 100000)
    (hv0 : (V m c main_v0 : S256x1.Idx → BitVec 32) = fun idx => m ((c.tc : Thread nD τ).loc main_arg3) (ix1 (idx 0)))
    (hv1 : (V m c main_v1 : S256x1.Idx → EReal)
      = fun idx => m ((c.tc : Thread nD τ).loc main_arg1) (ix2 (idx 0) (Cert.Spec.colOf (m ((c.tc : Thread nD τ).loc main_arg3) (ix1 (idx 0))).toNat))) :
    ((dats m 0 c).arrAt 4 cfg0.N : S256x1.Idx → EReal)
      = fun idx => Cert.Spec.lossVec (m ((c.tc : Thread nD τ).loc main_arg0)) (m ((c.tc : Thread nD τ).loc main_arg1)) (m ((c.tc : Thread nD τ).loc main_arg3)) (ix1 (idx 0)) := by
  -- the array is covered by the loss blocks of the two points of the last column tile, and each block's row p
  -- holds the specification's loss of array row 128 (t / 13) + p
  refine arr4_of_blocks m c _ fun t h12 p u => ?_
  exact lossBlk_entry m c ⟨h0, h1, hT, hv0, hv1⟩ t h12 p u

end Cert.KernelIdeal.KValue

end
-- ==== Proof.PreFacts.lean ====
/-
  What the precondition says of the argument arrays: every logit and every margin logit is a real number, and every
  target is a class index, 0 ≤ target < 100000.
-/
import proofs.«409744_j20718922236693_3_alg».proof.Defs
import proofs.«409744_j20718922236693_3_alg».proof.Proof.Gen.Pre_finite_inputs
import proofs.«409744_j20718922236693_3_alg».proof.Proof.Spec
import Idealize.ShloMosaic.Lib.ReduceAll
import Idealize.ShloMosaic.Lib.StableHlo.Predicate

noncomputable section

namespace Cert.PreFacts

open Idealize.ShloMosaic Idealize.ShloMosaic.ValueIdx

open Cert.Pre_finite_inputs (S256x100000 S256 S_)

/-- The rank-0 shape has one index. -/
instance : Subsingleton S_.Idx := ⟨fun a b => funext fun d => d.elim0⟩

/-- An extended real whose absolute value is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- A 32-bit word that is at least 0 and below 100000 as a signed integer is below 100000 as a natural number. -/
theorem toNat_lt_of_signed (w : BitVec 32) (h0 : IntOp.cmpi .sge w 0#32 = 1#1) (h1 : IntOp.cmpi .slt w 100000#32 = 1#1) :
    w.toNat < 100000 := by
  unfold IntOp.cmpi at h0 h1
  rw [StableHlo.Predicate.ofBool_eq_one_iff] at h0 h1
  simp only [BitVec.slt, BitVec.sle, decide_eq_true_eq] at h0 h1
  have hz : (0#32 : BitVec 32).toInt = 0 := by decide
  have hc : (100000#32 : BitVec 32).toInt = 100000 := by decide
  rw [hz] at h0
  rw [hc] at h1
  rw [BitVec.toInt_eq_toNat_cond] at h0 h1
  have hlt := w.isLt
  split at h0 <;> omega

/-- What the printed precondition, all ones, says of four arrays at the ideal instance. -/
theorem of_fn [Cert.Pre_finite_inputs.Facts]
    (a0 a1 : Cert.Pre_finite_inputs.S256x100000.Idx → EReal) (a2 : Cert.Pre_finite_inputs.S256.Idx → EReal)
    (a3 : Cert.Pre_finite_inputs.S256.Idx → BitVec 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, (a3 i).toNat < 100000) := by
  have e := congrFun h ix0
  dsimp only [Cert.Pre_finite_inputs.fn, Cert.Pre_finite_inputs.fn_part1] at e
  -- the result is the conjunction of five tests, each a reduction by "and" over a whole array
  obtain ⟨h1234, h5⟩ := IntOp.andi_eq_one.1 e
  obtain ⟨h123, h4⟩ := IntOp.andi_eq_one.1 h1234
  obtain ⟨h12, -⟩ := IntOp.andi_eq_one.1 h123
  obtain ⟨h1, h2⟩ := IntOp.andi_eq_one.1 h12
  refine ⟨fun i => ?_, fun i => ?_, fun i => ?_⟩
  · exact real_of_abs_lt _ (Host.reduce_andi_all _ _ _ _ _ h1 i)
  · exact real_of_abs_lt _ (Host.reduce_andi_all _ _ _ _ _ h2 i)
  · exact toNat_lt_of_signed _ (Host.reduce_andi_all _ _ _ _ _ h4 i) (Host.reduce_andi_all _ _ _ _ _ h5 i)

end Cert.PreFacts

end
-- ==== Proof.KernelRun.lean ====
/-
  The idealized kernel's run, read against the specification: under the precondition every weakly fair execution ends
  with the loss result at the mean of the specification's per-row losses, the regulariser at its function of x_norm,
  the one-hot result at the specification's one-hot array, and the four arguments unchanged.

  The run ends with every array of the region at what its write-backs leave and every other buffer at what the host
  lines after the region compute. The loss column the region leaves is the specification's per-row losses and the
  one-hot array it leaves is the specification's; the lines after the region sum the loss column and divide by 256,
  and compute the regulariser from x_norm alone.
-/
import proofs.«409744_j20718922236693_3_alg».proof.Defs
import proofs.«409744_j20718922236693_3_alg».proof.Proof.KFrame
import proofs.«409744_j20718922236693_3_alg».proof.Proof.HostEnds
import proofs.«409744_j20718922236693_3_alg».proof.Proof.KValue3
import proofs.«409744_j20718922236693_3_alg».proof.Proof.KValue4
import proofs.«409744_j20718922236693_3_alg».proof.Proof.PreFacts

noncomputable section

namespace Cert.KernelIdeal.KernelRun

open Cert.KernelIdeal Cert.KernelIdeal.Gen Cert.KernelIdeal.KS
open Idealize.ShloMosaic Idealize.ShloMosaic.TcCoe Idealize.ShloMosaic.ValueIdx
open Idealize.SL Idealize.SL.Sem

/-- The regulariser's term: the mean of x_norm / 12100 + 1 / x_norm. -/
abbrev lossG (x : S256.Idx → EReal) : S_.Idx → EReal :=
  Host.divf (F := Ideal) (Host.reduceAdd (F := Ideal) (addf (F := Ideal) (Host.divf (F := Ideal) x (broadcastInDim S256 ![] bcast_S_S256 (constant (F := Ideal) S_ .f32 0x463D1000#32))) (Host.divf (F := Ideal) (broadcastInDim S256 ![] bcast_S_S256 (constant (F := Ideal) S_ .f32 0x3F800000#32)) x)) (constant (F := Ideal) S_ .f32 0x00000000#32) reducesTo_S256_S_d0 h_S_) (constant (F := Ideal) S_ .f32 0x43800000#32)

/-- The mean of a vector of 256 per-row losses. -/
abbrev meanOf (v : S256.Idx → EReal) : S_.Idx → EReal :=
  Host.divf (F := Ideal) (Host.reduceAdd (F := Ideal) v (constant (F := Ideal) S_ .f32 0x00000000#32) reducesTo_S256_S_d0 h_S_) (constant (F := Ideal) S_ .f32 0x43800000#32)

/-- A column whose entry (r, 0) is entry r of a vector, laid out as a vector again, is that vector. -/
theorem col_cast {α : Type} (v : S256.Idx → α) :
    shapeCast S256 (fun idx : S256x1.Idx => v (ix1 (idx 0))) shapeCasts_S256x1_S256 = v := by
  funext k
  refine (shapeCast_apply _ _ k (ix2 (k 0) (0 : Fin 1)) ?_).trans ?_
  · rw [Shape.rowMajor_val_two, Shape.rowMajor_val_one]
    show (k 0).val * 1 + 0 = (k 0).val
    omega
  · exact congrArg v (eq_ix1 k).symm

/-- What the run's end says, read against the specification: the region's two results are the loss column and the
    one-hot array of the specification, the host lines after the region turn the loss column into its mean and
    compute the regulariser from x_norm, and nothing writes the four arguments. -/
theorem post_of (m : (ℓ : Loc nD τ sig) → Buf (Elt Ideal) ℓ) (hpre : Cert.Pre_KernelIdeal m)
    (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v5)
        = meanOf (Cert.Spec.lossVec (m ((c.tc : Thread nD τ).loc main_arg0)) (m ((c.tc : Thread nD τ).loc main_arg1)) (m ((c.tc : Thread nD τ).loc main_arg3)))
      ∧ r.2.mem ((c.tc : Thread nD τ).loc main_v12) = lossG (m ((c.tc : Thread nD τ).loc main_arg2))
      ∧ r.2.mem ((c.tc : Thread nD τ).loc main_v2_0) = Cert.Spec.oneHot (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  -- the precondition: real logits and margin logits, targets that are class indices
  obtain ⟨h0, h1, hT⟩ := Cert.PreFacts.of_fn _ _ _ _ (hpre c)
  -- what the region finds: the targets and the gathered margin logits as columns
  have hv0 := HostEnds.V_v0 m c
  have hv1 := HostEnds.V_v1 m c hT
  refine ⟨?_, ?_, ?_, ?_, ?_, ?_, ?_⟩
  · refine ((h c).2 main_v5 (Pipeline.mem_restRefs_of main_v5 (by decide) (by decide))).trans
      ((HostEnds.tail_v5 m c (dats m)).trans ?_)
    -- the loss column is the specification's losses as a column; as a vector again it is the losses themselves
    refine (congrArg (fun a : S256x1.Idx → EReal => meanOf (shapeCast S256 a shapeCasts_S256x1_S256))
      (KValue.arr4 m c h0 h1 hT hv0 hv1)).trans ?_
    exact congrArg (fun v : S256.Idx → EReal => meanOf v)
      (col_cast (Cert.Spec.lossVec (m ((c.tc : Thread nD τ).loc main_arg0)) (m ((c.tc : Thread nD τ).loc main_arg1)) (m ((c.tc : Thread nD τ).loc main_arg3))))
  · exact ((h c).2 main_v12 (Pipeline.mem_restRefs_of main_v12 (by decide) (by decide))).trans
      (HostEnds.tail_v12 m c (dats m))
  · exact ((h c).1 3).trans (KValue.arr3 m c hv0)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

/-- Under the precondition the idealized kernel runs to the end and leaves the loss at the mean of the specification's
    per-row losses, the regulariser at its function of x_norm, the one-hot result at the specification's one-hot
    array, and the four arguments as they were. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v5)
        = meanOf (Cert.Spec.lossVec (m ((c.tc : Thread nD τ).loc main_arg0)) (m ((c.tc : Thread nD τ).loc main_arg1)) (m ((c.tc : Thread nD τ).loc main_arg3)))
      ∧ r.2.mem ((c.tc : Thread nD τ).loc main_v12) = lossG (m ((c.tc : Thread nD τ).loc main_arg2))
      ∧ r.2.mem ((c.tc : Thread nD τ).loc main_v2_0) = Cert.Spec.oneHot (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => post_of m hpre r h c) (run_main (F := Ideal) m ρ)

end Cert.KernelIdeal.KernelRun

end
-- ==== Proof.RefRun.lean ====
/-
  The reference program's run: its three results as terms of the argument arrays.
-/
import proofs.«409744_j20718922236693_3_alg».proof.Proof.RefRunGen
import proofs.«409744_j20718922236693_3_alg».proof.Proof.RefReadGen

noncomputable section

namespace Cert.ReferenceIdeal.RefValue

end Cert.ReferenceIdeal.RefValue

end
-- ==== Proof.RefFacts.lean ====
/-
  Small facts the reading of the reference uses: a class index kept in a 32-bit word compares, clamps and converts as
  the number it is; the 0/1 value of an equality bit; the blend of two real logits by a 0/1 weight; a maximum over
  finitely many real numbers is a real number.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.Finset.Fold
import proofs.«409744_j20718922236693_3_alg».proof.Proof.Spec

noncomputable section

namespace Cert.ReferenceIdeal.RefFacts

open Idealize.ShloMosaic Idealize.ShloMosaic.ValueIdx Idealize.ShloMosaic.StableHlo.Predicate

/-! ## A class index in a 32-bit word -/

section Word

variable {t : BitVec 32} (ht : t.toNat < 100000)
include ht

/-- It is not negative … -/
theorem slt_zero : IntOp.cmpi .slt t 0#32 = 0#1 := by
  refine eq_zero_of_ne_one fun h => ?_
  have := (slt_iff_toNat (a := t) (b := 0#32) (by omega) (by decide)).1 h
  simp at this

/-- … so the wrap-around of a negative index leaves it alone. -/
theorem select_wrap : Scalar.select (IntOp.cmpi .slt t 0#32) (IntOp.addi t 100000#32) t = t := by
  rw [slt_zero ht, select_zero]

/-- It is in the range of the classes. -/
theorem sge_zero : IntOp.cmpi .sge t 0#32 = 1#1 :=
  (sge_iff_toNat (a := t) (b := 0#32) (by omega) (by decide)).2 (by simp)

theorem sle_last : IntOp.cmpi .sle t 99999#32 = 1#1 :=
  (sle_iff_toNat (a := t) (b := 99999#32) (by omega) (by decide)).2 (by
    show t.toNat ≤ (99999#32).toNat
    have : (99999#32 : BitVec 32).toNat = 99999 := by decide
    omega)

theorem in_range : IntOp.andi (IntOp.cmpi .sge t 0#32) (IntOp.cmpi .sle t 99999#32) = 1#1 := by
  rw [sge_zero ht, sle_last ht]; decide

/-- Read signed and clamped to the last class, it is itself. -/
theorem clamp_eq : min t.toInt.toNat (100000 - 1) = t.toNat := by
  rw [toInt_eq_toNat_of_lt (a := t) (by omega)]
  simp only [Int.toNat_natCast]
  omega

/-- A class's word is the index's word exactly when the class is the index's class. -/
theorem ofNat_eq_iff (q : Fin Cert.Spec.NC) : BitVec.ofNat 32 q.val = t ↔ q = Cert.Spec.colOf t.toNat := by
  constructor
  · intro h
    apply Fin.ext
    rw [Cert.Spec.colOf_val_of_lt ht, ← h, BitVec.toNat_ofNat]
    have hq : q.val < 100000 := q.isLt
    exact (Nat.mod_eq_of_lt (by omega)).symm
  · intro h
    rw [h]
    apply BitVec.eq_of_toNat_eq
    rw [BitVec.toNat_ofNat, Cert.Spec.colOf_val_of_lt ht]
    exact Nat.mod_eq_of_lt (by omega)

end Word

/-! ## Values -/

/-- The f32 pattern of minus infinity. -/
theorem ofBits_neg_inf_f32 : Ideal.ofBits .f32 0xFF800000#32 = ⊥ := by
  simp [Ideal.ofBits, Ideal.ieee]

/-- An equality bit converted to a float is 1 where the words agree and 0 elsewhere. -/
theorem uitofp_cmpi_eq (a b : BitVec 32) :
    FloatOps.uitofp (F := Ideal) .f32 (IntOp.cmpi .eq a b) = if a = b then (1 : EReal) else 0 := by
  by_cases h : a = b
  · rw [if_pos h, cmpi_eq_iff.2 h]
    show (((1#1 : BitVec 1).toNat : ℝ) : EReal) = 1
    norm_num
  · rw [if_neg h, eq_zero_of_ne_one (fun h' => h (cmpi_eq_iff.1 h'))]
    show (((0#1 : BitVec 1).toNat : ℝ) : EReal) = 0
    norm_num

/-- The blend at weight one is the first logit … -/
theorem blend_one (a b : ℝ) : (1 : EReal) * (a : EReal) + ((1 : EReal) - 1) * (b : EReal) = (a : EReal) := by
  rw [show ((1 : EReal) - 1) = 0 from by rw [← EReal.coe_one, ← EReal.coe_sub, sub_self, EReal.coe_zero], zero_mul, one_mul, add_zero]

/-- … and at weight zero the second. -/
theorem blend_zero (a b : ℝ) : (0 : EReal) * (a : EReal) + ((1 : EReal) - 0) * (b : EReal) = (b : EReal) := by
  rw [sub_zero, zero_mul, one_mul, zero_add]

/-- The maximum, from minus infinity, over a nonempty finite family of real numbers is a real number. -/
theorem fold_max_real {ι : Type} [Fintype ι] [Nonempty ι] (f : ι → EReal) (hf : ∀ k, ∃ r : ℝ, f k = (r : EReal)) :
    ∃ M : ℝ, (Finset.univ : Finset ι).fold max ⊥ f = (M : EReal) := by
  have h1 : ⊥ < (Finset.univ : Finset ι).fold max ⊥ f := by
    rw [Finset.lt_fold_max]
    obtain ⟨k⟩ := ‹Nonempty ι›
    obtain ⟨r, hr⟩ := hf k
    exact Or.inr ⟨k, Finset.mem_univ _, by rw [hr]; exact EReal.bot_lt_coe r⟩
  have h2 : (Finset.univ : Finset ι).fold max ⊥ f < ⊤ := by
    rw [Finset.fold_max_lt]
    exact ⟨bot_lt_top, fun k _ => by obtain ⟨r, hr⟩ := hf k; rw [hr]; exact EReal.coe_lt_top r⟩
  exact ⟨_, (EReal.coe_toReal h2.ne h1.ne').symm⟩

end Cert.ReferenceIdeal.RefFacts

end
-- ==== Proof.RefValue.lean ====
/-
  The reference's loss, read against the specification: its mean loss is the mean of the specification's per-row
  losses — a row's negated log-softmax at the target is the row's log-sum-exp minus the blended logit at the target,
  whatever finite maximum the row is shifted by. Row by row: the blend of the two logit arrays by the one-hot weight
  is the specification's blended logit; the row maximum is some real number M; the row's sum of exponentials is the
  real sum of exp (logit − M); a target that is a class index is left alone by the index normalisation, passes the
  range test, and makes the gather read the log-probability at (row, target).
-/
import proofs.«409744_j20718922236693_3_alg».proof.Proof.RefRun
import proofs.«409744_j20718922236693_3_alg».proof.Proof.Spec
import proofs.«409744_j20718922236693_3_alg».proof.Proof.SoftmaxMath
import proofs.«409744_j20718922236693_3_alg».proof.Proof.RefFacts

noncomputable section

namespace Cert.ReferenceIdeal.RefValue

open Cert.ReferenceIdeal Cert.ReferenceIdeal.Gen Cert.ReferenceIdeal.Read Cert.ReferenceIdeal.RefFacts
open Idealize.ShloMosaic Idealize.ShloMosaic.TcCoe Idealize.SL.Sem Idealize.ShloMosaic.ValueIdx

/-! ## Two facts about the shapes of this program -/

/-- An and-fold of ones, from one, is one. -/
theorem fold_andi_ones {ι : Type} [DecidableEq ι] (s : Finset ι) :
    s.fold IntOp.andi (1#1 : BitVec 1) (fun _ => 1#1) = 1#1 := by
  induction s using Finset.induction_on with
  | empty => rfl
  | insert a s ha ih => rw [Finset.fold_insert ha, ih]; decide

/-- The gather of one element per row: at row p it reads the operand at (p, the row's start index read signed and
    clamped to the last class). -/
theorem gather_row {α : Type} (x : S256x100000.Idx → α) (idx : IVec S256x1x1 32) (p : Fin 256) (z : Fin 1) :
    Host.gather gather_S256x100000_S256x1x1_S256x1_n_1_0_0_1_2_11 x idx (ix2 p z)
      = x (ix2 p ⟨min (idx (ix3 p z (0 : Fin 1))).toInt.toNat (100000 - 1), by omega⟩) := by
  unfold Host.gather
  refine congrArg x (funext fun a => Fin.ext ?_)
  match a with
  | ⟨0, _⟩ =>
    -- the batching axis: no start, no offset, the row's own coordinate
    show GatherDims.start gather_S256x100000_S256x1x1_S256x1_n_1_0_0_1_2_11 (ix2 p z) idx 0 + GatherDims.batchCoord gather_S256x100000_S256x1x1_S256x1_n_1_0_0_1_2_11 (ix2 p z) 0 + GatherDims.offCoord gather_S256x100000_S256x1x1_S256x1_n_1_0_0_1_2_11 (ix2 p z) 0 = p.val
    rw [GatherDims.start_batching _ _ _ _ (by decide), GatherDims.offCoord_eq_zero _ _ _ (by decide)]
    unfold GatherDims.batchCoord
    rw [dif_pos (by decide)]
    first
      | rfl
      | (simp only [Nat.zero_add, Nat.add_zero]; rfl)
  | ⟨1, _⟩ =>
    -- the collapsed, indexed axis: the clamped start, no batch coordinate, no offset
    show GatherDims.start gather_S256x100000_S256x1x1_S256x1_n_1_0_0_1_2_11 (ix2 p z) idx 1 + GatherDims.batchCoord gather_S256x100000_S256x1x1_S256x1_n_1_0_0_1_2_11 (ix2 p z) 1 + GatherDims.offCoord gather_S256x100000_S256x1x1_S256x1_n_1_0_0_1_2_11 (ix2 p z) 1
      = min (idx (ix3 p z (0 : Fin 1))).toInt.toNat (100000 - 1)
    rw [GatherDims.batchCoord_eq_zero _ _ _ (by decide), GatherDims.offCoord_eq_zero _ _ _ (by decide)]
    simp only [Nat.add_zero]
    unfold GatherDims.start
    rw [dif_pos (by decide)]
    have e : GatherDims.siIdx gather_S256x100000_S256x1x1_S256x1_n_1_0_0_1_2_11 (ix2 p z) ⟨List.idxOf (1 : Fin S256x100000.rank) (gather_S256x100000_S256x1x1_S256x1_n_1_0_0_1_2_11).startIndexMap, List.idxOf_lt_length_iff.2 (by decide)⟩ = ix3 p z (0 : Fin 1) :=
      funext fun b => Fin.ext (by match b with | ⟨0, _⟩ => rfl | ⟨1, _⟩ => rfl | ⟨2, _⟩ => rfl)
    rw [e]
    rfl

/-! ## The reference, row by row -/

section Row

variable (x0 x1 : (⟨S256x100000, .f32⟩ : BufTy).Contents (Elt Ideal)) (x3 : (⟨S256, .i32⟩ : BufTy).Contents (Elt Ideal))
variable (h0 : ∀ i, ∃ r : ℝ, x0 i = (r : EReal)) (h1 : ∀ i, ∃ r : ℝ, x1 i = (r : EReal))
  (hT : ∀ i, (x3 i).toNat < 100000)

/-- Row p's blended logits, as real numbers. -/
abbrev xrow (p : Fin 256) : Fin Cert.Spec.NC → ℝ :=
  Cert.Spec.logit (Cert.Spec.re2 x0) (Cert.Spec.re2 x1) (Cert.Spec.tgt x3) p

/-- The one-hot weight at (p, q): 1 where the row's target word is q's word, else 0. -/
theorem onehot_at (p : Fin 256) (q : Fin 100000) :
    val_main_v0 (F := Ideal) x3 (ix2 p q) = if x3 (ix1 p) = BitVec.ofNat 32 q.val then (1 : EReal) else 0 := by
  have e : idx_main_call0_v0 (idx_main_call0_v2 (ix2 p q)) = ix1 p :=
    funext fun a => Fin.ext (by match a with | ⟨0, _⟩ => rfl)
  rw [val_main_v0_apply, val_main_call0_v4_apply, val_main_call0_v2_apply, val_main_call0_v0_apply,
    val_main_call0_v3_apply, val_main_call0_v1_apply, uitofp_cmpi_eq, e]

include h0 h1 hT

/-- The blend one_hot · cosm + (1 − one_hot) · cos at (p, q) is the blended logit. -/
theorem blend_at (p : Fin 256) (q : Fin 100000) :
    val_main_v12 (F := Ideal) x0 x1 x3 (ix2 p q) = ((xrow x0 x1 x3 p q : ℝ) : EReal) := by
  obtain ⟨a, ha⟩ := h1 (ix2 p q)
  obtain ⟨b, hb⟩ := h0 (ix2 p q)
  have hx : xrow x0 x1 x3 p q = if q = Cert.Spec.tgt x3 p then a else b := by
    have e1 : Cert.Spec.re2 x1 p q = a := by
      show (x1 (ix2 p q)).toReal = a
      rw [ha, EReal.toReal_coe]
    have e0 : Cert.Spec.re2 x0 p q = b := by
      show (x0 (ix2 p q)).toReal = b
      rw [hb, EReal.toReal_coe]
    show (if q = Cert.Spec.tgt x3 p then Cert.Spec.re2 x1 p q else Cert.Spec.re2 x0 p q) = _
    rw [e1, e0]
  rw [val_main_v12_apply, val_main_v8_apply, val_main_v11_apply, val_main_v10_apply, val_main_v9_apply,
    val_main_cst_3_apply, onehot_at, ha, hb, hx]
  simp only [Ideal.addf_def, Ideal.mulf_def, Ideal.subf_def, Ideal.ofBits_def, Ideal.ofBits_one_f32]
  by_cases hc : x3 (ix1 p) = BitVec.ofNat 32 q.val
  · rw [if_pos hc, if_pos (show q = Cert.Spec.tgt x3 p from (ofNat_eq_iff (hT (ix1 p)) q).1 hc.symm), blend_one]
  · rw [if_neg hc, if_neg (show ¬q = Cert.Spec.tgt x3 p from fun h => hc ((ofNat_eq_iff (hT (ix1 p)) q).2 h).symm),
      blend_zero]

/-- Every blended entry is a real number. -/
theorem blend_real (i : S256x100000.Idx) : ∃ r : ℝ, val_main_v12 (F := Ideal) x0 x1 x3 i = (r : EReal) := by
  obtain ⟨p, q, rfl⟩ : ∃ (p : Fin 256) (q : Fin 100000), i = ix2 p q := ⟨i 0, i 1, eq_ix2 i⟩
  exact ⟨_, blend_at x0 x1 x3 h0 h1 hT p q⟩

/-- The row maximum (a max-fold from minus infinity over the row, then a maximum with minus infinity) is a real number. -/
theorem rowmax_real (p : Fin 256) : ∃ M : ℝ, val_main_call1_v2 (F := Ideal) x0 x1 x3 (ix1 p) = (M : EReal) := by
  have hred : S256x100000.Reduces [1] S256 := by decide
  obtain ⟨M, hM⟩ := fold_max_real (ι := Fin 100000)
    (fun k => val_main_v12 (F := Ideal) x0 x1 x3 (hred.lift (ix1 p) k)) (fun k => blend_real x0 x1 x3 h0 h1 hT _)
  refine ⟨M, ?_⟩
  rw [val_main_call1_v2_apply, val_main_call1_v1_apply, val_main_call1_cst_0_apply]
  unfold val_main_call1_v0
  rw [Host.reduce_eq_fold_single FloatOps.maximumf _ _ reducesTo_S256x100000_S256_d1 hred h_S_ (ix1 p),
    val_main_call1_cst_apply]
  simp only [Ideal.ofBits_def, ofBits_neg_inf_f32, Ideal.maximumf_def]
  rw [max_eq_right bot_le]
  exact hM

variable (p : Fin 256) (M : ℝ) (hM : val_main_call1_v2 (F := Ideal) x0 x1 x3 (ix1 p) = (M : EReal))
include hM

/-- The shifted logit at (p, q). -/
theorem shifted_at (q : Fin 100000) :
    val_main_call1_v5 (F := Ideal) x0 x1 x3 (ix2 p q) = ((xrow x0 x1 x3 p q - M : ℝ) : EReal) := by
  have e : idx_main_call1_v3 (idx_main_call1_v4 (ix2 p q)) = ix1 p :=
    funext fun a => Fin.ext (by match a with | ⟨0, _⟩ => rfl)
  rw [val_main_call1_v5_apply, blend_at x0 x1 x3 h0 h1 hT, val_main_call1_v4_apply, val_main_call1_v3_apply, e, hM]
  simp only [Ideal.subf_def]
  rw [← EReal.coe_sub]

/-- The row's sum of exponentials. -/
theorem rowsum_at :
    val_main_call1_v7 (F := Ideal) x0 x1 x3 (ix1 p) = ((∑ j, Real.exp (xrow x0 x1 x3 p j - M) : ℝ) : EReal) := by
  rw [val_main_call1_v7_apply, val_main_call1_cst_1_apply, ← Cert.Spec.coe_sum]
  simp only [Ideal.ofBits_def, Ideal.ofBits_zero_f32, zero_add]
  refine Finset.sum_congr rfl fun k _ => ?_
  have e : idx_main_call1_v7 (ix1 p) k = ix2 p k :=
    funext fun a => Fin.ext (by match a with | ⟨0, _⟩ => rfl | ⟨1, _⟩ => rfl)
  rw [e, val_main_call1_v6_apply, shifted_at x0 x1 x3 h0 h1 hT p M hM]
  simp only [Ideal.hostUnary_exp_def, Ideal.exp_coe]

/-- The log-probability at (p, q). -/
theorem logp_at (q : Fin 100000) :
    val_main_v13 (F := Ideal) x0 x1 x3 (ix2 p q)
      = (((xrow x0 x1 x3 p q : ℝ) : EReal) - (M : EReal))
        - Ideal.log (((∑ j, Real.exp (xrow x0 x1 x3 p j - M) : ℝ) : EReal)) := by
  have e : idx_main_call1_v8 (idx_main_call1_v10 (ix2 p q)) = ix1 p :=
    funext fun a => Fin.ext (by match a with | ⟨0, _⟩ => rfl)
  rw [val_main_v13_apply, shifted_at x0 x1 x3 h0 h1 hT p M hM, val_main_call1_v10_apply, val_main_call1_v9_apply,
    val_main_call1_v8_apply, e, rowsum_at x0 x1 x3 h0 h1 hT p M hM]
  simp only [Ideal.subf_def, Ideal.hostUnary_log_def]
  rw [EReal.coe_sub]

omit h0 h1 hM

/-- The normalised start index is the target itself: a class index is not negative. -/
theorem index_at (i : S256x1x1.Idx) :
    val_main_call2_v5 (F := Ideal) x3 i = x3 (idx_main_v14 (idx_main_call2_v5 i)) := by
  rw [val_main_call2_v5_apply, val_main_call2_v4_apply, val_main_call2_v1_apply, val_main_call2_v3_apply,
    val_main_v14_apply, val_main_call2_v0_apply, val_main_call2_c_apply, val_main_call2_v2_apply,
    val_main_call2_c_0_apply]
  exact select_wrap (hT _)

/-- The range mask is true in every row. -/
theorem mask_at (j : S256x1.Idx) : val_main_call2_v12 (F := Ideal) x3 j = 1#1 := by
  have hred : S256x1x1.Reduces [2] S256x1 := by decide
  have hall : val_main_call2_v11 (F := Ideal) x3 = fun _ => 1#1 := funext fun i => by
    rw [val_main_call2_v11_apply, val_main_call2_v7_apply, val_main_call2_v10_apply, index_at x3 hT,
      val_main_call2_v6_apply, val_main_call2_c_2_apply, val_main_call2_v9_apply, val_main_call2_v8_apply,
      val_main_call2_c_1_apply]
    exact in_range (hT _)
  unfold val_main_call2_v12
  rw [hall, Host.reduce_eq_fold_single IntOp.andi _ _ reducesTo_S256x1x1_S256x1_d2 hred h_S_ j,
    val_main_call2_c_3_apply]
  exact fold_andi_ones _

/-- So the selected gather at row p is the log-probability at (p, the row's target class). -/
theorem taken_at :
    val_main_v15 (F := Ideal) x0 x1 x3 (ix2 p (0 : Fin 1))
      = val_main_v13 (F := Ideal) x0 x1 x3 (ix2 p (Cert.Spec.tgt x3 p)) := by
  have e : idx_main_v14 (idx_main_call2_v5 (ix3 p (0 : Fin 1) (0 : Fin 1))) = ix1 p :=
    funext fun a => Fin.ext (by
      match a with
      | ⟨0, _⟩ =>
        show ((p.val * 1 + 0) * 1 + 0) / 1 = p.val
        omega)
  rw [val_main_v15_apply, mask_at x3 hT, select_one]
  unfold val_main_call2_v13
  rw [gather_row]
  refine congrArg _ (congrArg (ix2 p) (Fin.ext ?_))
  show min (val_main_call2_v5 (F := Ideal) x3 (ix3 p (0 : Fin 1) (0 : Fin 1))).toInt.toNat (100000 - 1)
    = (Cert.Spec.colOf (x3 (ix1 p)).toNat).val
  rw [index_at x3 hT, e, clamp_eq (hT (ix1 p)), Cert.Spec.colOf_val_of_lt (hT (ix1 p))]

include h0 h1

/-- The reference's negated, gathered log-probability at row p is the specification's loss of row p. -/
theorem neg_at : val_main_v17 (F := Ideal) x0 x1 x3 (ix1 p) = Cert.Spec.lossVec x0 x1 x3 (ix1 p) := by
  obtain ⟨M, hM⟩ := rowmax_real x0 x1 x3 h0 h1 hT p
  have e : idx_main_v16 (ix1 p) = ix2 p (0 : Fin 1) :=
    funext fun a => Fin.ext (by
      match a with
      | ⟨0, _⟩ =>
        show p.val / 1 = p.val
        omega
      | ⟨1, _⟩ => rfl)
  have ht : xrow x0 x1 x3 p (Cert.Spec.tgt x3 p) = Cert.Spec.re2 x1 p (Cert.Spec.tgt x3 p) := if_pos rfl
  rw [val_main_v17_apply, val_main_v16_apply, e, taken_at x0 x1 x3 hT p, logp_at x0 x1 x3 h0 h1 hT p M hM]
  simp only [Ideal.hostNegf_def, Ideal.negf_def]
  rw [Cert.Spec.ref_row, ht]
  rfl

end Row

variable (m : (ℓ : Loc nD τ sig) → Buf (Elt Ideal) ℓ) (c : Dev nD)

/-- The reference's loss result is the mean (sum over 256 rows, divided by 256) of the specification's per-row
    losses, when the logits are finite and the targets are class indices. -/
theorem loss_eq
    (h0 : ∀ i, ∃ r : ℝ, m ((c.tc : Thread nD τ).loc main_arg0) i = (r : EReal))
    (h1 : ∀ i, ∃ r : ℝ, m ((c.tc : Thread nD τ).loc main_arg1) i = (r : EReal))
    (hT : ∀ i, (m ((c.tc : Thread nD τ).loc main_arg3) i).toNat < 100000) :
    Cert.ReferenceIdeal.Value.res_out0 (F := Ideal) m c
      = Host.divf (F := Ideal) (Host.reduceAdd (F := Ideal) (Cert.Spec.lossVec (m ((c.tc : Thread nD τ).loc main_arg0)) (m ((c.tc : Thread nD τ).loc main_arg1)) (m ((c.tc : Thread nD τ).loc main_arg3)))
          (constant (F := Ideal) S_ .f32 0x00000000#32) reducesTo_S256_S_d0 h_S_) (constant (F := Ideal) S_ .f32 0x43800000#32) := by
  have hv : val_main_v17 (F := Ideal) (m ((c.tc : Thread nD τ).loc main_arg0)) (m ((c.tc : Thread nD τ).loc main_arg1))
        (m ((c.tc : Thread nD τ).loc main_arg3))
      = Cert.Spec.lossVec (m ((c.tc : Thread nD τ).loc main_arg0)) (m ((c.tc : Thread nD τ).loc main_arg1))
        (m ((c.tc : Thread nD τ).loc main_arg3)) := funext fun i => by
    obtain ⟨p, rfl⟩ : ∃ p : Fin 256, i = ix1 p := ⟨i 0, eq_ix1 i⟩
    exact neg_at _ _ _ h0 h1 hT p
  show Cert.ReferenceIdeal.Value.res_main_v19 (F := Ideal) m c = _
  rw [val_main_v19_eq]
  unfold val_main_v19 val_main_v18
  rw [hv]
  rfl

end Cert.ReferenceIdeal.RefValue

end
-- ==== Proof.RefOneHot.lean ====
/-
  The reference's one-hot result, read against the specification: the targets laid out as a column and spread along
  the rows, compared with the class numbers spread down the columns, give 1 exactly where the class is the row's
  target.
-/
import proofs.«409744_j20718922236693_3_alg».proof.Proof.Gen.ReferenceIdeal
import proofs.«409744_j20718922236693_3_alg».proof.Proof.Spec
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- A one-bit equality test of two words, widened unsigned to an extended real: 1 when they are equal, 0 when not. -/
theorem widen_eq (a b : BitVec 32) : (((IntOp.cmpi .eq a b).toNat : ℝ) : EReal) = if b = a then 1 else 0 := by
  by_cases h : a = b
  · rw [StableHlo.Predicate.cmpi_eq_iff.2 h, if_pos h.symm]
    show (((1 : ℕ) : ℝ) : EReal) = 1
    rw [Nat.cast_one, EReal.coe_one]
  · rw [eq_zero_of_ne_one (fun e => h (StableHlo.Predicate.cmpi_eq_iff.1 e)), if_neg (fun e => h e.symm)]
    show (((0 : ℕ) : ℝ) : EReal) = 0
    rw [Nat.cast_zero, EReal.coe_zero]

/-- The reference's one-hot result is the specification's one-hot array of the targets. -/
theorem onehot_eq (T : S256.Idx → BitVec 32) :
    (uitofp (F := Ideal) .f32 (cmpi .eq (broadcastInDim S256x100000 ![0, 1] bcast_S256x1_S256x100000_0_1 (broadcastInDim S256x1 ![0] bcast_S256_S256x1_0 T)) (broadcastInDim S256x100000 ![0, 1] bcast_S1x100000_S256x100000_0_1 (iotaInDim S1x100000 32 1))) : S256x100000.Idx → EReal)
      = Cert.Spec.oneHot T := by
  funext i
  -- the index as (row p, class q)
  obtain ⟨p, q, rfl⟩ : ∃ p q, i = StableHlo.Predicate.ij p q := ⟨i 0, i 1, (StableHlo.Predicate.ij_eta i).symm⟩
  -- at (p, q) the first operand is row p's target and the second the class number q
  have hA : broadcastInDim S256x100000 ![0, 1] bcast_S256x1_S256x100000_0_1 (broadcastInDim S256x1 ![0] bcast_S256_S256x1_0 T)
      (StableHlo.Predicate.ij p q) = T (ix1 p) :=
    (StableHlo.Predicate.bcast_rows bcast_S256_S256x1_0 bcast_S256x1_S256x100000_0_1 T p q).trans
      (congrArg T (funext fun a => match a with | ⟨0, _⟩ => rfl))
  have hB : broadcastInDim S256x100000 ![0, 1] bcast_S1x100000_S256x100000_0_1 (iotaInDim S1x100000 32 1)
      (StableHlo.Predicate.ij p q) = BitVec.ofNat 32 q.val :=
    StableHlo.Predicate.bcast_of_row bcast_S1x100000_S256x100000_0_1 (iotaInDim S1x100000 32 1) p q
  show (((IntOp.cmpi .eq (broadcastInDim S256x100000 ![0, 1] bcast_S256x1_S256x100000_0_1 (broadcastInDim S256x1 ![0] bcast_S256_S256x1_0 T) (StableHlo.Predicate.ij p q))
      (broadcastInDim S256x100000 ![0, 1] bcast_S1x100000_S256x100000_0_1 (iotaInDim S1x100000 32 1) (StableHlo.Predicate.ij p q))).toNat : ℝ) : EReal)
    = if BitVec.ofNat 32 q.val = T (ix1 p) then 1 else 0
  rw [hA, hB]
  exact widen_eq _ _

end Cert.ReferenceIdeal.RefValue

end
-- ==== Proof.lean ====
/-
  The certificate of the margin-softmax loss kernel against its jnp reference.

  Both programs return the mean softmax cross-entropy of blended logits (the margin logit at each row's target class,
  the plain logit elsewhere), a regulariser of the feature norms, and the one-hot array of the targets. The reference
  shifts each row by its maximum; the kernel walks each row in thirteen column tiles with a running shift and a running
  sum of exponentials, rescaling the sum whenever the shift moves. Over the reals a log-sum-exp does not depend on the
  shift, so the two losses agree; the regulariser is the same term in both programs, and both one-hot arrays are 1
  exactly at (row, target). The precondition: the float inputs are finite and every target is a class index.
-/
import proofs.«409744_j20718922236693_3_alg».proof.Defs
import proofs.«409744_j20718922236693_3_alg».proof.Proof.Gen.Kernel
import proofs.«409744_j20718922236693_3_alg».proof.Proof.Gen.KernelIdeal
import proofs.«409744_j20718922236693_3_alg».proof.Proof.Gen.ReferenceIdeal
import proofs.«409744_j20718922236693_3_alg».proof.Proof.Gen.Pre_finite_inputs
import proofs.«409744_j20718922236693_3_alg».proof.Proof.BFrame
import proofs.«409744_j20718922236693_3_alg».proof.Proof.KFrame
import proofs.«409744_j20718922236693_3_alg».proof.Proof.KernelRun
import proofs.«409744_j20718922236693_3_alg».proof.Proof.RefValue
import proofs.«409744_j20718922236693_3_alg».proof.Proof.RefOneHot
import proofs.«409744_j20718922236693_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.KS.frame (F := Bits) m ρ

/-- So does its idealization. -/
theorem frame_ki : Cert.frame_KernelIdeal := fun m ρ _ => Cert.KernelIdeal.KS.frame (F := Ideal) m ρ

/-- And the reference: its run with the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- From memories agreeing on the arguments the two idealized programs end with the same three results: the mean of
    the specification's per-row losses, the regulariser's term, and the specification's one-hot array. -/
theorem algebraic : Cert.algebraic_KernelIdeal_ReferenceIdeal := by
  intro m ρ m' ρ' hpre hagree
  refine ⟨_, _, _, Cert.KernelIdeal.KernelRun.kernel_run m ρ hpre, ?_⟩
  refine (θ_run Cert.ReferenceIdeal.defs _ _).mono (fun r h c => ?_)
    (Cert.ReferenceIdeal.Value.run (F := Ideal) m' ρ')
  obtain ⟨h19, h7, hv0, ha0, ha1, ha2, ha3⟩ := h c
  obtain ⟨e0, e1, e2, e3⟩ := hagree c
  obtain ⟨f0, f1, fT⟩ := Cert.PreFacts.of_fn _ _ _ _ (hpre c)
  refine ⟨?_, ?_, ?_, ha0, ha1, ha2, ha3⟩
  · rw [h19]
    refine (Cert.ReferenceIdeal.RefValue.loss_eq m' c (by rw [e0]; exact f0) (by rw [e1]; exact f1) (by rw [e3]; exact fT)).trans ?_
    rw [e0, e1, e3]
  · rw [h7, e2]
  · rw [hv0]
    refine (Cert.ReferenceIdeal.RefValue.onehot_eq _).trans ?_
    rw [e3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
